-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x1024 : Shape := ⟨3, ![64, 512, 1024]⟩
abbrev S64x511 : Shape := ⟨2, ![64, 511]⟩
abbrev S64 : Shape := ⟨1, ![64]⟩
abbrev S1024x4096 : Shape := ⟨2, ![1024, 4096]⟩
abbrev S4096 : Shape := ⟨1, ![4096]⟩
abbrev S4096x32 : Shape := ⟨2, ![4096, 32]⟩
abbrev S32 : Shape := ⟨1, ![32]⟩
abbrev S_ : Shape := ⟨0, ![]⟩

class Facts : Prop where
  bcast_S_S64x512x1024 : S_.BroadcastsInDim S64x512x1024 (![] : Fin 0 → Fin S64x512x1024.rank)
  reducesTo_S64x512x1024_S_d0_1_2 : S64x512x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x32 : S_.BroadcastsInDim S4096x32 (![] : Fin 0 → Fin S4096x32.rank)
  reducesTo_S4096x32_S_d0_1 : S4096x32.ReducesTo [0, 1] S_
  bcast_S_S32 : S_.BroadcastsInDim S32 (![] : Fin 0 → Fin S32.rank)
  reducesTo_S32_S_d0 : S32.ReducesTo [0] S_
  bcast_S_S64x511 : S_.BroadcastsInDim S64x511 (![] : Fin 0 → Fin S64x511.rank)
  reducesTo_S64x511_S_d0_1 : S64x511.ReducesTo [0, 1] S_

variable [Facts]

def fn_part1 {F : FTy → Type} [FloatOps F] (main_arg1 : IVec S64x511 32) (main_arg6 : FVec F S32 .f32) (main_v13 : IVec S_ 1) (main_v16 : IVec S4096x32 1) : IVec S_ 1 :=
  let main_c_5 : IVec S_ 1 := constantI S_ 1 1#1
  let main_v17 : IVec S_ 1 := (fun x v => Host.reduce IntOp.andi x v reducesTo_S4096x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_c_8 : IVec S_ 32 := constantI S_ 32 0#32
  let main_v24 : IVec S64x511 32 := broadcastInDim S64x511 ![] bcast_S_S64x511 main_c_8
  let main_v25 : IVec S64x511 1 := cmpi .sge main_arg1 main_v24
  let main_c_9 : IVec S_ 1 := constantI S_ 1 1#1
  let main_v26 : IVec S_ 1 := (fun x v => Host.reduce IntOp.andi x v reducesTo_S64x511_S_d0_1 h_S_) main_v25 main_c_9
  let main_v27 : IVec S_ 1 := andi main_v23 main_v26
  let main_c_10 : IVec S_ 32 := constantI S_ 32 4#32
  let main_v28 : IVec S64x511 32 := broadcastInDim S64x511 ![] bcast_S_S64x511 main_c_10
  let main_v29 : IVec S64x511 1 := cmpi .slt main_arg1 main_v28
  let main_c_11 : IVec S_ 1 := constantI S_ 1 1#1
  let main_v30 : IVec S_ 1 := (fun x v => Host.reduce IntOp.andi x v reducesTo_S64x511_S_d0_1 h_S_) main_v29 main_c_11
  let main_v31 : IVec S_ 1 := andi main_v27 main_v30
  main_v31

def fn {F : FTy → Type} [FloatOps F] (main_arg0 : FVec F S64x512x1024 .f32) (main_arg1 : IVec S64x511 32) (main_arg2 : IVec S64 32) (main_arg3 : FVec F S1024x4096 .f32) (main_arg4 : FVec F S4096 .f32) (main_arg5 : FVec F S4096x32 .f32) (main_arg6 : FVec F S32 .f32) : IVec S_ 1 :=
  let main_v0 : FVec F S64x512x1024 .f32 := Host.absf main_arg0
  let main_cst : FVec F S_ .f32 := constant S_ .f32 0x7F800000#32
  let main_v1 : FVec F S64x512x1024 .f32 := broadcastInDim S64x512x1024 ![] bcast_S_S64x512x1024 main_cst
  let main_v2 : IVec S64x512x1024 1 := cmpf .olt main_v0 main_v1
  let main_c : IVec S_ 1 := constantI S_ 1 1#1
  let main_v3 : IVec S_ 1 := (fun x v => Host.reduce IntOp.andi x v reducesTo_S64x512x1024_S_d0_1_2 h_S_) main_v2 main_c
  let main_v4 : FVec F S1024x4096 .f32 := Host.absf main_arg3
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x32 .f32 := Host.absf main_arg5
  let main_cst_4 : FVec F S_ .f32 := constant S_ .f32 0x7F800000#32
  let main_v15 : FVec F S4096x32 .f32 := broadcastInDim S4096x32 ![] bcast_S_S4096x32 main_cst_4
  let main_v16 : IVec S4096x32 1 := cmpf .olt main_v14 main_v15
  fn_part1 (F := F) main_arg1 main_arg6 main_v13 main_v16
-- ==== Kernel.lean ====
abbrev S64x512x1024 : Shape := ⟨3, ![64, 512, 1024]⟩
abbrev S64x511 : Shape := ⟨2, ![64, 511]⟩
abbrev S64 : Shape := ⟨1, ![64]⟩
abbrev S1024x4096 : Shape := ⟨2, ![1024, 4096]⟩
abbrev S4096 : Shape := ⟨1, ![4096]⟩
abbrev S4096x32 : Shape := ⟨2, ![4096, 32]⟩
abbrev S32 : Shape := ⟨1, ![32]⟩
abbrev S32768x1024 : Shape := ⟨2, ![32768, 1024]⟩
abbrev S_ : Shape := ⟨0, ![]⟩
abbrev S64x1 : Shape := ⟨2, ![64, 1]⟩
abbrev S64x512 : Shape := ⟨2, ![64, 512]⟩
abbrev S32768 : Shape := ⟨1, ![32768]⟩
abbrev S512 : Shape := ⟨1, ![512]⟩
abbrev S1x512 : Shape := ⟨2, ![1, 512]⟩
abbrev S32768x1 : Shape := ⟨2, ![32768, 1]⟩
abbrev S1x4 : Shape := ⟨2, ![1, 4]⟩
abbrev S32768x4 : Shape := ⟨2, ![32768, 4]⟩
abbrev S128x256 : Shape := ⟨2, ![128, 256]⟩
abbrev S128 : Shape := ⟨1, ![128]⟩
abbrev S4096x4 : Shape := ⟨2, ![4096, 4]⟩
abbrev S4 : Shape := ⟨1, ![4]⟩
abbrev S2x8x128 : Shape := ⟨3, ![2, 8, 128]⟩
abbrev S256x1024 : Shape := ⟨2, ![256, 1024]⟩
abbrev S256x4 : Shape := ⟨2, ![256, 4]⟩
abbrev S1x8x128 : Shape := ⟨3, ![1, 8, 128]⟩
abbrev S1 : Shape := ⟨1, ![1]⟩
abbrev S256x4096 : Shape := ⟨2, ![256, 4096]⟩
abbrev S1x4096 : Shape := ⟨2, ![1, 4096]⟩
abbrev S256 : Shape := ⟨1, ![256]⟩
abbrev S256x1 : Shape := ⟨2, ![256, 1]⟩
abbrev S1x1 : Shape := ⟨2, ![1, 1]⟩
abbrev S8x128 : Shape := ⟨2, ![8, 128]⟩
abbrev S1x1x1 : Shape := ⟨3, ![1, 1, 1]⟩

abbrev nBuf : Space → Nat
  | .hbm => 46
  | .vmem => 11
  | .smem => 1
  | _ => 0

abbrev bufTy : (tb : Table) → Fin (tcTables nBuf tb) → BufTy
  | .hbm, ⟨0, _⟩ => ⟨S64x512x1024, .f32⟩
  | .hbm, ⟨1, _⟩ => ⟨S64x511, .i32⟩
  | .hbm, ⟨2, _⟩ => ⟨S64, .i32⟩
  | .hbm, ⟨3, _⟩ => ⟨S1024x4096, .f32⟩
  | .hbm, ⟨4, _⟩ => ⟨S4096, .f32⟩
  | .hbm, ⟨5, _⟩ => ⟨S4096x32, .f32⟩
  | .hbm, ⟨6, _⟩ => ⟨S32, .f32⟩
  | .hbm, ⟨7, _⟩ => ⟨S32768x1024, .f32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S_, .i32⟩
  | .hbm, ⟨12, _⟩ => ⟨S64x1, .i32⟩
  | .hbm, ⟨13, _⟩ => ⟨S64x512, .i32⟩
  | .hbm, ⟨14, _⟩ => ⟨S32768, .i32⟩
  | .hbm, ⟨15, _⟩ => ⟨S512, .i32⟩
  | .hbm, ⟨16, _⟩ => ⟨S1x512, .i32⟩
  | .hbm, ⟨17, _⟩ => ⟨S64x1, .i32⟩
  | .hbm, ⟨18, _⟩ => ⟨S64x512, .i32⟩
  | .hbm, ⟨19, _⟩ => ⟨S64x512, .i32⟩
  | .hbm, ⟨20, _⟩ => ⟨S64x512, .i1⟩
  | .hbm, ⟨21, _⟩ => ⟨S32768, .i1⟩
  | .hbm, ⟨22, _⟩ => ⟨S32768x1, .i32⟩
  | .hbm, ⟨23, _⟩ => ⟨S1x4, .i32⟩
  | .hbm, ⟨24, _⟩ => ⟨S32768x4, .i32⟩
  | .hbm, ⟨25, _⟩ => ⟨S32768x4, .i32⟩
  | .hbm, ⟨26, _⟩ => ⟨S32768x4, .i1⟩
  | .hbm, ⟨27, _⟩ => ⟨S32768x4, .f32⟩
  | .hbm, ⟨28, _⟩ => ⟨S32768x1, .i1⟩
  | .hbm, ⟨29, _⟩ => ⟨S32768x1, .f32⟩
  | .hbm, ⟨30, _⟩ => ⟨S32768x4, .f32⟩
  | .hbm, ⟨31, _⟩ => ⟨S32768x4, .f32⟩
  | .hbm, ⟨32, _⟩ => ⟨S128x256, .i1⟩
  | .hbm, ⟨33, _⟩ => ⟨S_, .i1⟩
  | .hbm, ⟨34, _⟩ => ⟨S128, .i1⟩
  | .hbm, ⟨35, _⟩ => ⟨S1024x4096, .bf16⟩
  | .hbm, ⟨36, _⟩ => ⟨S4096x4, .f32⟩
  | .hbm, ⟨37, _⟩ => ⟨S4096x4, .bf16⟩
  | .hbm, ⟨38, _⟩ => ⟨S4, .f32⟩
  | .hbm, ⟨39, _⟩ => ⟨S2x8x128, .f32⟩
  | .hbm, ⟨40, _⟩ => ⟨S1x1x1, .f32⟩
  | .hbm, ⟨41, _⟩ => ⟨S_, .f32⟩
  | .hbm, ⟨42, _⟩ => ⟨S1x1x1, .f32⟩
  | .hbm, ⟨43, _⟩ => ⟨S_, .f32⟩
  | .hbm, ⟨44, _⟩ => ⟨S_, .f32⟩
  | .hbm, ⟨45, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S1024x4096, .bf16⟩
  | .local _ .vmem, ⟨3, _⟩ => ⟨S4096, .f32⟩
  | .local _ .vmem, ⟨4, _⟩ => ⟨S4096x4, .bf16⟩
  | .local _ .vmem, ⟨5, _⟩ => ⟨S4, .f32⟩
  | .local _ .vmem, ⟨6, _⟩ => ⟨S256x4, .f32⟩
  | .local _ .vmem, ⟨7, _⟩ => ⟨S256x4, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .smem, ⟨0, _⟩ => ⟨S128, .i32⟩
  | _, _ => ⟨S64x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_1 : Ref sig .tc := ⟨.hbm, 33, rfl⟩
abbrev main_v19 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v20 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 64], ![false, false]⟩

abbrev pre0 : Pipeline.Prefetch sig := ⟨1, ![main_v20.idx], fun | 0 => main_v20.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let v5 : Index := Scalar.indexCast v1
  ![v5.toNat]
def k0_cond3 (i : grid0.Coords) : BitVec 1 :=
  let arg1 : BitVec 32 := BitVec.ofNat 32 (i 1).val
  let c63_i32 : BitVec 32 := 63#32
  let v10 : BitVec 1 := Scalar.cmpi .eq arg1 c63_i32
  let v11 : BitVec 32 := Scalar.extui v10
  let c0_i32_3 : BitVec 32 := 0#32
  let v12 : BitVec 1 := Scalar.cmpi .ne v11 c0_i32_3
  v12

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4096x4 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S64x512x1024_S32768x1024 : S64x512x1024.ShapeCasts S32768x1024
  bcast_S_S64 : S_.BroadcastsInDim S64 (![] : Fin 0 → Fin S64.rank)
  bcast_S_S64x1 : S_.BroadcastsInDim S64x1 (![] : Fin 0 → Fin S64x1.rank)
  concatenates_S64x511_S64x1_S64x512_d1 : Shape.Concatenates [S64x511, S64x1] S64x512 1
  shapeCasts_S64x512_S32768 : S64x512.ShapeCasts S32768
  bcast_S512_S1x512_1 : S512.BroadcastsInDim S1x512 (![1] : Fin 1 → Fin S1x512.rank)
  bcast_S64_S64x1_0 : S64.BroadcastsInDim S64x1 (![0] : Fin 1 → Fin S64x1.rank)
  bcast_S1x512_S64x512_0_1 : S1x512.BroadcastsInDim S64x512 (![0, 1] : Fin 2 → Fin S64x512.rank)
  bcast_S64x1_S64x512_0_1 : S64x1.BroadcastsInDim S64x512 (![0, 1] : Fin 2 → Fin S64x512.rank)
  bcast_S32768_S32768x1_0 : S32768.BroadcastsInDim S32768x1 (![0] : Fin 1 → Fin S32768x1.rank)
  bcast_S32768x1_S32768x4_0_1 : S32768x1.BroadcastsInDim S32768x4 (![0, 1] : Fin 2 → Fin S32768x4.rank)
  bcast_S1x4_S32768x4_0_1 : S1x4.BroadcastsInDim S32768x4 (![0, 1] : Fin 2 → Fin S32768x4.rank)
  shapeCasts_S32768_S128x256 : S32768.ShapeCasts S128x256
  reducesTo_S128x256_S128_d1 : S128x256.ReducesTo [1] S128
  h_S_ : 0 < S_.numel
  natLt_1_32 : 1 < 32
  bitsLt_bf16_f32 : FTy.bits .bf16 < FTy.bits .f32
  slices_S4096x32_S4096x4_0_0 : S4096x32.Slices ![0, 0] S4096x4
  slices_S32_S4_0 : S32.Slices ![0] S4
  inb_S1x8x128_S1x8x128_0_0_0 : ∀ a, (![0, 0, 0] : Fin 3 → Nat) a + S1x8x128.size a ≤ S1x8x128.size a
  h_S1x8x128 : 0 < S1x8x128.numel
  shapeCasts_S1x8x128_S1x8x128 : S1x8x128.ShapeCasts S1x8x128
  numel1_S1 : S1.numel = 1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S256x4096 : S1x4096.Broadcasts S256x4096
  inb_S4096x4_S4096x4_0_0 : ∀ a, (![0, 0] : Fin 2 → Nat) a + S4096x4.size a ≤ S4096x4.size a
  h_S4096x4 : 0 < S4096x4.numel
  shapeCasts_S4096x4_S4096x4 : S4096x4.ShapeCasts S4096x4
  inb_S4_S4_0 : ∀ a, (![0] : Fin 1 → Nat) a + S4.size a ≤ S4.size a
  h_S4 : 0 < S4.numel
  shapeCasts_S4_S4 : S4.ShapeCasts S4
  shapeCasts_S4_S1x4 : S4.ShapeCasts S1x4
  broadcasts_S1x4_S256x4 : S1x4.Broadcasts S256x4
  reduces_S256x4_S256 : S256x4.Reduces [1] S256
  shapeCasts_S256_S256x1 : S256.ShapeCasts S256x1
  broadcasts_S256x1_S256x4 : S256x1.Broadcasts S256x4
  inb_S256x4_S256x4_0_0 : ∀ a, (![0, 0] : Fin 2 → Nat) a + S256x4.size a ≤ S256x4.size a
  h_S256x4 : 0 < S256x4.numel
  shapeCasts_S256x4_S256x4 : S256x4.ShapeCasts S256x4
  reduces_S256x1_S1 : S256x1.Reduces [0] S1
  shapeCasts_S1_S1x1 : S1.ShapeCasts S1x1
  iota_S8x128_d0_w32 : S8x128.Iotas .tc 32 [0]
  iota_S8x128_d1_w32 : S8x128.Iotas .tc 32 [1]
  broadcasts_S1x1_S8x128 : S1x1.Broadcasts S8x128
  shapeCasts_S8x128_S1x8x128 : S8x128.ShapeCasts S1x8x128
  slices_S2x8x128_S1x1x1_0_0_0 : S2x8x128.Slices ![0, 0, 0] S1x1x1
  shapeCasts_S1x1x1_S_ : S1x1x1.ShapeCasts S_
  slices_S2x8x128_S1x1x1_1_0_0 : S2x8x128.Slices ![1, 0, 0] S1x1x1
  dot_S256x1024_S1024x4096_S256x4096_1_0_0_1_n_n_wf : DotDims.WF S256x1024 S1024x4096 S256x4096 [1] [0] [0] [1] [] []
  dot_S256x4096_S4096x4_S256x4_1_0_0_1_n_n_wf : DotDims.WF S256x4096 S4096x4 S256x4 [1] [0] [0] [1] [] []
  hrank0 : 0 < grid0.rank
  k0_off1_inb : ∀ i : grid0.Coords, ∀ a, (k0_off1 i) a + S1.size a ≤ S128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S32768x1024.size a
  hwx0_0 : ∀ i : grid0.Coords, EltTy.bits .f32 = 32 ∨ (Rect.block (s := S32768x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x4.size a ≤ S4096x4.size a
  hwx0_3 : ∀ i : grid0.Coords, EltTy.bits .bf16 = 32 ∨ (Rect.block (s := S4096x4) S4096x4.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4.size a ≤ S4.size a
  hwx0_4 : ∀ i : grid0.Coords, EltTy.bits .f32 = 32 ∨ (Rect.block (s := S4) S4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4.size a ≤ S32768x4.size a
  hwx0_5 : ∀ i : grid0.Coords, EltTy.bits .f32 = 32 ∨ (Rect.block (s := S32768x4) S256x4.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S2x8x128.size a
  hwx0_6 : ∀ i : grid0.Coords, EltTy.bits .f32 = 32 ∨ (Rect.block (s := S2x8x128) S1x8x128.size (cc0_transform_6 i) (hinb0_6 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x4_S256x4_1_0_0_1_n_n : DotDims S256x4096 S4096x4 S256x4 where
  lhsContracting := [1]
  rhsContracting := [0]
  lhsNonContracting := [0]
  rhsNonContracting := [1]
  lhsBatch := []
  rhsBatch := []
  wf := dot_S256x4096_S4096x4_S256x4_1_0_0_1_n_n_wf

abbrev spec0_0 : Pipeline.WinSpec sig grid0.rank :=
  Pipeline.WinSpec.ofSpec (Memref.whole main_v0) S256x1024.size reads0_0 false false 2 stage0_0 sem0_0 nbuf0_0 hstage0_0

abbrev spec0_1 : Pipeline.WinSpec sig grid0.rank :=
  Pipeline.WinSpec.ofSpec (Memref.whole main_v21) S1024x4096.size reads0_1 false true 1 stage0_1 sem0_1 nbuf0_1 hstage0_1

abbrev spec0_2 : Pipeline.WinSpec sig grid0.rank :=
  Pipeline.WinSpec.ofSpec (Memref.whole main_arg4) S4096.size reads0_2 false true 1 stage0_2 sem0_2 nbuf0_2 hstage0_2

abbrev spec0_3 : Pipeline.WinSpec sig grid0.rank :=
  Pipeline.WinSpec.ofSpec (Memref.whole main_v23) S4096x4.size reads0_3 false true 1 stage0_3 sem0_3 nbuf0_3 hstage0_3

abbrev spec0_4 : Pipeline.WinSpec sig grid0.rank :=
  Pipeline.WinSpec.ofSpec (Memref.whole main_v24) S4.size reads0_4 false true 1 stage0_4 sem0_4 nbuf0_4 hstage0_4

abbrev spec0_5 : Pipeline.WinSpec sig grid0.rank :=
  Pipeline.WinSpec.ofSpec (Memref.whole main_v17) S256x4.size reads0_5 false false 2 stage0_5 sem0_5 nbuf0_5 hstage0_5

abbrev spec0_6 : Pipeline.WinSpec sig grid0.rank :=
  Pipeline.WinSpec.ofSpec (Memref.whole main_v25) S1x8x128.size reads0_6 true false 2 stage0_6 sem0_6 nbuf0_6 hstage0_6

abbrev spec0 : Fin 7 → Pipeline.WinSpec sig grid0.rank := fun | 0 => spec0_0 | 1 => spec0_1 | 2 => spec0_2 | 3 => spec0_3 | 4 => spec0_4 | 5 => spec0_5 | 6 => spec0_6 | ⟨_ + 7, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | ⟨_ + 7, h⟩ => absurd h (Nat.not_lt.2 (Nat.le_add_left _ _))
abbrev ix0 (pf : pre0.Contents (Elt F)) : (w : Fin 7) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | ⟨_ + 7, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | ⟨_ + 7, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | ⟨_ + 7, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | ⟨_ + 7, h⟩ => absurd h (Nat.not_lt.2 (Nat.le_add_left _ _))
abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where
  harr0 : ∀ w, (spec0 w).arr.IsWhole

variable [Facts]
-- ==== ReferenceIdeal.lean ====
abbrev S64x512x1024 : Shape := ⟨3, ![64, 512, 1024]⟩
abbrev S64x511 : Shape := ⟨2, ![64, 511]⟩
abbrev S64 : Shape := ⟨1, ![64]⟩
abbrev S1024x4096 : Shape := ⟨2, ![1024, 4096]⟩
abbrev S4096 : Shape := ⟨1, ![4096]⟩
abbrev S4096x32 : Shape := ⟨2, ![4096, 32]⟩
abbrev S32 : Shape := ⟨1, ![32]⟩
abbrev S64x512x4096 : Shape := ⟨3, ![64, 512, 4096]⟩
abbrev S1x1x4096 : Shape := ⟨3, ![1, 1, 4096]⟩
abbrev S_ : Shape := ⟨0, ![]⟩
abbrev S64x512x32 : Shape := ⟨3, ![64, 512, 32]⟩
abbrev S1x1x32 : Shape := ⟨3, ![1, 1, 32]⟩
abbrev S64x512x8x4 : Shape := ⟨4, ![64, 512, 8, 4]⟩
abbrev S64x512x8 : Shape := ⟨3, ![64, 512, 8]⟩
abbrev S64x512x8x1 : Shape := ⟨4, ![64, 512, 8, 1]⟩
abbrev S64x511x1x4 : Shape := ⟨4, ![64, 511, 1, 4]⟩
abbrev S64x511x4 : Shape := ⟨3, ![64, 511, 4]⟩
abbrev S64x511x1 : Shape := ⟨3, ![64, 511, 1]⟩
abbrev S64x511x1x1 : Shape := ⟨4, ![64, 511, 1, 1]⟩
abbrev S1 : Shape := ⟨1, ![1]⟩
abbrev S1x1x1x1 : Shape := ⟨4, ![1, 1, 1, 1]⟩
abbrev S511 : Shape := ⟨1, ![511]⟩
abbrev S1x511 : Shape := ⟨2, ![1, 511]⟩
abbrev S64x1 : Shape := ⟨2, ![64, 1]⟩

abbrev nBuf : Space → Nat
  | .hbm => 71
  | .vmem => 0
  | .smem => 0
  | _ => 0

abbrev bufTy : (tb : Table) → Fin (tcTables nBuf tb) → BufTy
  | .hbm, ⟨0, _⟩ => ⟨S64x512x1024, .f32⟩
  | .hbm, ⟨1, _⟩ => ⟨S64x511, .i32⟩
  | .hbm, ⟨2, _⟩ => ⟨S64, .i32⟩
  | .hbm, ⟨3, _⟩ => ⟨S1024x4096, .f32⟩
  | .hbm, ⟨4, _⟩ => ⟨S4096, .f32⟩
  | .hbm, ⟨5, _⟩ => ⟨S4096x32, .f32⟩
  | .hbm, ⟨6, _⟩ => ⟨S32, .f32⟩
  | .hbm, ⟨7, _⟩ => ⟨S64x512x4096, .f32⟩
  | .hbm, ⟨8, _⟩ => ⟨S1x1x4096, .f32⟩
  | .hbm, ⟨9, _⟩ => ⟨S64x512x4096, .f32⟩
  | .hbm, ⟨10, _⟩ => ⟨S64x512x4096, .f32⟩
  | .hbm, ⟨11, _⟩ => ⟨S_, .f32⟩
  | .hbm, ⟨12, _⟩ => ⟨S64x512x4096, .f32⟩
  | .hbm, ⟨13, _⟩ => ⟨S64x512x4096, .f32⟩
  | .hbm, ⟨14, _⟩ => ⟨S64x512x32, .f32⟩
  | .hbm, ⟨15, _⟩ => ⟨S1x1x32, .f32⟩
  | .hbm, ⟨16, _⟩ => ⟨S64x512x32, .f32⟩
  | .hbm, ⟨17, _⟩ => ⟨S64x512x32, .f32⟩
  | .hbm, ⟨18, _⟩ => ⟨S64x512x8x4, .f32⟩
  | .hbm, ⟨19, _⟩ => ⟨S_, .f32⟩
  | .hbm, ⟨20, _⟩ => ⟨S64x512x8, .f32⟩
  | .hbm, ⟨21, _⟩ => ⟨S_, .f32⟩
  | .hbm, ⟨22, _⟩ => ⟨S64x512x8, .f32⟩
  | .hbm, ⟨23, _⟩ => ⟨S64x512x8, .f32⟩
  | .hbm, ⟨24, _⟩ => ⟨S64x512x8x1, .f32⟩
  | .hbm, ⟨25, _⟩ => ⟨S64x512x8x4, .f32⟩
  | .hbm, ⟨26, _⟩ => ⟨S64x512x8x4, .f32⟩
  | .hbm, ⟨27, _⟩ => ⟨S64x512x8x4, .f32⟩
  | .hbm, ⟨28, _⟩ => ⟨S_, .f32⟩
  | .hbm, ⟨29, _⟩ => ⟨S64x512x8, .f32⟩
  | .hbm, ⟨30, _⟩ => ⟨S64x512x8x1, .f32⟩
  | .hbm, ⟨31, _⟩ => ⟨S64x512x8x1, .f32⟩
  | .hbm, ⟨32, _⟩ => ⟨S64x512x8x4, .f32⟩
  | .hbm, ⟨33, _⟩ => ⟨S64x512x8x4, .f32⟩
  | .hbm, ⟨34, _⟩ => ⟨S64x511x1x4, .f32⟩
  | .hbm, ⟨35, _⟩ => ⟨S64x511x4, .f32⟩
  | .hbm, ⟨36, _⟩ => ⟨S64x511x1, .i32⟩
  | .hbm, ⟨37, _⟩ => ⟨S_, .i32⟩
  | .hbm, ⟨38, _⟩ => ⟨S64x511x1, .i32⟩
  | .hbm, ⟨39, _⟩ => ⟨S64x511x1, .i1⟩
  | .hbm, ⟨40, _⟩ => ⟨S_, .i32⟩
  | .hbm, ⟨41, _⟩ => ⟨S64x511x1, .i32⟩
  | .hbm, ⟨42, _⟩ => ⟨S64x511x1, .i32⟩
  | .hbm, ⟨43, _⟩ => ⟨S64x511x1, .i32⟩
  | .hbm, ⟨44, _⟩ => ⟨S64x511x1x1, .i32⟩
  | .hbm, ⟨45, _⟩ => ⟨S1, .i32⟩
  | .hbm, ⟨46, _⟩ => ⟨S_, .i32⟩
  | .hbm, ⟨47, _⟩ => ⟨S64x511x1x1, .i32⟩
  | .hbm, ⟨48, _⟩ => ⟨S64x511x1x1, .i1⟩
  | .hbm, ⟨49, _⟩ => ⟨S1x1x1x1, .i32⟩
  | .hbm, ⟨50, _⟩ => ⟨S64x511x1x1, .i32⟩
  | .hbm, ⟨51, _⟩ => ⟨S64x511x1x1, .i1⟩
  | .hbm, ⟨52, _⟩ => ⟨S64x511x1x1, .i1⟩
  | .hbm, ⟨53, _⟩ => ⟨S_, .i1⟩
  | .hbm, ⟨54, _⟩ => ⟨S64x511x1, .i1⟩
  | .hbm, ⟨55, _⟩ => ⟨S64x511x1, .f32⟩
  | .hbm, ⟨56, _⟩ => ⟨S_, .f32⟩
  | .hbm, ⟨57, _⟩ => ⟨S64x511x1, .f32⟩
  | .hbm, ⟨58, _⟩ => ⟨S64x511x1, .f32⟩
  | .hbm, ⟨59, _⟩ => ⟨S64x511, .f32⟩
  | .hbm, ⟨60, _⟩ => ⟨S511, .i32⟩
  | .hbm, ⟨61, _⟩ => ⟨S1x511, .i32⟩
  | .hbm, ⟨62, _⟩ => ⟨S64x1, .i32⟩
  | .hbm, ⟨63, _⟩ => ⟨S64x511, .i32⟩
  | .hbm, ⟨64, _⟩ => ⟨S64x511, .i32⟩
  | .hbm, ⟨65, _⟩ => ⟨S64x511, .i1⟩
  | .hbm, ⟨66, _⟩ => ⟨S64x511, .f32⟩
  | .hbm, ⟨67, _⟩ => ⟨S64x511, .f32⟩
  | .hbm, ⟨68, _⟩ => ⟨S_, .f32⟩
  | .hbm, ⟨69, _⟩ => ⟨S_, .f32⟩
  | .hbm, ⟨70, _⟩ => ⟨S_, .f32⟩
  | _, _ => ⟨S64x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_cst : Ref sig .tc := ⟨.hbm, 19, rfl⟩
abbrev main_call1_v0 : Ref sig .tc := ⟨.hbm, 20, rfl⟩
abbrev main_call1_cst_0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_cst_1 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_call2_c : Ref sig .tc := ⟨.hbm, 37, rfl⟩
abbrev main_call2_v0 : Ref sig .tc := ⟨.hbm, 38, rfl⟩
abbrev main_call2_v1 : Ref sig .tc := ⟨.hbm, 39, rfl⟩
abbrev main_call2_c_0 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_c_1 : Ref sig .tc := ⟨.hbm, 45, rfl⟩
abbrev main_call2_c_2 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_3 : Ref sig .tc := ⟨.hbm, 53, rfl⟩
abbrev main_call2_v12 : Ref sig .tc := ⟨.hbm, 54, rfl⟩
abbrev main_call2_v13 : Ref sig .tc := ⟨.hbm, 55, rfl⟩
abbrev main_call2_cst : Ref sig .tc := ⟨.hbm, 56, rfl⟩
abbrev main_call2_v14 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_cst : Ref sig .tc := ⟨.hbm, 68, rfl⟩
abbrev main_v24 : Ref sig .tc := ⟨.hbm, 69, rfl⟩
abbrev main_v25 : Ref sig .tc := ⟨.hbm, 70, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S64x512x4096_0_1_2 : S1x1x4096.BroadcastsInDim S64x512x4096 (![0, 1, 2] : Fin 3 → Fin S64x512x4096.rank)
  bcast_S_S64x512x4096 : S_.BroadcastsInDim S64x512x4096 (![] : Fin 0 → Fin S64x512x4096.rank)
  bcast_S32_S1x1x32_2 : S32.BroadcastsInDim S1x1x32 (![2] : Fin 1 → Fin S1x1x32.rank)
  bcast_S1x1x32_S64x512x32_0_1_2 : S1x1x32.BroadcastsInDim S64x512x32 (![0, 1, 2] : Fin 3 → Fin S64x512x32.rank)
  shapeCasts_S64x512x32_S64x512x8x4 : S64x512x32.ShapeCasts S64x512x8x4
  reducesTo_S64x512x8x4_S64x512x8_d3 : S64x512x8x4.ReducesTo [3] S64x512x8
  h_S_ : 0 < S_.numel
  bcast_S_S64x512x8 : S_.BroadcastsInDim S64x512x8 (![] : Fin 0 → Fin S64x512x8.rank)
  bcast_S64x512x8_S64x512x8x1_0_1_2 : S64x512x8.BroadcastsInDim S64x512x8x1 (![0, 1, 2] : Fin 3 → Fin S64x512x8x1.rank)
  bcast_S64x512x8x1_S64x512x8x4_0_1_2_3 : S64x512x8x1.BroadcastsInDim S64x512x8x4 (![0, 1, 2, 3] : Fin 4 → Fin S64x512x8x4.rank)
  slices_S64x512x8x4_S64x511x1x4_0_0_0_0 : S64x512x8x4.Slices ![0, 0, 0, 0] S64x511x1x4
  shapeCasts_S64x511x1x4_S64x511x4 : S64x511x1x4.ShapeCasts S64x511x4
  bcast_S64x511_S64x511x1_0_1 : S64x511.BroadcastsInDim S64x511x1 (![0, 1] : Fin 2 → Fin S64x511x1.rank)
  bcast_S_S64x511x1 : S_.BroadcastsInDim S64x511x1 (![] : Fin 0 → Fin S64x511x1.rank)
  shapeCasts_S64x511x1_S64x511x1x1 : S64x511x1.ShapeCasts S64x511x1x1
  bcast_S_S64x511x1x1 : S_.BroadcastsInDim S64x511x1x1 (![] : Fin 0 → Fin S64x511x1x1.rank)
  bcast_S1_S1x1x1x1_3 : S1.BroadcastsInDim S1x1x1x1 (![3] : Fin 1 → Fin S1x1x1x1.rank)
  bcast_S1x1x1x1_S64x511x1x1_0_1_2_3 : S1x1x1x1.BroadcastsInDim S64x511x1x1 (![0, 1, 2, 3] : Fin 4 → Fin S64x511x1x1.rank)
  reducesTo_S64x511x1x1_S64x511x1_d3 : S64x511x1x1.ReducesTo [3] S64x511x1
  shapeCasts_S64x511x1_S64x511 : S64x511x1.ShapeCasts S64x511
  bcast_S511_S1x511_1 : S511.BroadcastsInDim S1x511 (![1] : Fin 1 → Fin S1x511.rank)
  bcast_S64_S64x1_0 : S64.BroadcastsInDim S64x1 (![0] : Fin 1 → Fin S64x1.rank)
  bcast_S1x511_S64x511_0_1 : S1x511.BroadcastsInDim S64x511 (![0, 1] : Fin 2 → Fin S64x511.rank)
  bcast_S64x1_S64x511_0_1 : S64x1.BroadcastsInDim S64x511 (![0, 1] : Fin 2 → Fin S64x511.rank)
  reducesTo_S64x511_S_d0_1 : S64x511.ReducesTo [0, 1] S_
  dot_S64x512x1024_S1024x4096_S64x512x4096_2_0_01_1_n_n_wf : DotDims.WF S64x512x1024 S1024x4096 S64x512x4096 [2] [0] [0, 1] [1] [] []
  dot_S64x512x4096_S4096x32_S64x512x32_2_0_01_1_n_n_wf : DotDims.WF S64x512x4096 S4096x32 S64x512x32 [2] [0] [0, 1] [1] [] []
  gather_S64x511x4_S64x511x1x1_S64x511x1_n_2_01_01_2_3_111_wf : GatherDims.WF S64x511x4 S64x511x1x1 S64x511x1 [] [2] [0, 1] [2] [0, 1] 3 ![1, 1, 1]

variable [Facts₀]

def dot_S64x512x1024_S1024x4096_S64x512x4096_2_0_01_1_n_n : DotDims S64x512x1024 S1024x4096 S64x512x4096 where
  lhsContracting := [2]
  rhsContracting := [0]
  lhsNonContracting := [0, 1]
  rhsNonContracting := [1]
  lhsBatch := []
  rhsBatch := []
  wf := dot_S64x512x1024_S1024x4096_S64x512x4096_2_0_01_1_n_n_wf
def dot_S64x512x4096_S4096x32_S64x512x32_2_0_01_1_n_n : DotDims S64x512x4096 S4096x32 S64x512x32 where
  lhsContracting := [2]
  rhsContracting := [0]
  lhsNonContracting := [0, 1]
  rhsNonContracting := [1]
  lhsBatch := []
  rhsBatch := []
  wf := dot_S64x512x4096_S4096x32_S64x512x32_2_0_01_1_n_n_wf
def gather_S64x511x4_S64x511x1x1_S64x511x1_n_2_01_01_2_3_111 : GatherDims S64x511x4 S64x511x1x1 S64x511x1 where
  offsetDims := []
  collapsedSliceDims := [2]
  operandBatchingDims := [0, 1]
  startIndicesBatchingDims := [0, 1]
  startIndexMap := [2]
  indexVectorDim := 3
  sliceSizes := ![1, 1, 1]
  wf := gather_S64x511x4_S64x511x1x1_S64x511x1_n_2_01_01_2_3_111_wf

class Facts : Prop extends Facts₀ where

variable [Facts]
-- ==== Proof.Spec.lean ====
/-
  The mathematics both programs compute, on the extended reals, with no program in sight.

  One timestep's row of states `x` goes through a two-layer network: hidden unit `j` is
  `max (∑ₖ x k · W1 k j + b1 j) 0`, logit `a` (of the first option's four actions) is
  `∑ⱼ h j · W2 j a + b2 a`, and the row's log-probabilities are the logits shifted by their
  maximum minus the logarithm of the sum of the shifted logits' exponentials.  The result of
  either program is minus the sum, over samples and timesteps, of the log-probability of the action
  taken there times the 0/1 weight "timestep below the sample's length".

  Everything here is stated with `+`, `·`, `max`, `exp`, `log` on `EReal` exactly as the two programs
  apply them, so no finiteness is used: `x · 0 = 0` holds for every extended real and addition is
  a commutative monoid, which is all the re-arrangement of the sums needs.
-/
import Idealize.ShloMosaic.PureOps.Ideal
import Idealize.ShloMosaic.PureOps.Ideal.Laws

noncomputable section

namespace Cert.Spec

open Idealize.ShloMosaic

/-- `-∞` as both programs write it (the f32 pattern of negative infinity). -/
abbrev negInf : EReal := Ideal.ofBits .f32 0xFF800000#32

/-- `+0.0` as both programs write it. -/
abbrev zero : EReal := Ideal.ofBits .f32 0x00000000#32

/-- Hidden unit `j` of a row `x`: the affine map, then the positive part. -/
def hidden (x : Fin 1024 → EReal) (W1 : Fin 1024 → Fin 4096 → EReal) (b1 : Fin 4096 → EReal) (j : Fin 4096) : EReal :=
  max ((∑ k : Fin 1024, x k * W1 k j) + b1 j) zero

/-- Logit `a` over the hidden units `h`. -/
def logit (h : Fin 4096 → EReal) (W2 : Fin 4096 → Fin 4 → EReal) (b2 : Fin 4 → EReal) (a : Fin 4) : EReal :=
  (∑ j : Fin 4096, h j * W2 j a) + b2 a

/-- The shift of a row of four logits: their maximum, folded from `-∞` and compared with `-∞` once more. -/
def rowMax (lg : Fin 4 → EReal) : EReal :=
  max negInf ((Finset.univ : Finset (Fin 4)).fold max negInf lg)

/-- The log-probabilities of a row of four logits. -/
def logSoftmax (lg : Fin 4 → EReal) (a : Fin 4) : EReal :=
  (lg a - rowMax lg) - Ideal.log (∑ a' : Fin 4, Ideal.exp (lg a' - rowMax lg))

/-- A row of states to its four log-probabilities. -/
def rowLP (x : Fin 1024 → EReal) (W1 : Fin 1024 → Fin 4096 → EReal) (b1 : Fin 4096 → EReal)
    (W2 : Fin 4096 → Fin 4 → EReal) (b2 : Fin 4 → EReal) : Fin 4 → EReal :=
  logSoftmax (logit (hidden x W1 b1) W2 b2)

/-! ## The seven arguments as plain functions, and what each program computes from them -/

/-- A length word's weight bit at timestep `t` as the kernel forms it: `t` below the length clamped to 511 (signed). -/
def liveBit (t : Nat) (len : BitVec 32) : BitVec 1 :=
  IntOp.cmpi .slt (BitVec.ofNat 32 t) (IntOp.minsi len 511#32)

/-- The same bit as the reference forms it: `t` below the length (signed). -/
def refBit (t : Nat) (len : BitVec 32) : BitVec 1 :=
  IntOp.cmpi .slt (BitVec.ofNat 32 t) len

/-- The one-hot bit: action word `w` is action `a`. -/
def hotBit (w : BitVec 32) (a : Fin 4) : BitVec 1 :=
  IntOp.cmpi .eq w (BitVec.ofNat 32 a.val)

/-- A bit converted to a float: `0` or `1`. -/
def bitVal (b : BitVec 1) : EReal := ((b.toNat : ℝ) : EReal)

/-- An action word as one of the four actions (the word itself when it is below four). -/
def actFin (w : BitVec 32) : Fin 4 := ⟨w.toNat % 4, Nat.mod_lt _ (by decide)⟩

/-- The argument arrays: states, actions, lengths, and the two layers' weights and biases. -/
structure Inputs where
  s : Fin 64 → Fin 512 → Fin 1024 → EReal
  act : Fin 64 → Fin 511 → BitVec 32
  len : Fin 64 → BitVec 32
  W1 : Fin 1024 → Fin 4096 → EReal
  b1 : Fin 4096 → EReal
  W2 : Fin 4096 → Fin 32 → EReal
  b2 : Fin 32 → EReal

namespace Inputs

variable (I : Inputs)

/-- The log-probabilities of the first option's four actions at sample `b`, timestep `t`. -/
def lp (b : Fin 64) (t : Fin 512) : Fin 4 → EReal :=
  rowLP (I.s b t) I.W1 I.b1 (fun j a => I.W2 j ⟨a.val, by omega⟩) (fun a => I.b2 ⟨a.val, by omega⟩)

/-- THE REFERENCE: minus the sum over samples and the first 511 timesteps of the taken action's
    log-probability times the weight bit. -/
def refTotal : EReal :=
  -(∑ b : Fin 64, ∑ t : Fin 511, I.lp b ⟨t.val, by omega⟩ (actFin (I.act b t)) * bitVal (refBit t.val (I.len b)))

/-- The actions padded with a zero at the last timestep. -/
def actPad (b : Fin 64) (t : Fin 512) : BitVec 32 := if h : t.val < 511 then I.act b ⟨t.val, h⟩ else 0#32

/-- The kernel's weight table: one-hot of the padded action times the clamped-length bit. -/
def ohm (b : Fin 64) (t : Fin 512) (a : Fin 4) : EReal :=
  bitVal (hotBit (I.actPad b t) a) * bitVal (liveBit t.val (I.len b))

end Inputs

/-- Row `r` of tile `n` of the flattened (sample, timestep) axis: its sample … -/
def rowB (n r : Nat) : Fin 64 := ⟨(n * 256 + r) / 512 % 64, Nat.mod_lt _ (by decide)⟩
/-- … and its timestep. -/
def rowT (n r : Nat) : Fin 512 := ⟨(n * 256 + r) % 512, Nat.mod_lt _ (by decide)⟩

namespace Inputs

variable (I : Inputs)

/-- Tile `n`'s partial sum: over its 256 rows and the four actions. -/
def tilePartial (n : Nat) : EReal :=
  ∑ r : Fin 256, ∑ a : Fin 4, I.lp (rowB n r.val) (rowT n r.val) a * I.ohm (rowB n r.val) (rowT n r.val) a

/-- Tile `n` is live: some row's weight bit is set (the kernel's per-tile flag). -/
def tileLive (n : Nat) : Prop := ∃ r : Fin 256, liveBit (rowT n r.val).val (I.len (rowB n r.val)) = 1#1

open Classical in
/-- The accumulator's element (0, 0, 0) after grid point `n` (points run 0 … 127; a core's run of 64 points starts
    from zero; a dead tile is skipped). -/
def accAt : Nat → EReal
  | 0 => if I.tileLive 0 then 0 + I.tilePartial 0 else 0
  | n + 1 =>
    if I.tileLive (n + 1) then (if (n + 1) % 64 = 0 then 0 else accAt n) + I.tilePartial (n + 1)
    else (if (n + 1) % 64 = 0 then 0 else accAt n)

/-- THE KERNEL: minus the sum of the two cores' accumulators after their last points. -/
def kerTotal : EReal := -(I.accAt 63 + I.accAt 127)

end Inputs

end Cert.Spec

end
-- ==== Proof.Bridge.lean ====
/-
  The two totals of the specification are one number.

  The kernel's side folds, core by core and tile by tile, the tiles' partial sums into an accumulator that starts
  from zero, skipping a tile none of whose rows is below its sample's clamped length; the reference's side sums,
  over samples and the first 511 timesteps, the taken action's log-probability times the length bit.  On the
  extended reals addition is a commutative monoid and `x · 0 = 0` for every `x`, so the fold is the plain sum over
  all tiles (a skipped tile's partial sum is a sum of products with zero), that sum re-indexes from (tile, row) to
  (sample, timestep), the padded last timestep contributes a product with zero, and for an action word below four
  the one-hot-weighted sum over the four actions is the taken action's term.
-/
import proofs.«421442_j77936476553902_3_alg».proof.Proof.Spec
import Mathlib.Algebra.BigOperators.Fin
import Mathlib.Algebra.BigOperators.Intervals
import Mathlib.Algebra.BigOperators.Group.Finset.Sigma
import Mathlib.Logic.Equiv.Fin.Basic

noncomputable section

namespace Cert.Spec

open Idealize.ShloMosaic

/-! ## Bits -/

/-- The zero bit is the number zero. -/
theorem bitVal_zero : bitVal 0#1 = 0 := by simp [bitVal]

/-- The set bit is the number one. -/
theorem bitVal_one : bitVal 1#1 = 1 := by simp [bitVal]

/-- A one-bit word is zero or one. -/
theorem bit_cases (b : BitVec 1) : b = 0#1 ∨ b = 1#1 := by
  revert b; decide

/-- A small natural number read back as a signed word is itself. -/
theorem toInt_ofNat_small (t : Nat) (ht : t < 512) : (BitVec.ofNat 32 t).toInt = (t : Int) := by
  rw [BitVec.toInt_eq_toNat_cond, BitVec.toNat_ofNat]
  have : t % 2 ^ 32 = t := Nat.mod_eq_of_lt (by omega)
  rw [this]
  split <;> omega

/-- Below timestep 511 the clamp of the length to 511 changes nothing: the kernel's bit is the reference's. -/
theorem liveBit_eq_refBit (t : Nat) (ht : t < 511) (len : BitVec 32) : liveBit t len = refBit t len := by
  unfold liveBit refBit IntOp.cmpi IntOp.minsi
  have h1 : (BitVec.ofNat 32 t).toInt = (t : Int) := toInt_ofNat_small t (by omega)
  have h2 : (511#32 : BitVec 32).toInt = 511 := by decide
  by_cases h : len.slt 511#32 = true
  · rw [if_pos h]
  · rw [if_neg h]
    have h' : ¬ len.toInt < 511 := by
      intro hc; apply h; simp [BitVec.slt, h2, hc]
    congr 1
    simp only [BitVec.slt, h1, h2]
    rw [decide_eq_decide]
    omega

/-- At timestep 511 the kernel's bit is zero whatever the length: the clamped length is at most 511. -/
theorem liveBit_last (len : BitVec 32) : liveBit 511 len = 0#1 := by
  unfold liveBit IntOp.cmpi IntOp.minsi
  have h1 : (BitVec.ofNat 32 511).toInt = 511 := by decide
  have h2 : (511#32 : BitVec 32).toInt = 511 := by decide
  by_cases h : len.slt 511#32 = true
  · rw [if_pos h]
    have h' : len.toInt < 511 := by simpa [BitVec.slt, h2] using h
    have : (BitVec.ofNat 32 511).slt len = false := by
      simp only [BitVec.slt, h1, decide_eq_false_iff_not]; omega
    simp [this]
  · rw [if_neg h]
    have : (BitVec.ofNat 32 511).slt 511#32 = false := by decide
    simp [this]

/-- An action word below four is the word of its own action. -/
theorem hotBit_actFin (w : BitVec 32) (hw : w.toNat < 4) : hotBit w (actFin w) = 1#1 := by
  unfold hotBit IntOp.cmpi actFin
  have : BitVec.ofNat 32 (w.toNat % 4) = w := by
    apply BitVec.eq_of_toNat_eq
    rw [BitVec.toNat_ofNat]; omega
  simp [this]

/-- An action word below four is no other action's word. -/
theorem hotBit_ne (w : BitVec 32) (hw : w.toNat < 4) (a : Fin 4) (ha : a ≠ actFin w) : hotBit w a = 0#1 := by
  unfold hotBit IntOp.cmpi
  have hne : w ≠ BitVec.ofNat 32 a.val := by
    intro h; apply ha; apply Fin.ext
    have : w.toNat = a.val := by
      rw [h, BitVec.toNat_ofNat]; have := a.isLt; omega
    simp only [actFin]; omega
  rw [beq_eq_false_iff_ne.mpr hne]
  rfl

/-! ## The flattened axis: (tile, row) against (sample, timestep) -/

/-- Tile `n < 128`, row `r < 256` is sample `b`, timestep `t` with `n · 256 + r = b · 512 + t`. -/
def tileEquiv : Fin 128 × Fin 256 ≃ Fin 64 × Fin 512 where
  toFun p := (rowB p.1.val p.2.val, rowT p.1.val p.2.val)
  invFun q := (⟨(q.1.val * 512 + q.2.val) / 256, by have := q.1.isLt; have := q.2.isLt; omega⟩,
               ⟨(q.1.val * 512 + q.2.val) % 256, Nat.mod_lt _ (by decide)⟩)
  left_inv := by
    rintro ⟨⟨n, hn⟩, ⟨r, hr⟩⟩
    simp only [rowB, rowT, Prod.mk.injEq, Fin.mk.injEq]
    constructor <;> omega
  right_inv := by
    rintro ⟨⟨b, hb⟩, ⟨t, ht⟩⟩
    simp only [rowB, rowT, Prod.mk.injEq, Fin.mk.injEq]
    constructor <;> omega

/-- Summing over the 128 tiles' 256 rows is summing over the 64 samples' 512 timesteps. -/
theorem sum_tiles (g : Fin 64 → Fin 512 → EReal) :
    ∑ n ∈ Finset.range 128, ∑ r : Fin 256, g (rowB n r.val) (rowT n r.val) = ∑ b : Fin 64, ∑ t : Fin 512, g b t := by
  rw [← Fin.sum_univ_eq_sum_range (fun n => ∑ r : Fin 256, g (rowB n r.val) (rowT n r.val)) 128]
  rw [← Fintype.sum_prod_type', ← Fintype.sum_prod_type']
  exact Fintype.sum_equiv tileEquiv _ _ (fun p => rfl)

namespace Inputs

variable (I : Inputs)

/-- One (sample, timestep) cell of the kernel's sum: the four actions' log-probabilities against the weight table. -/
def cell (b : Fin 64) (t : Fin 512) : EReal := ∑ a : Fin 4, I.lp b t a * I.ohm b t a

/-- A tile none of whose rows has its bit set sums products with zero. -/
theorem tilePartial_dead (n : Nat) (h : ¬ I.tileLive n) : I.tilePartial n = 0 := by
  unfold tilePartial
  apply Finset.sum_eq_zero; intro r _
  apply Finset.sum_eq_zero; intro a _
  have hr : liveBit (rowT n r.val).val (I.len (rowB n r.val)) = 0#1 := by
    rcases bit_cases (liveBit (rowT n r.val).val (I.len (rowB n r.val))) with h0 | h1
    · exact h0
    · exact absurd ⟨r, h1⟩ h
  simp only [ohm, hr, bitVal_zero, mul_zero]

/-- One step of the accumulator, the skip of a dead tile folded in: it adds that tile's partial sum all the same. -/
theorem accAt_succ (n : Nat) :
    I.accAt (n + 1) = (if (n + 1) % 64 = 0 then 0 else I.accAt n) + I.tilePartial (n + 1) := by
  rw [accAt]
  by_cases hl : I.tileLive (n + 1)
  · rw [if_pos hl]
  · rw [if_neg hl, I.tilePartial_dead _ hl, add_zero]

theorem accAt_zero : I.accAt 0 = I.tilePartial 0 := by
  rw [accAt]
  by_cases hl : I.tileLive 0
  · rw [if_pos hl, zero_add]
  · rw [if_neg hl, I.tilePartial_dead _ hl]

/-- The accumulator after point `n` is the sum of the partial sums of its core's run so far. -/
theorem accAt_eq_sum (n : Nat) : I.accAt n = ∑ k ∈ Finset.Ico (n / 64 * 64) (n + 1), I.tilePartial k := by
  induction n with
  | zero => rw [accAt_zero]; simp
  | succ n ih =>
    rw [accAt_succ]
    by_cases hm : (n + 1) % 64 = 0
    · rw [if_pos hm, zero_add]
      have : (n + 1) / 64 * 64 = n + 1 := by omega
      rw [this]; simp
    · rw [if_neg hm, ih]
      have : (n + 1) / 64 * 64 = n / 64 * 64 := by omega
      rw [this]
      exact (Finset.sum_Ico_succ_top (by omega) _).symm

/-- The two cores' accumulators together hold the sum over all 128 tiles. -/
theorem acc_total : I.accAt 63 + I.accAt 127 = ∑ n ∈ Finset.range 128, I.tilePartial n := by
  rw [accAt_eq_sum, accAt_eq_sum]
  have h1 : 63 / 64 * 64 = 0 := by norm_num
  have h2 : 127 / 64 * 64 = 64 := by norm_num
  rw [h1, h2, Finset.range_eq_Ico]
  exact Finset.sum_Ico_consecutive _ (by norm_num) (by norm_num)

/-- The padded last timestep's cell is a sum of products with zero. -/
theorem cell_last (b : Fin 64) : I.cell b (Fin.last 511) = 0 := by
  unfold cell
  apply Finset.sum_eq_zero; intro a _
  simp only [ohm, Fin.val_last, liveBit_last, bitVal_zero, mul_zero]

/-- Below timestep 511 the cell is the taken action's log-probability times the reference's bit. -/
theorem cell_lt (hact : ∀ b t, (I.act b t).toNat < 4) (b : Fin 64) (t : Fin 511) :
    I.cell b t.castSucc = I.lp b ⟨t.val, by omega⟩ (actFin (I.act b t)) * bitVal (refBit t.val (I.len b)) := by
  unfold cell
  have hpad : I.actPad b t.castSucc = I.act b t := by
    unfold actPad
    rw [dif_pos (by simp)]
    rfl
  rw [Finset.sum_eq_single (actFin (I.act b t))]
  · simp only [ohm, hpad, hotBit_actFin _ (hact b t), bitVal_one, one_mul, Fin.coe_castSucc,
      liveBit_eq_refBit _ t.isLt]
    rfl
  · intro a _ ha
    simp only [ohm, hpad, hotBit_ne _ (hact b t) a ha, bitVal_zero, zero_mul, mul_zero]
  · intro h; exact absurd (Finset.mem_univ _) h

/-- With every action word below four, the kernel's total is the reference's. -/
theorem kerTotal_eq_refTotal (I : Inputs) (hact : ∀ b t, (I.act b t).toNat < 4) : I.kerTotal = I.refTotal := by
  unfold kerTotal refTotal
  congr 1
  rw [acc_total]
  have : ∀ n, I.tilePartial n = ∑ r : Fin 256, I.cell (rowB n r.val) (rowT n r.val) := fun n => rfl
  simp only [this]
  rw [sum_tiles (fun b t => I.cell b t)]
  apply Finset.sum_congr rfl; intro b _
  rw [Fin.sum_univ_castSucc, cell_last, add_zero]
  apply Finset.sum_congr rfl; intro t _
  exact I.cell_lt hact b t

end Inputs

end Cert.Spec

end
-- ==== Proof.PreDecode.lean ====
/-
  What the precondition says of the action words: the two added conjuncts `0 ≤ action` and `action < 4` (signed),
  decoded from the printed predicate, make every action word a number below four.
-/
import proofs.«421442_j77936476553902_3_alg».proof.Proof.Gen.Pre_finite_inputs
import Idealize.ShloMosaic.Lib.ReduceAll
import Idealize.ShloMosaic.Lib.StableHlo.Predicate

noncomputable section

namespace Cert.Pre_finite_inputs.Decode

open Cert.Pre_finite_inputs Idealize.ShloMosaic

variable [Cert.Pre_finite_inputs.Facts]

/-- The scalar shape has exactly one index. -/
instance subsingleton_scalar_idx : Subsingleton S_.Idx := ⟨fun _ _ => funext fun d => d.elim0⟩

/-- A 32-bit word that is signed-nonnegative and signed-below-four is, as a number, below four. -/
theorem toNat_lt_four_of_signed (w : BitVec 32) (h0 : (0#32 : BitVec 32).toInt ≤ w.toInt)
    (h4 : w.toInt < (4#32 : BitVec 32).toInt) : w.toNat < 4 := by
  have e0 : (0#32 : BitVec 32).toInt = 0 := by decide
  have e4 : (4#32 : BitVec 32).toInt = 4 := by decide
  rw [e0] at h0
  rw [e4] at h4
  have hw := w.isLt
  rw [BitVec.toInt_eq_toNat_cond] at h0 h4
  split at h0 <;> omega

/-- If the printed precondition is all ones, every action word is below four. -/
theorem act_lt_four {F : FTy → Type} [FloatOps F] (a0 : FVec F S64x512x1024 .f32) (a1 : IVec S64x511 32) (a2 : IVec S64 32)
    (a3 : FVec F S1024x4096 .f32) (a4 : FVec F S4096 .f32) (a5 : FVec F S4096x32 .f32) (a6 : FVec F S32 .f32)
    (h : Cert.Pre_finite_inputs.fn (F := F) a0 a1 a2 a3 a4 a5 a6 = fun _ => 1#1) :
    ∀ i : S64x511.Idx, (a1 i).toNat < 4 := by
  intro i
  -- the predicate's one element
  have h0 := congrFun h (fun d => d.elim0)
  simp only [Cert.Pre_finite_inputs.fn, Cert.Pre_finite_inputs.fn_part1, andi] at h0
  -- the last two conjuncts: all of `action ≥ 0`, all of `action < 4`
  obtain ⟨h1, hlt⟩ := IntOp.andi_eq_one.1 h0
  obtain ⟨_, hge⟩ := IntOp.andi_eq_one.1 h1
  have hgei := Host.reduce_andi_all _ _ _ _ _ hge i
  have hlti := Host.reduce_andi_all _ _ _ _ _ hlt i
  -- each mask element compares the action word with the broadcast constant
  have hge' : IntOp.cmpi .sge (a1 i) 0#32 = 1#1 := hgei
  have hlt' : IntOp.cmpi .slt (a1 i) 4#32 = 1#1 := hlti
  exact toNat_lt_four_of_signed (a1 i) (IntOp.cmpi_sge.1 hge') (IntOp.cmpi_slt.1 hlt')

end Cert.Pre_finite_inputs.Decode

end
-- ==== Proof.KPieces.lean ====
/-
  What each control case of the kernel body leaves in the carried accumulator and in the output block, as the
  body's stored values (the payloads of the generated skeleton), at any float instance.

  A grid point resets the accumulator to the zero block when it is a core's first point, adds the tile's partial sum
  (placed at element (0, 0, 0)) when the tile's flag is set, and copies the accumulator to the output block when it is
  a core's last point.  So: first point, flag set — the update applied to the zero block; first point, flag clear —
  the zero block; a later point, flag set — the update applied to what the point before left; flag clear — what the
  point before left, untouched; and at a last point the output block is what the accumulator then holds.
-/
import proofs.«421442_j77936476553902_3_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

/-- The zero offsets of a whole-block rectangle, of ranks 3, 2 and 1, are the constant zero function. -/
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The row and lane counters the update compares with zero. -/
abbrev io0 : IVec S8x128 32 := iota .tc S8x128 32 [0] Facts₀.iota_S8x128_d0_w32
abbrev io1 : IVec S8x128 32 := iota .tc S8x128 32 [1] Facts₀.iota_S8x128_d1_w32

/-- The accumulator's update: the tile's partial sum of the six input blocks added into `acc`. -/
abbrev upd (x0 : Vec F S256x1024 .f32) (x1 : Vec F S1024x4096 .bf16) (x2 : Vec F S4096 .f32) (x3 : Vec F S4096x4 .bf16)
    (x4 : Vec F S4 .f32) (x5 : Vec F S256x4 .f32) (acc : Vec F S1x8x128 .f32) : Vec F S1x8x128 .f32 :=
  k0_pay2 (k0_pay3 x0 x1 x2 x3 x4 x5) io0 io1 acc

/-- First point of a core, flag set: the update applied to the freshly stored zero block. -/
theorem sA (c : Dev nD) (i : grid0.Coords) (arg3 : Memref sig .tc .vmem S256x1024 .f32) (harg3 : arg3.IsWhole) (arg4 : Memref sig .tc .vmem S1024x4096 .bf16) (harg4 : arg4.IsWhole) (arg5 : Memref sig .tc .vmem S4096 .f32) (harg5 : arg5.IsWhole) (arg6 : Memref sig .tc .vmem S4096x4 .bf16) (harg6 : arg6.IsWhole) (arg7 : Memref sig .tc .vmem S4 .f32) (harg7 : arg7.IsWhole) (arg8 : Memref sig .tc .vmem S256x4 .f32) (harg8 : arg8.IsWhole) (arg9 : Memref sig .tc .vmem S1x8x128 .f32) (harg9 : arg9.IsWhole) (arg10 : Memref sig .tc .vmem S1x8x128 .f32) (harg10 : arg10.IsWhole) (hc0 : cond0_0 i) (hc2 : ¬cond0_2 i)
    (x0 : Vec F S256x1024 .f32) (x1 : Vec F S1024x4096 .bf16) (x2 : Vec F S4096 .f32) (x3 : Vec F S4096x4 .bf16) (x4 : Vec F S4 .f32) (x5 : Vec F S256x4 .f32) (xt0 : TbBuf0 (F := F) c tbM0_0) (hc1 : cond0_1 i (tbM0_0.view.readAt (Elt F) (Rect.unit (s := S128) (k0_off1 i) S1.size (k0_off1_inb i)).toLoadRect xt0 (Shape.Idx.first (numel1_S1.symm ▸ Nat.one_pos)))) :
    sout0_A_0 c i arg3 harg3 arg4 harg4 arg5 harg5 arg6 harg6 arg7 harg7 arg8 harg8 arg9 harg9 arg10 harg10 hc0 hc2 x0 x1 x2 x3 x4 x5 xt0 hc1 = upd x0 x1 x2 x3 x4 x5 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc2 x0 x1 x2 x3 x4 x5 xt0 hc1)]
  unfold kernelRun0_A
  dsimp only
  sl_unfold_words
  rw [View.canon_cons_unit_zero (S := S1x8x128) hz3, View.readCov_unit_zero (S := S1x8x128) _ hz3]
  simp only [View.readAt_eq_ld, harg3.read_unread, harg4.read_unread, harg5.read_unread, harg6.read_unread, harg7.read_unread, harg8.read_unread, harg10.read_unread, View.ld_unit_zero (S := S256x1024) hz2, View.ld_unit_zero (S := S1024x4096) hz2, View.ld_unit_zero (S := S4096) hz1, View.ld_unit_zero (S := S4096x4) hz2, View.ld_unit_zero (S := S4) hz1, View.ld_unit_zero (S := S256x4) hz2, View.ld_unit_zero (S := S1x8x128) hz3, shapeCast_self]

/-- First point of a core, flag clear: the zero block. -/
theorem sB (c : Dev nD) (i : grid0.Coords) (arg3 : Memref sig .tc .vmem S256x1024 .f32) (harg3 : arg3.IsWhole) (arg4 : Memref sig .tc .vmem S1024x4096 .bf16) (harg4 : arg4.IsWhole) (arg5 : Memref sig .tc .vmem S4096 .f32) (harg5 : arg5.IsWhole) (arg6 : Memref sig .tc .vmem S4096x4 .bf16) (harg6 : arg6.IsWhole) (arg7 : Memref sig .tc .vmem S4 .f32) (harg7 : arg7.IsWhole) (arg8 : Memref sig .tc .vmem S256x4 .f32) (harg8 : arg8.IsWhole) (arg9 : Memref sig .tc .vmem S1x8x128 .f32) (harg9 : arg9.IsWhole) (arg10 : Memref sig .tc .vmem S1x8x128 .f32) (harg10 : arg10.IsWhole) (hc0 : cond0_0 i) (hc2 : ¬cond0_2 i)
    (x0 : Vec F S256x1024 .f32) (x1 : Vec F S1024x4096 .bf16) (x2 : Vec F S4096 .f32) (x3 : Vec F S4096x4 .bf16) (x4 : Vec F S4 .f32) (x5 : Vec F S256x4 .f32) (xt0 : TbBuf0 (F := F) c tbM0_0) (hc1 : ¬cond0_1 i (tbM0_0.view.readAt (Elt F) (Rect.unit (s := S128) (k0_off1 i) S1.size (k0_off1_inb i)).toLoadRect xt0 (Shape.Idx.first (numel1_S1.symm ▸ Nat.one_pos)))) :
    sout0_B_0 c i arg3 harg3 arg4 harg4 arg5 harg5 arg6 harg6 arg7 harg7 arg8 harg8 arg9 harg9 arg10 harg10 hc0 hc2 x0 x1 x2 x3 x4 x5 xt0 hc1 = k0_pay1 (F := F) := by
  unfold sout0_B_0
  rw [View.read_writes_eq_canon _ _ _ (scover0_B_0 c i arg3 harg3 arg4 harg4 arg5 harg5 arg6 harg6 arg7 harg7 arg8 harg8 arg9 harg9 arg10 harg10 hc0 hc2 x0 x1 x2 x3 x4 x5 xt0 hc1)]
  unfold kernelRun0_B
  dsimp only
  sl_unfold_words
  rw [View.canon_unit_zero (S := S1x8x128) hz3]

/-- A middle point, flag set: the update applied to what the point before left. -/
theorem sC (c : Dev nD) (i : grid0.Coords) (arg3 : Memref sig .tc .vmem S256x1024 .f32) (harg3 : arg3.IsWhole) (arg4 : Memref sig .tc .vmem S1024x4096 .bf16) (harg4 : arg4.IsWhole) (arg5 : Memref sig .tc .vmem S4096 .f32) (harg5 : arg5.IsWhole) (arg6 : Memref sig .tc .vmem S4096x4 .bf16) (harg6 : arg6.IsWhole) (arg7 : Memref sig .tc .vmem S4 .f32) (harg7 : arg7.IsWhole) (arg8 : Memref sig .tc .vmem S256x4 .f32) (harg8 : arg8.IsWhole) (arg9 : Memref sig .tc .vmem S1x8x128 .f32) (harg9 : arg9.IsWhole) (arg10 : Memref sig .tc .vmem S1x8x128 .f32) (harg10 : arg10.IsWhole) (hc0 : ¬cond0_0 i) (hc2 : ¬cond0_2 i)
    (x0 : Vec F S256x1024 .f32) (x1 : Vec F S1024x4096 .bf16) (x2 : Vec F S4096 .f32) (x3 : Vec F S4096x4 .bf16) (x4 : Vec F S4 .f32) (x5 : Vec F S256x4 .f32) (xt0 : TbBuf0 (F := F) c tbM0_0) (xs0 : Vec F S1x8x128 .f32) (hc1 : cond0_1 i (tbM0_0.view.readAt (Elt F) (Rect.unit (s := S128) (k0_off1 i) S1.size (k0_off1_inb i)).toLoadRect xt0 (Shape.Idx.first (numel1_S1.symm ▸ Nat.one_pos)))) :
    sout0_C_0 c i arg3 harg3 arg4 harg4 arg5 harg5 arg6 harg6 arg7 harg7 arg8 harg8 arg9 harg9 arg10 harg10 hc0 hc2 x0 x1 x2 x3 x4 x5 xt0 xs0 hc1 = upd x0 x1 x2 x3 x4 x5 xs0 := by
  unfold sout0_C_0
  rw [View.read_writes_eq_canon _ _ _ (scover0_C_0 c i arg3 harg3 arg4 harg4 arg5 harg5 arg6 harg6 arg7 harg7 arg8 harg8 arg9 harg9 arg10 harg10 hc0 hc2 x0 x1 x2 x3 x4 x5 xt0 xs0 hc1)]
  unfold kernelRun0_C
  dsimp only
  sl_unfold_words
  rw [View.canon_unit_zero (S := S1x8x128) hz3]
  simp only [View.readAt_eq_ld, harg3.read_unread, harg4.read_unread, harg5.read_unread, harg6.read_unread, harg7.read_unread, harg8.read_unread, harg10.read_unread, View.ld_unit_zero (S := S256x1024) hz2, View.ld_unit_zero (S := S1024x4096) hz2, View.ld_unit_zero (S := S4096) hz1, View.ld_unit_zero (S := S4096x4) hz2, View.ld_unit_zero (S := S4) hz1, View.ld_unit_zero (S := S256x4) hz2, View.ld_unit_zero (S := S1x8x128) hz3, shapeCast_self]

/-- A last point, flag set: the accumulator gets the update … -/
theorem sE (c : Dev nD) (i : grid0.Coords) (arg3 : Memref sig .tc .vmem S256x1024 .f32) (harg3 : arg3.IsWhole) (arg4 : Memref sig .tc .vmem S1024x4096 .bf16) (harg4 : arg4.IsWhole) (arg5 : Memref sig .tc .vmem S4096 .f32) (harg5 : arg5.IsWhole) (arg6 : Memref sig .tc .vmem S4096x4 .bf16) (harg6 : arg6.IsWhole) (arg7 : Memref sig .tc .vmem S4 .f32) (harg7 : arg7.IsWhole) (arg8 : Memref sig .tc .vmem S256x4 .f32) (harg8 : arg8.IsWhole) (arg9 : Memref sig .tc .vmem S1x8x128 .f32) (harg9 : arg9.IsWhole) (arg10 : Memref sig .tc .vmem S1x8x128 .f32) (harg10 : arg10.IsWhole) (hc0 : ¬cond0_0 i) (hc2 : cond0_2 i)
    (x0 : Vec F S256x1024 .f32) (x1 : Vec F S1024x4096 .bf16) (x2 : Vec F S4096 .f32) (x3 : Vec F S4096x4 .bf16) (x4 : Vec F S4 .f32) (x5 : Vec F S256x4 .f32) (xt0 : TbBuf0 (F := F) c tbM0_0) (xs0 : Vec F S1x8x128 .f32) (hc1 : cond0_1 i (tbM0_0.view.readAt (Elt F) (Rect.unit (s := S128) (k0_off1 i) S1.size (k0_off1_inb i)).toLoadRect xt0 (Shape.Idx.first (numel1_S1.symm ▸ Nat.one_pos)))) :
    sout0_E_0 c i arg3 harg3 arg4 harg4 arg5 harg5 arg6 harg6 arg7 harg7 arg8 harg8 arg9 harg9 arg10 harg10 hc0 hc2 x0 x1 x2 x3 x4 x5 xt0 xs0 hc1 = upd x0 x1 x2 x3 x4 x5 xs0 := by
  unfold sout0_E_0
  rw [View.read_writes_eq_canon _ _ _ (scover0_E_0 c i arg3 harg3 arg4 harg4 arg5 harg5 arg6 harg6 arg7 harg7 arg8 harg8 arg9 harg9 arg10 harg10 hc0 hc2 x0 x1 x2 x3 x4 x5 xt0 xs0 hc1)]
  unfold kernelRun0_E
  dsimp only
  sl_unfold_words
  rw [View.canon_unit_zero (S := S1x8x128) hz3]
  simp only [View.readAt_eq_ld, harg3.read_unread, harg4.read_unread, harg5.read_unread, harg6.read_unread, harg7.read_unread, harg8.read_unread, harg10.read_unread, View.ld_unit_zero (S := S256x1024) hz2, View.ld_unit_zero (S := S1024x4096) hz2, View.ld_unit_zero (S := S4096) hz1, View.ld_unit_zero (S := S4096x4) hz2, View.ld_unit_zero (S := S4) hz1, View.ld_unit_zero (S := S256x4) hz2, View.ld_unit_zero (S := S1x8x128) hz3, shapeCast_self]

/-- … and the output block is the updated accumulator. -/
theorem oE (c : Dev nD) (i : grid0.Coords) (arg3 : Memref sig .tc .vmem S256x1024 .f32) (harg3 : arg3.IsWhole) (arg4 : Memref sig .tc .vmem S1024x4096 .bf16) (harg4 : arg4.IsWhole) (arg5 : Memref sig .tc .vmem S4096 .f32) (harg5 : arg5.IsWhole) (arg6 : Memref sig .tc .vmem S4096x4 .bf16) (harg6 : arg6.IsWhole) (arg7 : Memref sig .tc .vmem S4 .f32) (harg7 : arg7.IsWhole) (arg8 : Memref sig .tc .vmem S256x4 .f32) (harg8 : arg8.IsWhole) (arg9 : Memref sig .tc .vmem S1x8x128 .f32) (harg9 : arg9.IsWhole) (arg10 : Memref sig .tc .vmem S1x8x128 .f32) (harg10 : arg10.IsWhole) (hc0 : ¬cond0_0 i) (hc2 : cond0_2 i)
    (x0 : Vec F S256x1024 .f32) (x1 : Vec F S1024x4096 .bf16) (x2 : Vec F S4096 .f32) (x3 : Vec F S4096x4 .bf16) (x4 : Vec F S4 .f32) (x5 : Vec F S256x4 .f32) (xt0 : TbBuf0 (F := F) c tbM0_0) (xs0 : Vec F S1x8x128 .f32) (hc1 : cond0_1 i (tbM0_0.view.readAt (Elt F) (Rect.unit (s := S128) (k0_off1 i) S1.size (k0_off1_inb i)).toLoadRect xt0 (Shape.Idx.first (numel1_S1.symm ▸ Nat.one_pos)))) :
    out0_E_6 c i arg3 harg3 arg4 harg4 arg5 harg5 arg6 harg6 arg7 harg7 arg8 harg8 arg9 harg9 arg10 harg10 hc0 hc2 x0 x1 x2 x3 x4 x5 xt0 xs0 hc1 = upd x0 x1 x2 x3 x4 x5 xs0 := by
  unfold out0_E_6
  rw [View.read_writes_eq_canon _ _ _ (cover0_E_6 c i arg3 harg3 arg4 harg4 arg5 harg5 arg6 harg6 arg7 harg7 arg8 harg8 arg9 harg9 arg10 harg10 hc0 hc2 x0 x1 x2 x3 x4 x5 xt0 xs0 hc1)]
  unfold kernelRun0_E
  dsimp only
  sl_unfold_words
  rw [View.canon_unit_zero (S := S1x8x128) hz3, View.readCov_unit_zero (S := S1x8x128) _ hz3]
  simp only [View.readAt_eq_ld, harg3.read_unread, harg4.read_unread, harg5.read_unread, harg6.read_unread, harg7.read_unread, harg8.read_unread, harg10.read_unread, View.ld_unit_zero (S := S256x1024) hz2, View.ld_unit_zero (S := S1024x4096) hz2, View.ld_unit_zero (S := S4096) hz1, View.ld_unit_zero (S := S4096x4) hz2, View.ld_unit_zero (S := S4) hz1, View.ld_unit_zero (S := S256x4) hz2, View.ld_unit_zero (S := S1x8x128) hz3, shapeCast_self]

/-- A last point, flag clear: the output block is the accumulator as the point before left it. -/
theorem oF (c : Dev nD) (i : grid0.Coords) (arg3 : Memref sig .tc .vmem S256x1024 .f32) (harg3 : arg3.IsWhole) (arg4 : Memref sig .tc .vmem S1024x4096 .bf16) (harg4 : arg4.IsWhole) (arg5 : Memref sig .tc .vmem S4096 .f32) (harg5 : arg5.IsWhole) (arg6 : Memref sig .tc .vmem S4096x4 .bf16) (harg6 : arg6.IsWhole) (arg7 : Memref sig .tc .vmem S4 .f32) (harg7 : arg7.IsWhole) (arg8 : Memref sig .tc .vmem S256x4 .f32) (harg8 : arg8.IsWhole) (arg9 : Memref sig .tc .vmem S1x8x128 .f32) (harg9 : arg9.IsWhole) (arg10 : Memref sig .tc .vmem S1x8x128 .f32) (harg10 : arg10.IsWhole) (hc0 : ¬cond0_0 i) (hc2 : cond0_2 i)
    (x0 : Vec F S256x1024 .f32) (x1 : Vec F S1024x4096 .bf16) (x2 : Vec F S4096 .f32) (x3 : Vec F S4096x4 .bf16) (x4 : Vec F S4 .f32) (x5 : Vec F S256x4 .f32) (xt0 : TbBuf0 (F := F) c tbM0_0) (xs0 : Vec F S1x8x128 .f32) (hc1 : ¬cond0_1 i (tbM0_0.view.readAt (Elt F) (Rect.unit (s := S128) (k0_off1 i) S1.size (k0_off1_inb i)).toLoadRect xt0 (Shape.Idx.first (numel1_S1.symm ▸ Nat.one_pos)))) :
    out0_F_6 c i arg3 harg3 arg4 harg4 arg5 harg5 arg6 harg6 arg7 harg7 arg8 harg8 arg9 harg9 arg10 harg10 hc0 hc2 x0 x1 x2 x3 x4 x5 xt0 xs0 hc1 = xs0 := by
  unfold out0_F_6
  rw [View.read_writes_eq_canon _ _ _ (cover0_F_6 c i arg3 harg3 arg4 harg4 arg5 harg5 arg6 harg6 arg7 harg7 arg8 harg8 arg9 harg9 arg10 harg10 hc0 hc2 x0 x1 x2 x3 x4 x5 xt0 xs0 hc1)]
  unfold kernelRun0_F
  dsimp only
  sl_unfold_words
  rw [View.canon_unit_zero (S := S1x8x128) hz3]
  simp only [View.readAt_eq_ld, harg3.read_unread, harg4.read_unread, harg5.read_unread, harg6.read_unread, harg7.read_unread, harg8.read_unread, harg10.read_unread, View.ld_unit_zero (S := S256x1024) hz2, View.ld_unit_zero (S := S1024x4096) hz2, View.ld_unit_zero (S := S4096) hz1, View.ld_unit_zero (S := S4096x4) hz2, View.ld_unit_zero (S := S4) hz1, View.ld_unit_zero (S := S256x4) hz2, View.ld_unit_zero (S := S1x8x128) hz3, shapeCast_self]

end Cert.KernelIdeal.Pieces

end
-- ==== Proof.KPayload.lean ====
/-
  The kernel body's three stored values read at the one element that matters, at the ideal instance.

  The tile's partial sum (a 1×1 vector) is the sum over the tile's 256 rows and the four actions of the row's
  log-probability times the weight-table entry; the accumulator's update adds, at element (0, 0, 0), that partial
  sum (the other elements get a product with zero); the reset stores zeros.
-/
import proofs.«421442_j77936476553902_3_alg».proof.Proof.Gen.KernelIdeal.Skeleton
import proofs.«421442_j77936476553902_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import Idealize.ShloMosaic.PureOps.Reduce

noncomputable section

namespace Cert.KernelIdeal.Pay

open Cert.KernelIdeal Cert.KernelIdeal.Gen Idealize.ShloMosaic Idealize.ShloMosaic.ValueIdx

/-! ## Words -/

/-- The f32 word of one is the extended real one. -/
theorem ofBits_one_f32 : Ideal.ofBits .f32 0x3F800000#32 = 1 := IdealRules.sign_bit.ideal_onePat .f32

/-! ## Layout operations at coordinates -/

/-- A one-element matrix broadcast over an 8 × 128 tile reads its one element everywhere. -/
theorem bcast_11_8x128_apply (v : FVec Ideal S1x1 .f32) (h : S1x1.Broadcasts S8x128) (p : Fin 8) (q : Fin 128) :
    broadcastTo S8x128 v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- A vector cast to a one-column matrix reads, at `(r, u)`, the operand at `r`. -/
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A one-column matrix broadcast along its rows reads, at `(r, c)`, the operand at `(r, 0)`. -/
theorem broadcastTo_a1_ab_apply {α : Type} (v : S256x1.Idx → α) (h : S256x1.Broadcasts S256x4) (r : Fin 256) (c : Fin 4) :
    broadcastTo S256x4 v h (ix2 r c) = v (ix2 r (0 : Fin 1)) := by
  refine broadcastTo_apply v h (ix2 r c) (ix2 r (0 : Fin 1)) fun ax => ?_
  match ax with
  | ⟨0, _⟩ =>
    show r.val = if (256 : ℕ) = 1 then 0 else r.val
    rw [if_neg (by decide)]
  | ⟨1, _⟩ => rfl

/-! ## The lane reductions at coordinates -/

/-- Row `r` of a 256 × 4 matrix with column `a` put back is the element `(r, a)`. -/
theorem lift_row (h : S256x4.Reduces [1] S256) (r : Fin 256) (a : Fin 4) : h.lift (ix1 r) a = ix2 r a := by
  funext c
  refine Fin.ext ?_
  match c with
  | ⟨0, _⟩ => rfl
  | ⟨1, _⟩ => rfl

/-- The one element of the column sums with row `r` put back is the element `(r, 0)`. -/
theorem lift_col (h : S256x1.Reduces [0] S1) (r : Fin 256) : h.lift (ix1 (0 : Fin 1)) r = ix2 r (0 : Fin 1) := by
  funext c
  refine Fin.ext ?_
  match c with
  | ⟨0, _⟩ => rfl
  | ⟨1, _⟩ => rfl

/-- A sum along the four lanes, at row `r`. -/
theorem rowSum_apply (v : FVec Ideal S256x4 .f32) (h : S256x4.Reduces [1] S256) (hφ : FKind.Formats .f32)
    (hacc : (0x00000000#32 : BitVec FTy.f32.bits) = FKind.add.neutral .f32 hφ) (r : Fin 256) :
    multiReduction (F := Ideal) .add [1] S256 v 0x00000000#32 h hφ hacc (ix1 r) = ∑ a : Fin 4, v (ix2 r a) := by
  refine (Ideal.multiReduction_add_single v _ h hφ hacc (ix1 r)).trans ?_
  exact Finset.sum_congr rfl fun a _ => congrArg v (lift_row h r a)

/-- A sum down the 256 rows of a one-column matrix. -/
theorem colSum_apply (v : FVec Ideal S256x1 .f32) (h : S256x1.Reduces [0] S1) (hφ : FKind.Formats .f32)
    (hacc : (0x00000000#32 : BitVec FTy.f32.bits) = FKind.add.neutral .f32 hφ) :
    multiReduction (F := Ideal) .add [0] S1 v 0x00000000#32 h hφ hacc (ix1 (0 : Fin 1)) = ∑ r : Fin 256, v (ix2 r (0 : Fin 1)) := by
  refine (Ideal.multiReduction_add_single v _ h hφ hacc (ix1 (0 : Fin 1))).trans ?_
  exact Finset.sum_congr rfl fun r _ => congrArg v (lift_col h r)

/-- A maximum along the four lanes, at row `r`: the fold of `max` from the accumulator's word. -/
theorem rowMax_apply (v : FVec Ideal S256x4 .f32) (h : S256x4.Reduces [1] S256) (hφ : FKind.Formats .f32)
    (hacc : (0xFF800000#32 : BitVec FTy.f32.bits) = FKind.maximumf.neutral .f32 hφ) (r : Fin 256) :
    multiReduction (F := Ideal) .maximumf [1] S256 v 0xFF800000#32 h hφ hacc (ix1 r)
      = (Finset.univ : Finset (Fin 4)).fold max (Ideal.ofBits .f32 0xFF800000#32) (fun a => v (ix2 r a)) := by
  refine (Ideal.multiReduction_maximumf_single v _ h hφ hacc (ix1 r)).trans ?_
  exact congrArg (Finset.univ.fold max (Ideal.ofBits .f32 0xFF800000#32)) (funext fun a => congrArg v (lift_row h r a))

/-! ## The two matrix products at coordinates -/

theorem lhs_mm1_0 (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem lhs_mm1_1 (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q
theorem rhs_mm1_0 (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q
theorem rhs_mm1_1 (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- The 256 × 1024 by 1024 × 4096 product into the zero accumulator, at `(r, c)`: the sum over the contracted axis. -/
theorem mm1_apply (A : FVec Ideal S256x1024 .bf16) (B : FVec Ideal S1024x4096 .bf16) (r : Fin 256) (c : Fin 4096) :
    matmul dot_S256x1024_S1024x4096_S256x4096_1_0_0_1_n_n none A B (constant (F := Ideal) S256x4096 .f32 0x00000000#32) (ix2 r c)
      = ∑ k : Fin 1024, A (ix2 r k) * B (ix2 k c) := by
  simp only [matmul]
  rw [Ideal.matmul_constant_zero_apply, ← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  have el : dot_S256x1024_S1024x4096_S256x4096_1_0_0_1_n_n.lhsIdx (ix2 r c) ((contrEquiv1 dot_S256x1024_S1024x4096_S256x4096_1_0_0_1_n_n 1024 rfl rfl).symm k) = ix2 r k := funext fun a => Fin.ext (by
    match a with
    | ⟨0, _⟩ => exact lhs_mm1_0 _ _
    | ⟨1, _⟩ => exact (lhs_mm1_1 _ _).trans hk)
  have er : dot_S256x1024_S1024x4096_S256x4096_1_0_0_1_n_n.rhsIdx (ix2 r c) ((contrEquiv1 dot_S256x1024_S1024x4096_S256x4096_1_0_0_1_n_n 1024 rfl rfl).symm k) = ix2 k c := funext fun a => Fin.ext (by
    match a with
    | ⟨0, _⟩ => exact (rhs_mm1_0 _ _).trans hk
    | ⟨1, _⟩ => exact rhs_mm1_1 _ _)
  rw [el, er]

theorem lhs_mm2_0 (i : S256x4.Idx) (q : dot_S256x4096_S4096x4_S256x4_1_0_0_1_n_n.contr.Idx) :
    (dot_S256x4096_S4096x4_S256x4_1_0_0_1_n_n.lhsIdx i q 0).val = (i 0).val := by
  unfold DotDims.lhsIdx
  rw [dif_neg (show ¬(0 : Fin S256x4096.rank) ∈ dot_S256x4096_S4096x4_S256x4_1_0_0_1_n_n.lhsBatch by decide), dif_pos (show (0 : Fin S256x4096.rank) ∈ dot_S256x4096_S4096x4_S256x4_1_0_0_1_n_n.lhsNonContracting by decide)]
  rfl
theorem lhs_mm2_1 (i : S256x4.Idx) (q : dot_S256x4096_S4096x4_S256x4_1_0_0_1_n_n.contr.Idx) :
    (dot_S256x4096_S4096x4_S256x4_1_0_0_1_n_n.lhsIdx i q 1).val = (q ⟨0, by decide⟩).val :=
  dot_S256x4096_S4096x4_S256x4_1_0_0_1_n_n.lhsIdx_val_of_single rfl i q
theorem rhs_mm2_0 (i : S256x4.Idx) (q : dot_S256x4096_S4096x4_S256x4_1_0_0_1_n_n.contr.Idx) :
    (dot_S256x4096_S4096x4_S256x4_1_0_0_1_n_n.rhsIdx i q 0).val = (q ⟨0, by decide⟩).val :=
  dot_S256x4096_S4096x4_S256x4_1_0_0_1_n_n.rhsIdx_val_of_single rfl i q
theorem rhs_mm2_1 (i : S256x4.Idx) (q : dot_S256x4096_S4096x4_S256x4_1_0_0_1_n_n.contr.Idx) :
    (dot_S256x4096_S4096x4_S256x4_1_0_0_1_n_n.rhsIdx i q 1).val = (i 1).val := by
  unfold DotDims.rhsIdx
  rw [dif_neg (show ¬(1 : Fin S4096x4.rank) ∈ dot_S256x4096_S4096x4_S256x4_1_0_0_1_n_n.rhsBatch by decide), dif_pos (show (1 : Fin S4096x4.rank) ∈ dot_S256x4096_S4096x4_S256x4_1_0_0_1_n_n.rhsNonContracting by decide)]
  rfl

/-- The 256 × 4096 by 4096 × 4 product into the zero accumulator, at `(r, c)`: the sum over the contracted axis. -/
theorem mm2_apply (A : FVec Ideal S256x4096 .bf16) (B : FVec Ideal S4096x4 .bf16) (r : Fin 256) (c : Fin 4) :
    matmul dot_S256x4096_S4096x4_S256x4_1_0_0_1_n_n none A B (constant (F := Ideal) S256x4 .f32 0x00000000#32) (ix2 r c)
      = ∑ k : Fin 4096, A (ix2 r k) * B (ix2 k c) := by
  simp only [matmul]
  rw [Ideal.matmul_constant_zero_apply, ← Equiv.sum_comp (contrEquiv1 dot_S256x4096_S4096x4_S256x4_1_0_0_1_n_n 4096 rfl rfl).symm]
  refine Finset.sum_congr rfl fun k _ => ?_
  have hk := contrEquiv1_symm_val dot_S256x4096_S4096x4_S256x4_1_0_0_1_n_n 4096 rfl rfl k
  have el : dot_S256x4096_S4096x4_S256x4_1_0_0_1_n_n.lhsIdx (ix2 r c) ((contrEquiv1 dot_S256x4096_S4096x4_S256x4_1_0_0_1_n_n 4096 rfl rfl).symm k) = ix2 r k := funext fun a => Fin.ext (by
    match a with
    | ⟨0, _⟩ => exact lhs_mm2_0 _ _
    | ⟨1, _⟩ => exact (lhs_mm2_1 _ _).trans hk)
  have er : dot_S256x4096_S4096x4_S256x4_1_0_0_1_n_n.rhsIdx (ix2 r c) ((contrEquiv1 dot_S256x4096_S4096x4_S256x4_1_0_0_1_n_n 4096 rfl rfl).symm k) = ix2 k c := funext fun a => Fin.ext (by
    match a with
    | ⟨0, _⟩ => exact (rhs_mm2_0 _ _).trans hk
    | ⟨1, _⟩ => exact rhs_mm2_1 _ _)
  rw [el, er]

/-! ## The tile's partial sum, stage by stage

The payload is a composition: the hidden layer, the logits, each row's shift by its maximum, the logarithm of the
row sums of exponentials, and the weighted total. Each stage is named here as the kernel forms it and read at
coordinates; the payload is their composition by unfolding. -/

/-- The hidden layer as the kernel forms it: the product with the first weights plus the bias row, then the
    maximum with zero. -/
def hiddenV (x0 : Vec Ideal S256x1024 .f32) (x1 : Vec Ideal S1024x4096 .bf16) (x2 : Vec Ideal S4096 .f32) :
    FVec Ideal S256x4096 .f32 :=
  maximumf
    (addf
      (matmul dot_S256x1024_S1024x4096_S256x4096_1_0_0_1_n_n none
        (truncf .bf16 (shapeCast S256x1024 x0 shapeCasts_S256x1024_S256x1024 : FVec Ideal S256x1024 .f32) bitsLt_bf16_f32)
        (shapeCast S1024x4096 x1 shapeCasts_S1024x4096_S1024x4096 : FVec Ideal S1024x4096 .bf16)
        (constant S256x4096 .f32 0x00000000#32))
      (broadcastTo S256x4096 (shapeCast S1x4096 x2 shapeCasts_S4096_S1x4096 : FVec Ideal S1x4096 .f32) broadcasts_S1x4096_S256x4096))
    (broadcast S256x4096 (Scalar.ofBits .f32 0x00000000#32))

/-- The logits as the kernel forms them: the product of the hidden layer with the second weights plus the bias row. -/
def logitsV (x0 : Vec Ideal S256x1024 .f32) (x1 : Vec Ideal S1024x4096 .bf16) (x2 : Vec Ideal S4096 .f32)
    (x3 : Vec Ideal S4096x4 .bf16) (x4 : Vec Ideal S4 .f32) : FVec Ideal S256x4 .f32 :=
  addf
    (matmul dot_S256x4096_S4096x4_S256x4_1_0_0_1_n_n none
      (truncf .bf16 (hiddenV x0 x1 x2) bitsLt_bf16_f32)
      (shapeCast S4096x4 x3 shapeCasts_S4096x4_S4096x4 : FVec Ideal S4096x4 .bf16)
      (constant S256x4 .f32 0x00000000#32))
    (broadcastTo S256x4
      (shapeCast S1x4 (shapeCast S4 x4 shapeCasts_S4_S4 : FVec Ideal S4 .f32) shapeCasts_S4_S1x4 : FVec Ideal S1x4 .f32)
      broadcasts_S1x4_S256x4)

/-- Each row minus its maximum (the maximum folded from `-∞` and compared with `-∞` once more). -/
def shifted (L : FVec Ideal S256x4 .f32) : FVec Ideal S256x4 .f32 :=
  subf L
    (broadcastTo S256x4
      (shapeCast S256x1
        (maximumf (broadcast S256 (Scalar.ofBits .f32 0xFF800000#32))
          (multiReduction .maximumf [1] S256 L 0xFF800000#32 reduces_S256x4_S256 (.inl rfl) rfl) : FVec Ideal S256 .f32)
        shapeCasts_S256_S256x1 : FVec Ideal S256x1 .f32)
      broadcasts_S256x1_S256x4)

/-- The logarithm of each row's sum of exponentials, spread over the row. -/
def logSumExp (Z : FVec Ideal S256x4 .f32) : FVec Ideal S256x4 .f32 :=
  broadcastTo S256x4
    (log (shapeCast S256x1
      (multiReduction .add [1] S256 (exp Z) 0x00000000#32 reduces_S256x4_S256 (.inl rfl) rfl : FVec Ideal S256 .f32)
      shapeCasts_S256_S256x1 : FVec Ideal S256x1 .f32))
    broadcasts_S256x1_S256x4

/-- The weighted total: the product with the weight table summed along the rows, then down the column. -/
def total (P : FVec Ideal S256x4 .f32) (x5 : Vec Ideal S256x4 .f32) : FVec Ideal S1x1 .f32 :=
  shapeCast S1x1
    (multiReduction .add [0] S1
      (shapeCast S256x1
        (multiReduction .add [1] S256 (mulf P (shapeCast S256x4 x5 shapeCasts_S256x4_S256x4 : FVec Ideal S256x4 .f32))
          0x00000000#32 reduces_S256x4_S256 (.inl rfl) rfl : FVec Ideal S256 .f32)
        shapeCasts_S256_S256x1 : FVec Ideal S256x1 .f32)
      0x00000000#32 reduces_S256x1_S1 (.inl rfl) rfl : FVec Ideal S1 .f32)
    shapeCasts_S1_S1x1

/-- The payload is the composition of the stages. -/
theorem pay3_eq (x0 : Vec Ideal S256x1024 .f32) (x1 : Vec Ideal S1024x4096 .bf16) (x2 : Vec Ideal S4096 .f32)
    (x3 : Vec Ideal S4096x4 .bf16) (x4 : Vec Ideal S4 .f32) (x5 : Vec Ideal S256x4 .f32) :
    k0_pay3 (F := Ideal) x0 x1 x2 x3 x4 x5
      = total (subf (shifted (logitsV x0 x1 x2 x3 x4)) (logSumExp (shifted (logitsV x0 x1 x2 x3 x4)))) x5 := rfl

/-- The hidden layer at `(r, j)`: hidden unit `j` of row `r`. -/
theorem hiddenV_apply (x0 : Vec Ideal S256x1024 .f32) (x1 : Vec Ideal S1024x4096 .bf16) (x2 : Vec Ideal S4096 .f32)
    (r : Fin 256) (j : Fin 4096) :
    hiddenV x0 x1 x2 (ix2 r j)
      = Cert.Spec.hidden (fun k => x0 (ix2 r k)) (fun k j => x1 (ix2 k j)) (fun j => x2 (ix1 j)) j := by
  unfold hiddenV Cert.Spec.hidden
  refine (maximumf_apply _ _ _).trans ?_
  refine congrArg₂ max ?_ rfl
  refine (addf_apply _ _ _).trans ?_
  refine congrArg₂ (· + ·) ?_ ?_
  · refine (mm1_apply _ _ r j).trans ?_
    rw [shapeCast_self, shapeCast_self]
    rfl
  · refine (broadcastTo_1b_ab_apply _ _ r j).trans ?_
    exact shapeCast_a_1a_apply _ _ (0 : Fin 1) j

/-- The logits at `(r, a)`: logit `a` over row `r`'s hidden units. -/
theorem logitsV_apply (x0 : Vec Ideal S256x1024 .f32) (x1 : Vec Ideal S1024x4096 .bf16) (x2 : Vec Ideal S4096 .f32)
    (x3 : Vec Ideal S4096x4 .bf16) (x4 : Vec Ideal S4 .f32) (r : Fin 256) (a : Fin 4) :
    logitsV x0 x1 x2 x3 x4 (ix2 r a)
      = Cert.Spec.logit (Cert.Spec.hidden (fun k => x0 (ix2 r k)) (fun k j => x1 (ix2 k j)) (fun j => x2 (ix1 j)))
          (fun j a' => x3 (ix2 j a')) (fun a' => x4 (ix1 a')) a := by
  unfold logitsV Cert.Spec.logit
  refine (addf_apply _ _ _).trans ?_
  refine congrArg₂ (· + ·) ?_ ?_
  · refine (mm2_apply _ _ r a).trans ?_
    rw [shapeCast_self]
    refine Finset.sum_congr rfl fun j _ => ?_
    refine congrArg (· * x3 (ix2 j a)) ?_
    exact (truncf_apply (ψ := .bf16) (hiddenV x0 x1 x2) bitsLt_bf16_f32 (ix2 r j)).trans (hiddenV_apply x0 x1 x2 r j)
  · refine (broadcastTo_1b_ab_apply _ _ r a).trans ?_
    refine (shapeCast_a_1a_apply _ _ (0 : Fin 1) a).trans ?_
    rw [shapeCast_self]

/-- A shifted row at lane `a`: the element minus the row's maximum. -/
theorem shifted_apply (L : FVec Ideal S256x4 .f32) (r : Fin 256) (a : Fin 4) :
    shifted L (ix2 r a) = L (ix2 r a) - Cert.Spec.rowMax (fun a' => L (ix2 r a')) := by
  unfold shifted Cert.Spec.rowMax
  refine (subf_apply _ _ _).trans ?_
  refine congrArg (L (ix2 r a) - ·) ?_
  refine (broadcastTo_a1_ab_apply _ _ r a).trans ?_
  refine (shapeCast_a_a1_apply _ _ r (0 : Fin 1)).trans ?_
  refine (maximumf_apply _ _ _).trans ?_
  refine congrArg₂ max rfl ?_
  exact rowMax_apply L _ _ _ r

/-- The spread logarithm at `(r, a)`: the logarithm of row `r`'s sum of exponentials. -/
theorem logSumExp_apply (Z : FVec Ideal S256x4 .f32) (r : Fin 256) (a : Fin 4) :
    logSumExp Z (ix2 r a) = Ideal.log (∑ a' : Fin 4, Ideal.exp (Z (ix2 r a'))) := by
  unfold logSumExp
  refine (broadcastTo_a1_ab_apply _ _ r a).trans ?_
  show Ideal.log (shapeCast S256x1 _ _ (ix2 r (0 : Fin 1))) = _
  refine congrArg Ideal.log ?_
  refine (shapeCast_a_a1_apply _ _ r (0 : Fin 1)).trans ?_
  exact rowSum_apply _ _ _ _ r

/-- The weighted total at its one element: the double sum of the products. -/
theorem total_apply (P : FVec Ideal S256x4 .f32) (x5 : Vec Ideal S256x4 .f32) :
    total P x5 (ix2 (0 : Fin 1) (0 : Fin 1)) = ∑ r : Fin 256, ∑ a : Fin 4, P (ix2 r a) * x5 (ix2 r a) := by
  unfold total
  refine (shapeCast_a_1a_apply _ _ (0 : Fin 1) (0 : Fin 1)).trans ?_
  refine (colSum_apply _ _ _ _).trans ?_
  refine Finset.sum_congr rfl fun r _ => ?_
  refine (shapeCast_a_a1_apply _ _ r (0 : Fin 1)).trans ?_
  refine (rowSum_apply _ _ _ _ r).trans ?_
  refine Finset.sum_congr rfl fun a _ => ?_
  refine (mulf_apply _ _ _).trans ?_
  rw [shapeCast_self]

/-- A row's log-probabilities from its shifted logits and the spread logarithm. -/
theorem logSoftmaxV_apply (L : FVec Ideal S256x4 .f32) (r : Fin 256) (a : Fin 4) :
    subf (shifted L) (logSumExp (shifted L)) (ix2 r a) = Cert.Spec.logSoftmax (fun a' => L (ix2 r a')) a := by
  unfold Cert.Spec.logSoftmax
  refine (subf_apply _ _ _).trans ?_
  refine congrArg₂ (· - ·) (shifted_apply L r a) ?_
  refine (logSumExp_apply _ r a).trans ?_
  exact congrArg Ideal.log (Finset.sum_congr rfl fun a' _ => congrArg Ideal.exp (shifted_apply L r a'))

/-- The tile's partial sum at its one element: over rows and actions, log-probability times weight. -/
theorem pay3_apply (x0 : Vec Ideal S256x1024 .f32) (x1 : Vec Ideal S1024x4096 .bf16) (x2 : Vec Ideal S4096 .f32)
    (x3 : Vec Ideal S4096x4 .bf16) (x4 : Vec Ideal S4 .f32) (x5 : Vec Ideal S256x4 .f32) :
    k0_pay3 (F := Ideal) x0 x1 x2 x3 x4 x5 (ix2 0 0)
      = ∑ r : Fin 256, ∑ a : Fin 4,
          Cert.Spec.rowLP (fun k => x0 (ix2 r k)) (fun k j => x1 (ix2 k j)) (fun j => x2 (ix1 j))
            (fun j a' => x3 (ix2 j a')) (fun a' => x4 (ix1 a')) a * x5 (ix2 r a) := by
  rw [pay3_eq]
  refine (total_apply _ x5).trans ?_
  refine Finset.sum_congr rfl fun r _ => Finset.sum_congr rfl fun a _ => ?_
  refine congrArg (· * x5 (ix2 r a)) ?_
  refine (logSoftmaxV_apply _ r a).trans ?_
  unfold Cert.Spec.rowLP
  exact congrArg (fun lg => Cert.Spec.logSoftmax lg a) (funext fun a' => logitsV_apply x0 x1 x2 x3 x4 r a')

/-! ## The accumulator's update and the reset -/

/-- The accumulator's update at element (0, 0, 0): what was there plus the partial sum. -/
theorem pay2_apply (v52 : FVec Ideal S1x1 .f32) (v65 : Vec Ideal S1x8x128 .f32) :
    k0_pay2 (F := Ideal) v52 (iota .tc S8x128 32 [0] Facts₀.iota_S8x128_d0_w32) (iota .tc S8x128 32 [1] Facts₀.iota_S8x128_d1_w32) v65 (ix3 0 0 0)
      = v65 (ix3 0 0 0) + v52 (ix2 0 0) := by
  unfold k0_pay2
  rw [shapeCast_self]
  refine (addf_apply _ _ _).trans ?_
  refine congrArg (v65 (ix3 0 0 0) + ·) ?_
  refine (shapeCast_ab_1ab_apply _ _ (0 : Fin 1) (0 : Fin 8) (0 : Fin 128)).trans ?_
  refine (mulf_apply _ _ _).trans ?_
  rw [bcast_11_8x128_apply, select_apply]
  -- both coordinates of the element are zero, so the one-hot bit there is set
  have hbit : andi (cmpi CmpIPredicate.eq (iota Kind.tc S8x128 32 [0] Facts₀.iota_S8x128_d0_w32) (broadcast S8x128 0#32))
      (cmpi CmpIPredicate.eq (iota Kind.tc S8x128 32 [1] Facts₀.iota_S8x128_d1_w32) (broadcast S8x128 0#32)) (ix2 (0 : Fin 8) (0 : Fin 128)) = 1#1 := by
    show IntOp.andi (IntOp.cmpi .eq (iota Kind.tc S8x128 32 [0] Facts₀.iota_S8x128_d0_w32 (ix2 (0 : Fin 8) (0 : Fin 128))) 0#32)
      (IntOp.cmpi .eq (iota Kind.tc S8x128 32 [1] Facts₀.iota_S8x128_d1_w32 (ix2 (0 : Fin 8) (0 : Fin 128))) 0#32) = 1#1
    rw [iota_single_apply, iota_single_apply]
    rfl
  rw [hbit, select_one]
  show Ideal.ofBits .f32 0x3F800000#32 * _ = _
  rw [ofBits_one_f32, one_mul]

/-- The reset's value at element (0, 0, 0): zero. -/
theorem pay1_apply : k0_pay1 (F := Ideal) (ix3 0 0 0) = 0 := by
  unfold k0_pay1
  rw [shapeCast_self]
  show Ideal.ofBits .f32 0x00000000#32 = 0
  exact Ideal.ofBits_zero_f32

end Cert.KernelIdeal.Pay

end
-- ==== Proof.KInputs.lean ====
/-
  The kernel's six input blocks at a grid point, read at an index, as the argument arrays.

  Point `t` (0 … 127) is tile `t` of the flattened (sample, timestep) axis: row `r` of its block of states is
  the states of sample `(256 t + r) / 512` at timestep `(256 t + r) mod 512` (the host's reshape is row-major);
  the two layers' weights and biases arrive whole (the first-option columns of the second layer's, a change of
  float format being the identity at the ideal instance).
-/
import proofs.«421442_j77936476553902_3_alg».proof.Proof.Gen.KernelIdeal.Frame
import proofs.«421442_j77936476553902_3_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Inp

open Cert.KernelIdeal Cert.KernelIdeal.Gen Idealize.ShloMosaic Idealize.ShloMosaic.TcCoe Idealize.SL.Sem
open Idealize.ShloMosaic.ValueIdx Cert.Spec

variable (m : (ℓ : Loc nD τ sig) → Buf (Elt Ideal) ℓ)

/-- The argument arrays of core `c`'s launch memory as plain functions. -/
def inputsOf (c : Dev nD) : Cert.Spec.Inputs where
  s := fun b t k => m ((c : Thread nD τ).loc main_arg0) (ix3 b t k)
  act := fun b t => m ((c : Thread nD τ).loc main_arg1) (ix2 b t)
  len := fun b => m ((c : Thread nD τ).loc main_arg2) (ix1 b)
  W1 := fun k j => m ((c : Thread nD τ).loc main_arg3) (ix2 k j)
  b1 := fun j => m ((c : Thread nD τ).loc main_arg4) (ix1 j)
  W2 := fun j q => m ((c : Thread nD τ).loc main_arg5) (ix2 j q)
  b2 := fun q => m ((c : Thread nD τ).loc main_arg6) (ix1 q)

/-- The input windows' blocks at a point, named at their literal types. -/
abbrev blk0 (hO : Ok m) (c : Dev nD) (t : Fin (cfgM m hO).N) : Vec Ideal S256x1024 .f32 := iblk m hO c 0 t
abbrev blk1 (hO : Ok m) (c : Dev nD) (t : Fin (cfgM m hO).N) : Vec Ideal S1024x4096 .bf16 := iblk m hO c 1 t
abbrev blk2 (hO : Ok m) (c : Dev nD) (t : Fin (cfgM m hO).N) : Vec Ideal S4096 .f32 := iblk m hO c 2 t
abbrev blk3 (hO : Ok m) (c : Dev nD) (t : Fin (cfgM m hO).N) : Vec Ideal S4096x4 .bf16 := iblk m hO c 3 t
abbrev blk4 (hO : Ok m) (c : Dev nD) (t : Fin (cfgM m hO).N) : Vec Ideal S4 .f32 := iblk m hO c 4 t
abbrev blk5 (hO : Ok m) (c : Dev nD) (t : Fin (cfgM m hO).N) : Vec Ideal S256x4 .f32 := iblk m hO c 5 t

/-! ## The arrays the host prepares before the region, as terms of the arguments -/

/-- The states' array is the row-major reshape of the states argument. -/
theorem V_v0 (c : Dev nD) : (V m c main_v0 : S32768x1024.Idx → EReal)
    = shapeCast S32768x1024 (m ((c : Thread nD τ).loc main_arg0)) Facts₀.shapeCasts_S64x512x1024_S32768x1024 := by
  dsimp only [Gen.V, Gen.V0]
  simp only [Gen.hostOps0, Gen.hostOps0_1, Gen.hostOps0_2, List.flatten_cons, List.flatten_nil, List.append_nil, List.cons_append,
    List.nil_append]
  after_results
  rfl

/-- The first layer's weights' array is the weights argument in the narrower float format. -/
theorem V_v21 (c : Dev nD) : (V m c main_v21 : S1024x4096.Idx → EReal)
    = truncf (F := Ideal) (s := S1024x4096) (φ := .f32) .bf16 (m ((c : Thread nD τ).loc main_arg3)) Facts₀.bitsLt_bf16_f32 := by
  dsimp only [Gen.V, Gen.V0]
  simp only [Gen.hostOps0, Gen.hostOps0_1, Gen.hostOps0_2, List.flatten_cons, List.flatten_nil, List.append_nil, List.cons_append,
    List.nil_append]
  after_results

/-- The second layer's weights' array is the first four columns of the weights argument, in the narrower float format. -/
theorem V_v23 (c : Dev nD) : (V m c main_v23 : S4096x4.Idx → EReal)
    = truncf (F := Ideal) (s := S4096x4) (φ := .f32) .bf16
        (extractStridedSlice S4096x4 ![0, 0] (m ((c : Thread nD τ).loc main_arg5)) Facts₀.slices_S4096x32_S4096x4_0_0)
        Facts₀.bitsLt_bf16_f32 := by
  dsimp only [Gen.V, Gen.V0]
  simp only [Gen.hostOps0, Gen.hostOps0_1, Gen.hostOps0_2, List.flatten_cons, List.flatten_nil, List.append_nil, List.cons_append,
    List.nil_append]
  after_results

/-- The second layer's bias' array is the first four entries of the bias argument. -/
theorem V_v24 (c : Dev nD) : (V m c main_v24 : S4.Idx → EReal)
    = extractStridedSlice S4 ![0] (m ((c : Thread nD τ).loc main_arg6)) Facts₀.slices_S32_S4_0 := by
  dsimp only [Gen.V, Gen.V0]
  simp only [Gen.hostOps0, Gen.hostOps0_1, Gen.hostOps0_2, List.flatten_cons, List.flatten_nil, List.append_nil, List.cons_append,
    List.nil_append]
  after_results

/-! ## The blocks -/

/-- The states' window's index map at every point: block row `t`, block column 0. -/
theorem idx_facts0 : ∀ t : Fin grid0.N,
    (cc0_transform_0 (grid0.coords t) 0 = t.val) ∧ (cc0_transform_0 (grid0.coords t) 1 = 0) := by decide +kernel

/-- The states' block at a point, read in the reshaped array: rows `256 t … 256 t + 255`. -/
theorem blk0_read (hO : Ok m) (c : Dev nD) (t : Fin (cfgM m hO).N) (r : Fin 256) (k : Fin 1024) (i : S32768x1024.Idx)
    (h0 : (i 0).val = t.val * 256 + r.val) (h1 : (i 1).val = k.val) :
    blk0 m hO c t (ix2 r k) = (V m c main_v0 : S32768x1024.Idx → EReal) i := by
  have hi := idx_facts0 t
  show V m c main_v0 ((((cfgM m hO).win 0).blk t).view.emb (ix2 r k)) = V m c main_v0 i
  refine congrArg _ (funext fun a => Fin.ext ?_)
  match a with
  | ⟨0, _⟩ => show cc0_transform_0 (grid0.coords t) 0 * 256 + 1 * r.val = (i 0).val; rw [hi.1, h0]; omega
  | ⟨1, _⟩ => show cc0_transform_0 (grid0.coords t) 1 * 1024 + 1 * k.val = (i 1).val; rw [hi.2, h1]; omega

/-- Row `r` of the states' block at point `t`. -/
theorem blk0_apply (hO : Ok m) (c : Dev nD) (t : Fin (cfgM m hO).N) (r : Fin 256) (k : Fin 1024) :
    blk0 m hO c t (ix2 r k) = (inputsOf m c).s (rowB t.val r.val) (rowT t.val r.val) k := by
  have ht : t.val < 128 := N_0 ▸ t.isLt
  have hr := r.isLt
  rw [blk0_read m hO c t r k (ix2 ⟨t.val * 256 + r.val, by omega⟩ k) rfl rfl, V_v0]
  refine shapeCast_apply _ _ _ (ix3 (rowB t.val r.val) (rowT t.val r.val) k) ?_
  rw [Shape.rowMajor_val_three, Shape.rowMajor_val_two]
  show ((t.val * 256 + r.val) / 512 % 64 * 512 + (t.val * 256 + r.val) % 512) * 1024 + k.val
    = (t.val * 256 + r.val) * 1024 + k.val
  omega

/-- The first layer's weights, whole. -/
theorem blk1_apply (hO : Ok m) (c : Dev nD) (t : Fin (cfgM m hO).N) (k : Fin 1024) (j : Fin 4096) :
    blk1 m hO c t (ix2 k j) = (inputsOf m c).W1 k j := by
  show (V m c main_v21 : S1024x4096.Idx → EReal) ((((cfgM m hO).win 1).blk t).view.emb (ix2 k j))
    = m ((c : Thread nD τ).loc main_arg3) (ix2 k j)
  rw [V_v21]
  show m ((c : Thread nD τ).loc main_arg3) ((((cfgM m hO).win 1).blk t).view.emb (ix2 k j)) = _
  refine congrArg _ (funext fun a => Fin.ext ?_)
  match a with
  | ⟨0, _⟩ => show cc0_transform_1 (grid0.coords t) 0 * 1024 + 1 * k.val = k.val; show 0 * 1024 + 1 * k.val = k.val; omega
  | ⟨1, _⟩ => show cc0_transform_1 (grid0.coords t) 1 * 4096 + 1 * j.val = j.val; show 0 * 4096 + 1 * j.val = j.val; omega

/-- The first layer's bias, whole. -/
theorem blk2_apply (hO : Ok m) (c : Dev nD) (t : Fin (cfgM m hO).N) (j : Fin 4096) :
    blk2 m hO c t (ix1 j) = (inputsOf m c).b1 j := by
  show V m c main_arg4 ((((cfgM m hO).win 2).blk t).view.emb (ix1 j)) = m ((c : Thread nD τ).loc main_arg4) (ix1 j)
  rw [V_main_arg4]
  refine congrArg _ (funext fun a => Fin.ext ?_)
  match a with
  | ⟨0, _⟩ => show cc0_transform_2 (grid0.coords t) 0 * 4096 + 1 * j.val = j.val; show 0 * 4096 + 1 * j.val = j.val; omega

/-- The second layer's weights: the first option's four columns. -/
theorem blk3_apply (hO : Ok m) (c : Dev nD) (t : Fin (cfgM m hO).N) (j : Fin 4096) (a : Fin 4) :
    blk3 m hO c t (ix2 j a) = (inputsOf m c).W2 j ⟨a.val, by omega⟩ := by
  show (V m c main_v23 : S4096x4.Idx → EReal) ((((cfgM m hO).win 3).blk t).view.emb (ix2 j a))
    = m ((c : Thread nD τ).loc main_arg5) (ix2 j ⟨a.val, by omega⟩)
  rw [V_v23]
  show extractStridedSlice S4096x4 ![0, 0] (m ((c : Thread nD τ).loc main_arg5)) Facts₀.slices_S4096x32_S4096x4_0_0
      ((((cfgM m hO).win 3).blk t).view.emb (ix2 j a)) = _
  refine extractStridedSlice_apply _ _ _ _ (ix2 j ⟨a.val, by omega⟩) fun b => ?_
  match b with
  | ⟨0, _⟩ => show j.val = 0 + (cc0_transform_3 (grid0.coords t) 0 * 4096 + 1 * j.val); show j.val = 0 + (0 * 4096 + 1 * j.val); omega
  | ⟨1, _⟩ => show a.val = 0 + (cc0_transform_3 (grid0.coords t) 1 * 4 + 1 * a.val); show a.val = 0 + (0 * 4 + 1 * a.val); omega

/-- The second layer's bias: the first option's four entries. -/
theorem blk4_apply (hO : Ok m) (c : Dev nD) (t : Fin (cfgM m hO).N) (a : Fin 4) :
    blk4 m hO c t (ix1 a) = (inputsOf m c).b2 ⟨a.val, by omega⟩ := by
  show (V m c main_v24 : S4.Idx → EReal) ((((cfgM m hO).win 4).blk t).view.emb (ix1 a))
    = m ((c : Thread nD τ).loc main_arg6) (ix1 ⟨a.val, by omega⟩)
  rw [V_v24]
  refine extractStridedSlice_apply _ _ _ _ (ix1 ⟨a.val, by omega⟩) fun b => ?_
  match b with
  | ⟨0, _⟩ => show a.val = 0 + (cc0_transform_4 (grid0.coords t) 0 * 4 + 1 * a.val); show a.val = 0 + (0 * 4 + 1 * a.val); omega

end Cert.KernelIdeal.Inp

end
-- ==== Proof.KOhm.lean ====
/-
  The kernel's two tables computed on the host from the integer arguments, read at an index.

  The weight table's block at point `t`, row `r`, action `a`, is the one-hot bit of the padded action word times the
  bit "timestep below the length clamped to 511", both as floats, of sample `(256 t + r) / 512` and timestep
  `(256 t + r) mod 512`; the prefetched per-tile flag word of tile `t` is non-zero exactly when some row of the tile
  has that length bit set.
-/
import proofs.«421442_j77936476553902_3_alg».proof.Proof.KInputs
import Idealize.ShloMosaic.Lib.StableHlo.Predicate
import Idealize.ShloMosaic.PureOps.Reduce

set_option maxRecDepth 16384

noncomputable section

namespace Cert.KernelIdeal.Inp

open Cert.KernelIdeal Cert.KernelIdeal.Gen Idealize.ShloMosaic Idealize.ShloMosaic.TcCoe Idealize.SL.Sem
open Idealize.ShloMosaic.ValueIdx Cert.Spec

variable (m : (ℓ : Loc nD τ sig) → Buf (Elt Ideal) ℓ)

/-! ## Indices -/

theorem ij_eq_ix2 {n k : Nat} (p : Fin n) (q : Fin k) : StableHlo.Predicate.ij p q = ix2 p q := by
  funext d; match d with | ⟨0, _⟩ => rfl | ⟨1, _⟩ => rfl

theorem ixP_eq_ix2 {n : Nat} (p : Fin n) : StableHlo.Predicate.ixP p = ix2 p (0 : Fin 1) := by
  funext d; match d with | ⟨0, _⟩ => rfl | ⟨1, _⟩ => rfl

theorem i1q_eq_ix2 {k : Nat} (q : Fin k) : StableHlo.Predicate.i1q q = ix2 (0 : Fin 1) q := by
  funext d; match d with | ⟨0, _⟩ => rfl | ⟨1, _⟩ => rfl

theorem ofFin_eq_ix1 {n : Nat} (p : Fin n) : Shape.Idx.ofFin p = ix1 p := by
  funext d; match d with | ⟨0, _⟩ => exact Fin.ext rfl

/-! ## Broadcasts read at an index -/

/-- A vector as a column, read at row `p`. -/
theorem bc_col {α : Type} {n : Nat} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ix2 p (0 : Fin 1)) = v (ix1 p) := by
  rw [← ixP_eq_ix2, StableHlo.Predicate.bcast_col1, ofFin_eq_ix1]

/-- A vector as a row, read at column `q`. -/
theorem bc_row {α : Type} {k : Nat} (h : (⟨1, ![k]⟩ : Shape).BroadcastsInDim ⟨2, ![1, k]⟩ ![1])
    (v : (⟨1, ![k]⟩ : Shape).Idx → α) (q : Fin k) :
    broadcastInDim ⟨2, ![1, k]⟩ ![1] h v (ix2 (0 : Fin 1) q) = v (ix1 q) := by
  rw [← i1q_eq_ix2, StableHlo.Predicate.bcast_row1, ofFin_eq_ix1]

/-- A column repeated along the rows' length, read at `(p, q)`. -/
theorem bc_rect_col {α : Type} {n k : Nat} (h : (⟨2, ![n, 1]⟩ : Shape).BroadcastsInDim ⟨2, ![n, k]⟩ ![0, 1])
    (v : (⟨2, ![n, 1]⟩ : Shape).Idx → α) (p : Fin n) (q : Fin k) :
    broadcastInDim ⟨2, ![n, k]⟩ ![0, 1] h v (ix2 p q) = v (ix2 p (0 : Fin 1)) := by
  rw [← ij_eq_ix2, StableHlo.Predicate.bcast_of_col, ixP_eq_ix2]

/-- A row repeated down the columns, read at `(p, q)`. -/
theorem bc_rect_row {α : Type} {n k : Nat} (h : (⟨2, ![1, k]⟩ : Shape).BroadcastsInDim ⟨2, ![n, k]⟩ ![0, 1])
    (v : (⟨2, ![1, k]⟩ : Shape).Idx → α) (p : Fin n) (q : Fin k) :
    broadcastInDim ⟨2, ![n, k]⟩ ![0, 1] h v (ix2 p q) = v (ix2 (0 : Fin 1) q) := by
  rw [← ij_eq_ix2, StableHlo.Predicate.bcast_of_row, i1q_eq_ix2]

theorem uitofp_apply {s : Shape} {w : Nat} (x : IVec s w) (i : s.Idx) :
    (uitofp .f32 x : FVec Ideal s .f32) i = (((x i).toNat : ℝ) : EReal) := rfl

theorem cmpi_apply {s : Shape} {w : Nat} (p : CmpIPredicate) (x y : IVec s w) (i : s.Idx) :
    cmpi p x y i = IntOp.cmpi p (x i) (y i) := rfl

/-! ## The host's arrays as functions of the action and length words -/

/-- The weight bits over (sample, timestep): the timestep below the length clamped to 511. -/
def liveBT (len : IVec S64 32) : IVec S64x512 1 :=
  cmpi .slt
    (broadcastInDim S64x512 ![0, 1] Facts₀.bcast_S1x512_S64x512_0_1
      (broadcastInDim S1x512 ![1] Facts₀.bcast_S512_S1x512_1 (iotaInDim S512 32 0)))
    (broadcastInDim S64x512 ![0, 1] Facts₀.bcast_S64x1_S64x512_0_1
      (broadcastInDim S64x1 ![0] Facts₀.bcast_S64_S64x1_0
        (minsi len (broadcastInDim S64 ![] Facts₀.bcast_S_S64 (constantI S_ 32 511#32)))))

theorem liveBT_apply (len : IVec S64 32) (b : Fin 64) (tt : Fin 512) :
    liveBT len (ix2 b tt) = liveBit tt.val (len (ix1 b)) := by
  unfold liveBT liveBit
  rw [cmpi_apply, bc_rect_row, bc_row, bc_rect_col, bc_col]
  rfl

/-- The action words over (sample, timestep), a zero appended after the last of the 511. -/
def actBT (act : IVec S64x511 32) : IVec S64x512 32 :=
  concatenate S64x512 1 [⟨S64x511, act⟩, ⟨S64x1, broadcastInDim S64x1 ![] Facts₀.bcast_S_S64x1 (constantI S_ 32 0#32)⟩]
    Facts₀.concatenates_S64x511_S64x1_S64x512_d1

theorem actBT_apply (act : IVec S64x511 32) (b : Fin 64) (tt : Fin 512) :
    actBT act (ix2 b tt) = if h : tt.val < 511 then act (ix2 b ⟨tt.val, h⟩) else 0#32 := by
  unfold actBT
  by_cases h : tt.val < 511
  · rw [dif_pos h]
    exact concatenate_pair_apply_left (t := S64x512) (s₁ := S64x511) (s₂ := S64x1) (1 : Fin 2) act
      (broadcastInDim S64x1 ![] Facts₀.bcast_S_S64x1 (constantI S_ 32 0#32)) Facts₀.concatenates_S64x511_S64x1_S64x512_d1
      (ix2 b tt) rfl (ix2 b ⟨tt.val, h⟩)
      (fun b' => match b' with | ⟨0, _⟩ => rfl | ⟨1, _⟩ => rfl)
  · rw [dif_neg h]
    refine (concatenate_pair_apply_right (t := S64x512) (s₁ := S64x511) (s₂ := S64x1) (1 : Fin 2) act
      (broadcastInDim S64x1 ![] Facts₀.bcast_S_S64x1 (constantI S_ 32 0#32)) Facts₀.concatenates_S64x511_S64x1_S64x512_d1
      (ix2 b tt) rfl rfl (ix2 b (0 : Fin 1)) ?_ ?_).trans rfl
    · intro b' hb'
      match b', hb' with
      | ⟨0, _⟩, _ => rfl
      | ⟨1, _⟩, hb' => exact absurd rfl hb'
    · show 0 + 511 = tt.val
      have := tt.isLt
      omega

/-- The row-major flattening of (sample, timestep) to one axis, read at `row = 512 b + tt`. -/
theorem flat_apply {α : Type} (X : S64x512.Idx → α) (row : Fin 32768) (b : Fin 64) (tt : Fin 512)
    (h : row.val = b.val * 512 + tt.val) :
    shapeCast S32768 X Facts₀.shapeCasts_S64x512_S32768 (ix1 row) = X (ix2 b tt) := by
  refine shapeCast_apply X _ (ix1 row) (ix2 b tt) ?_
  rw [Shape.rowMajor_val_two, Shape.rowMajor_val_one]
  show b.val * 512 + tt.val = row.val
  omega

/-- The flat axis cut into 128 tiles of 256 rows, read at `(t, r)`: flat row `256 t + r`. -/
theorem tile_apply {α : Type} (X : S32768.Idx → α) (row : Fin 32768) (t : Fin 128) (r : Fin 256)
    (h : row.val = t.val * 256 + r.val) :
    shapeCast S128x256 X Facts₀.shapeCasts_S32768_S128x256 (ix2 t r) = X (ix1 row) := by
  refine shapeCast_apply X _ (ix2 t r) (ix1 row) ?_
  rw [Shape.rowMajor_val_two, Shape.rowMajor_val_one]
  show row.val = t.val * 256 + r.val
  omega

/-- The weight table: the one-hot of the flattened padded actions times the flattened weight bits, as floats. -/
def ohmTable (act : IVec S64x511 32) (len : IVec S64 32) : FVec Ideal S32768x4 .f32 :=
  mulf
    (uitofp .f32 (cmpi .eq
      (broadcastInDim S32768x4 ![0, 1] Facts₀.bcast_S32768x1_S32768x4_0_1
        (broadcastInDim S32768x1 ![0] Facts₀.bcast_S32768_S32768x1_0
          (shapeCast S32768 (actBT act) Facts₀.shapeCasts_S64x512_S32768)))
      (broadcastInDim S32768x4 ![0, 1] Facts₀.bcast_S1x4_S32768x4_0_1 (iotaInDim S1x4 32 1))))
    (broadcastInDim S32768x4 ![0, 1] Facts₀.bcast_S32768x1_S32768x4_0_1
      (uitofp .f32 (broadcastInDim S32768x1 ![0] Facts₀.bcast_S32768_S32768x1_0
        (shapeCast S32768 (liveBT len) Facts₀.shapeCasts_S64x512_S32768))))

theorem ohmTable_apply (act : IVec S64x511 32) (len : IVec S64 32) (row : Fin 32768) (a : Fin 4) :
    ohmTable act len (ix2 row a)
      = bitVal (hotBit (shapeCast S32768 (actBT act) Facts₀.shapeCasts_S64x512_S32768 (ix1 row)) a)
        * bitVal (shapeCast S32768 (liveBT len) Facts₀.shapeCasts_S64x512_S32768 (ix1 row)) := by
  unfold ohmTable
  rw [mulf_apply, uitofp_apply, cmpi_apply, bc_rect_col, bc_col, bc_rect_row, bc_rect_col, uitofp_apply, bc_col]
  rfl

/-- The per-tile flag words: the OR of a tile's 256 weight bits, widened. -/
def flagTable (len : IVec S64 32) : IVec S128 32 :=
  extui 32 (Host.reduce IntOp.ori
    (shapeCast S128x256 (shapeCast S32768 (liveBT len) Facts₀.shapeCasts_S64x512_S32768) Facts₀.shapeCasts_S32768_S128x256)
    (constantI S_ 1 0#1) Facts₀.reducesTo_S128x256_S128_d1 Facts₀.h_S_) Facts₀.natLt_1_32

/-! ## The arrays the region finds are those functions of the arguments -/

set_option maxHeartbeats 4000000 in
theorem V17_eq (c : Dev nD) :
    (V m c main_v17 : S32768x4.Idx → EReal)
      = ohmTable (m ((c : Thread nD τ).loc main_arg1)) (m ((c : Thread nD τ).loc main_arg2)) := by
  dsimp only [Gen.V, Gen.V0]
  simp only [Gen.hostOps0, Gen.hostOps0_1, Gen.hostOps0_2, List.flatten_cons, List.flatten_nil, List.append_nil,
    List.cons_append, List.nil_append]
  after_results
  rfl

theorem V20_eq :
    (V m 0 main_v20 : S128.Idx → BitVec 32) = flagTable (m (((0 : Dev nD) : Thread nD τ).loc main_arg2)) := by
  dsimp only [Gen.V, Gen.V0]
  simp only [Gen.hostOps0, Gen.hostOps0_1, Gen.hostOps0_2, List.flatten_cons, List.flatten_nil, List.append_nil,
    List.cons_append, List.nil_append]
  after_results
  rfl

/-! ## The weight table's block -/

theorem hidx5 : ∀ t : Fin grid0.N, cc0_transform_5 (grid0.coords t) 0 = t.val ∧ cc0_transform_5 (grid0.coords t) 1 = 0 :=
  (by decide +kernel : ∀ t : Fin grid0.N, cc0_transform_5 (grid0.coords t) 0 = t.val ∧ cc0_transform_5 (grid0.coords t) 1 = 0)

/-- Row `r` of the block at point `t` is row `256 t + r` of the table. -/
theorem blk5_read (hO : Ok m) (c : Dev nD) (t : Fin (cfgM m hO).N) (r : Fin 256) (a : Fin 4)
    (row : Fin 32768) (hrow : row.val = 256 * t.val + r.val) :
    blk5 m hO c t (ix2 r a) = V m c main_v17 (ix2 row a) := by
  have hi := hidx5 t
  show V m c main_v17 ((((cfgM m hO).win 5).blk t).view.emb (ix2 r a)) = V m c main_v17 (ix2 row a)
  congr 1
  funext b
  apply Fin.ext
  match b with
  | ⟨0, _⟩ => show cc0_transform_5 (grid0.coords t) 0 * 256 + 1 * r.val = row.val; rw [hi.1, hrow]; omega
  | ⟨1, _⟩ => show cc0_transform_5 (grid0.coords t) 1 * 4 + 1 * a.val = a.val; rw [hi.2]; omega

/-- The weight table's block at point `t`. -/
theorem blk5_apply (hO : Ok m) (c : Dev nD) (t : Fin (cfgM m hO).N) (r : Fin 256) (a : Fin 4) :
    blk5 m hO c t (ix2 r a) = (inputsOf m c).ohm (rowB t.val r.val) (rowT t.val r.val) a := by
  have hN : t.val < 128 := lt_of_lt_of_eq t.isLt (show (cfgM m hO).N = 128 from N_0)
  have hr := r.isLt
  have hrow : 256 * t.val + r.val = (rowB t.val r.val).val * 512 + (rowT t.val r.val).val := by
    show 256 * t.val + r.val = (t.val * 256 + r.val) / 512 % 64 * 512 + (t.val * 256 + r.val) % 512
    omega
  rw [blk5_read m hO c t r a ⟨256 * t.val + r.val, by omega⟩ rfl, V17_eq, ohmTable_apply,
    flat_apply _ _ (rowB t.val r.val) (rowT t.val r.val) hrow, flat_apply _ _ (rowB t.val r.val) (rowT t.val r.val) hrow,
    actBT_apply, liveBT_apply]
  rfl

/-! ## The flag words -/

instance ori_comm : Std.Commutative (IntOp.ori : BitVec 1 → BitVec 1 → BitVec 1) :=
  ⟨fun a b => BitVec.or_comm a b⟩

instance ori_assoc : Std.Associative (IntOp.ori : BitVec 1 → BitVec 1 → BitVec 1) :=
  ⟨fun a b c => BitVec.or_assoc a b c⟩

theorem ori_eq_one (x y : BitVec 1) : IntOp.ori x y = 1#1 ↔ x = 1#1 ∨ y = 1#1 := by
  rcases BitVec.eq_zero_or_eq_one x with rfl | rfl <;> rcases BitVec.eq_zero_or_eq_one y with rfl | rfl <;> decide

/-- An OR of bits from zero is one exactly when some bit is one. -/
theorem fold_ori_eq_one {ι : Type} (S : Finset ι) (f : ι → BitVec 1) :
    S.fold IntOp.ori 0#1 f = 1#1 ↔ ∃ i ∈ S, f i = 1#1 := by
  induction S using Finset.cons_induction with
  | empty =>
    rw [Finset.fold_empty]
    exact ⟨fun h => absurd h (by decide), fun ⟨i, hi, _⟩ => by simp at hi⟩
  | cons a S ha ih =>
    rw [Finset.fold_cons, ori_eq_one, ih]
    constructor
    · rintro (h | ⟨i, hi, h⟩)
      · exact ⟨a, Finset.mem_cons_self a S, h⟩
      · exact ⟨i, Finset.mem_cons.2 (Or.inr hi), h⟩
    · rintro ⟨i, hi, h⟩
      rcases Finset.mem_cons.1 hi with rfl | hi
      · exact Or.inl h
      · exact Or.inr ⟨i, hi, h⟩

/-- The body's test of a widened bit holds exactly when the bit is one. -/
theorem cond_iff (i : grid0.Coords) (b : BitVec 1) : cond0_1 i (b.setWidth 32) ↔ b = 1#1 := by
  show (Scalar.cmpi .ne (Scalar.extui (Scalar.cmpi .ne (b.setWidth 32) 0#32)) 0#32) = 1#1 ↔ b = 1#1
  rcases BitVec.eq_zero_or_eq_one b with rfl | rfl <;> decide

/-- Tile `t` with row `k` inserted on the reduced axis is the index `(t, k)`. -/
theorem lift_tile (h : S128x256.Reduces [(1 : Fin 2)] S128) (t : Fin 128) (k : Fin (S128x256.size (1 : Fin 2)))
    (hk : k.val < 256) : h.lift (ix1 t) k = ix2 t (⟨k.val, hk⟩ : Fin 256) := by
  funext c
  apply Fin.ext
  show h.liftVal (ix1 t) k.val c = _
  unfold Shape.Reduces.liftVal
  match c with
  | ⟨0, _⟩ => rfl
  | ⟨1, _⟩ => rfl

/-- Row `k` of tile `t` of the tiled weight bits. -/
theorem tileBit_apply (len : IVec S64 32) (t : Fin 128) (k : Fin 256) :
    shapeCast S128x256 (shapeCast S32768 (liveBT len) Facts₀.shapeCasts_S64x512_S32768) Facts₀.shapeCasts_S32768_S128x256 (ix2 t k)
      = liveBit (rowT t.val k.val).val (len (ix1 (rowB t.val k.val))) := by
  have ht := t.isLt
  have hk := k.isLt
  have hrow : t.val * 256 + k.val = (rowB t.val k.val).val * 512 + (rowT t.val k.val).val := by
    show t.val * 256 + k.val = (t.val * 256 + k.val) / 512 % 64 * 512 + (t.val * 256 + k.val) % 512
    omega
  rw [tile_apply _ ⟨t.val * 256 + k.val, by omega⟩ t k rfl,
    flat_apply _ ⟨t.val * 256 + k.val, by omega⟩ (rowB t.val k.val) (rowT t.val k.val) hrow, liveBT_apply]

/-- Tile `t`'s OR of weight bits is one exactly when some row's bit is. -/
theorem reduce_eq_one_iff (len : IVec S64 32) (t : Fin 128) :
    Host.reduce IntOp.ori
        (shapeCast S128x256 (shapeCast S32768 (liveBT len) Facts₀.shapeCasts_S64x512_S32768) Facts₀.shapeCasts_S32768_S128x256)
        (constantI S_ 1 0#1) Facts₀.reducesTo_S128x256_S128_d1 Facts₀.h_S_ (ix1 t) = 1#1
      ↔ ∃ r : Fin 256, liveBit (rowT t.val r.val).val (len (ix1 (rowB t.val r.val))) = 1#1 := by
  have hR : S128x256.Reduces [(1 : Fin 2)] S128 := by decide
  rw [Host.reduce_eq_fold_single IntOp.ori _ _ Facts₀.reducesTo_S128x256_S128_d1 hR Facts₀.h_S_ (ix1 t)]
  show Finset.fold IntOp.ori 0#1 _ _ = 1#1 ↔ _
  rw [fold_ori_eq_one]
  constructor
  · rintro ⟨k, _, hk⟩
    have hk' : k.val < 256 := k.isLt
    rw [Function.comp_apply, lift_tile hR t k hk', tileBit_apply len t ⟨k.val, hk'⟩] at hk
    exact ⟨⟨k.val, hk'⟩, hk⟩
  · rintro ⟨k, hk⟩
    have hk2 : k.val < S128x256.size (1 : Fin 2) := k.isLt
    refine ⟨⟨k.val, hk2⟩, Finset.mem_univ _, ?_⟩
    rw [Function.comp_apply, lift_tile hR t ⟨k.val, hk2⟩ k.isLt, tileBit_apply]
    exact hk

theorem hoff1 : ∀ t : Fin grid0.N, k0_off1 (grid0.coords t) 0 = t.val :=
  (by decide +kernel : ∀ t : Fin grid0.N, k0_off1 (grid0.coords t) 0 = t.val)

/-- The body's read of the flag table at point `t` is the table's word `t`. -/
theorem tbl_read (t : Fin grid0.N) (tt : Fin 128) (h : tt.val = t.val) :
    tbM0_0.view.readAt (Elt Ideal) (Rect.unit (s := S128) (k0_off1 (grid0.coords t)) S1.size (k0_off1_inb (grid0.coords t))).toLoadRect (tbl m 0) (Shape.Idx.first (numel1_S1.symm ▸ Nat.one_pos))
      = V m 0 main_v20 (ix1 tt) := by
  have ho := hoff1 t
  show V m 0 main_v20 _ = V m 0 main_v20 (ix1 tt)
  congr 1
  funext a
  apply Fin.ext
  match a with
  | ⟨0, _⟩ =>
    show k0_off1 (grid0.coords t) 0 + 1 * 0 = tt.val
    rw [ho, h]
    omega

/-- The body's test of tile `t`'s prefetched flag word is the tile being live. -/
theorem flag_iff (hO : Ok m) (t : Fin (cfgM m hO).N) :
    cond0_1 (grid0.coords t) (tbM0_0.view.readAt (Elt Ideal) (Rect.unit (s := S128) (k0_off1 (grid0.coords t)) S1.size (k0_off1_inb (grid0.coords t))).toLoadRect (tbl m 0) (Shape.Idx.first (numel1_S1.symm ▸ Nat.one_pos)))
      ↔ (inputsOf m 0).tileLive t.val := by
  have hN : t.val < 128 := lt_of_lt_of_eq t.isLt (show (cfgM m hO).N = 128 from N_0)
  rw [tbl_read m t ⟨t.val, hN⟩ rfl, V20_eq]
  show cond0_1 _ ((Host.reduce IntOp.ori
        (shapeCast S128x256 (shapeCast S32768 (liveBT (m (((0 : Dev nD) : Thread nD τ).loc main_arg2))) Facts₀.shapeCasts_S64x512_S32768) Facts₀.shapeCasts_S32768_S128x256)
        (constantI S_ 1 0#1) Facts₀.reducesTo_S128x256_S128_d1 Facts₀.h_S_ (ix1 ⟨t.val, hN⟩)).setWidth 32) ↔ _
  rw [cond_iff]
  exact reduce_eq_one_iff (m (((0 : Dev nD) : Thread nD τ).loc main_arg2)) ⟨t.val, hN⟩

end Cert.KernelIdeal.Inp

end
-- ==== Proof.KAccum.lean ====
/-
  The carried accumulator's six control cases at a grid point, at element (0, 0, 0).

  Element (0, 0, 0) of the accumulator after grid point `n` is the specification's `accAt n`: a core's first point
  starts from the zero block, a point whose tile is live adds the tile's partial sum, a point whose tile is dead leaves
  the accumulator as the point before left it — by induction on the point, each of the six control cases read through
  its stored values.-/
import proofs.«421442_j77936476553902_3_alg».proof.Proof.KPieces
import proofs.«421442_j77936476553902_3_alg».proof.Proof.KPayload
import proofs.«421442_j77936476553902_3_alg».proof.Proof.KInputs
import proofs.«421442_j77936476553902_3_alg».proof.Proof.KOhm

set_option maxRecDepth 16384

noncomputable section

namespace Cert.KernelIdeal.Acc

open Cert.KernelIdeal Cert.KernelIdeal.Gen Idealize.ShloMosaic Idealize.ShloMosaic.TcCoe Idealize.SL.Sem
open Idealize.ShloMosaic.ValueIdx Cert.Spec Cert.KernelIdeal.Inp Cert.KernelIdeal.Pieces Cert.KernelIdeal.Pay

variable (m : (ℓ : Loc nD τ sig) → Buf (Elt Ideal) ℓ)

/-- The tile's partial sum of the six input blocks at point `t` is the specification's. -/
theorem partial_eq (hO : Ok m) (c : Dev nD) (t : Fin (cfgM m hO).N) :
    k0_pay3 (F := Ideal) (blk0 m hO c t) (blk1 m hO c t) (blk2 m hO c t) (blk3 m hO c t) (blk4 m hO c t) (blk5 m hO c t) (ix2 0 0)
      = (inputsOf m c).tilePartial t.val := by
  rw [pay3_apply]
  unfold Inputs.tilePartial
  refine Finset.sum_congr rfl fun r _ => Finset.sum_congr rfl fun a _ => ?_
  rw [blk5_apply]
  refine congrArg (· * _) ?_
  unfold Inputs.lp
  have e0 : (fun k => blk0 m hO c t (ix2 r k)) = (inputsOf m c).s (rowB t.val r.val) (rowT t.val r.val) :=
    funext fun k => blk0_apply m hO c t r k
  have e1 : (fun k j => blk1 m hO c t (ix2 k j)) = (inputsOf m c).W1 := funext fun k => funext fun j => blk1_apply m hO c t k j
  have e2 : (fun j => blk2 m hO c t (ix1 j)) = (inputsOf m c).b1 := funext fun j => blk2_apply m hO c t j
  have e3 : (fun j a' => blk3 m hO c t (ix2 j a')) = fun j (a' : Fin 4) => (inputsOf m c).W2 j ⟨a'.val, by omega⟩ :=
    funext fun j => funext fun a' => blk3_apply m hO c t j a'
  have e4 : (fun a' => blk4 m hO c t (ix1 a')) = fun (a' : Fin 4) => (inputsOf m c).b2 ⟨a'.val, by omega⟩ :=
    funext fun a' => blk4_apply m hO c t a'
  rw [e0, e1, e2, e3, e4]

/-- The update at element (0, 0, 0): what the accumulator held there plus the tile's partial sum. -/
theorem upd_apply (hO : Ok m) (c : Dev nD) (t : Fin (cfgM m hO).N) (acc : Vec Ideal S1x8x128 .f32) :
    upd (F := Ideal) (iblk m hO c 0 t) (iblk m hO c 1 t) (iblk m hO c 2 t) (iblk m hO c 3 t) (iblk m hO c 4 t) (iblk m hO c 5 t) acc (ix3 0 0 0)
      = acc (ix3 0 0 0) + (inputsOf m c).tilePartial t.val :=
  (pay2_apply (k0_pay3 (F := Ideal) (blk0 m hO c t) (blk1 m hO c t) (blk2 m hO c t) (blk3 m hO c t) (blk4 m hO c t) (blk5 m hO c t)) acc).trans
    (congrArg (acc (ix3 0 0 0) + ·) (partial_eq m hO c t))

/-- The flag test at point `t`, as the specification's liveness of tile `t` (one device: core `c` is core 0). -/
theorem live_iff (hO : Ok m) (c : Dev nD) (t : Fin (cfgM m hO).N) :
    cond0_1 (grid0.coords t) (tbM0_0.view.readAt (Elt Ideal) (Rect.unit (s := S128) (k0_off1 (grid0.coords t)) S1.size (k0_off1_inb (grid0.coords t))).toLoadRect (tbl m 0) (Shape.Idx.first (numel1_S1.symm ▸ Nat.one_pos))) ↔ (inputsOf m c).tileLive t.val := by
  obtain rfl : c = 0 := Subsingleton.elim _ _
  exact flag_iff m hO t

/-! ### The six cases at a grid point, at element (0, 0, 0) -/

theorem sA_at (hO : Ok m) (c : Dev nD) (t : Fin (cfgM m hO).N) (hc0 : cond0_0 (grid0.coords t)) (hc2 : ¬cond0_2 (grid0.coords t)) (h1 : cond0_1 (grid0.coords t) (tbM0_0.view.readAt (Elt Ideal) (Rect.unit (s := S128) (k0_off1 (grid0.coords t)) S1.size (k0_off1_inb (grid0.coords t))).toLoadRect (tbl m 0) (Shape.Idx.first (numel1_S1.symm ▸ Nat.one_pos)))) :
    sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) hc0 hc2 (iblk m hO c 0 t) (iblk m hO c 1 t) (iblk m hO c 2 t) (iblk m hO c 3 t) (iblk m hO c 4 t) (iblk m hO c 5 t) (tbl m 0) h1 (ix3 0 0 0) = 0 + (inputsOf m c).tilePartial t.val :=
  (congrFun (sA (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) hc0 hc2 (iblk m hO c 0 t) (iblk m hO c 1 t) (iblk m hO c 2 t) (iblk m hO c 3 t) (iblk m hO c 4 t) (iblk m hO c 5 t) (tbl m 0) h1) (ix3 0 0 0)).trans
    ((upd_apply m hO c t (k0_pay1 (F := Ideal))).trans (congrArg (· + (inputsOf m c).tilePartial t.val) pay1_apply))

theorem sB_at (hO : Ok m) (c : Dev nD) (t : Fin (cfgM m hO).N) (hc0 : cond0_0 (grid0.coords t)) (hc2 : ¬cond0_2 (grid0.coords t)) (h1 : ¬cond0_1 (grid0.coords t) (tbM0_0.view.readAt (Elt Ideal) (Rect.unit (s := S128) (k0_off1 (grid0.coords t)) S1.size (k0_off1_inb (grid0.coords t))).toLoadRect (tbl m 0) (Shape.Idx.first (numel1_S1.symm ▸ Nat.one_pos)))) :
    sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) hc0 hc2 (iblk m hO c 0 t) (iblk m hO c 1 t) (iblk m hO c 2 t) (iblk m hO c 3 t) (iblk m hO c 4 t) (iblk m hO c 5 t) (tbl m 0) h1 (ix3 0 0 0) = 0 :=
  (congrFun (sB (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) hc0 hc2 (iblk m hO c 0 t) (iblk m hO c 1 t) (iblk m hO c 2 t) (iblk m hO c 3 t) (iblk m hO c 4 t) (iblk m hO c 5 t) (tbl m 0) h1) (ix3 0 0 0)).trans pay1_apply

theorem sC_at (hO : Ok m) (c : Dev nD) (t : Fin (cfgM m hO).N) (hc0 : ¬cond0_0 (grid0.coords t)) (hc2 : ¬cond0_2 (grid0.coords t)) (xs0 : Vec Ideal S1x8x128 .f32) (h1 : cond0_1 (grid0.coords t) (tbM0_0.view.readAt (Elt Ideal) (Rect.unit (s := S128) (k0_off1 (grid0.coords t)) S1.size (k0_off1_inb (grid0.coords t))).toLoadRect (tbl m 0) (Shape.Idx.first (numel1_S1.symm ▸ Nat.one_pos)))) :
    sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) hc0 hc2 (iblk m hO c 0 t) (iblk m hO c 1 t) (iblk m hO c 2 t) (iblk m hO c 3 t) (iblk m hO c 4 t) (iblk m hO c 5 t) (tbl m 0) xs0 h1 (ix3 0 0 0) = xs0 (ix3 0 0 0) + (inputsOf m c).tilePartial t.val :=
  (congrFun (sC (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) hc0 hc2 (iblk m hO c 0 t) (iblk m hO c 1 t) (iblk m hO c 2 t) (iblk m hO c 3 t) (iblk m hO c 4 t) (iblk m hO c 5 t) (tbl m 0) xs0 h1) (ix3 0 0 0)).trans (upd_apply m hO c t xs0)

theorem sE_at (hO : Ok m) (c : Dev nD) (t : Fin (cfgM m hO).N) (hc0 : ¬cond0_0 (grid0.coords t)) (hc2 : cond0_2 (grid0.coords t)) (xs0 : Vec Ideal S1x8x128 .f32) (h1 : cond0_1 (grid0.coords t) (tbM0_0.view.readAt (Elt Ideal) (Rect.unit (s := S128) (k0_off1 (grid0.coords t)) S1.size (k0_off1_inb (grid0.coords t))).toLoadRect (tbl m 0) (Shape.Idx.first (numel1_S1.symm ▸ Nat.one_pos)))) :
    sout0_E_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) hc0 hc2 (iblk m hO c 0 t) (iblk m hO c 1 t) (iblk m hO c 2 t) (iblk m hO c 3 t) (iblk m hO c 4 t) (iblk m hO c 5 t) (tbl m 0) xs0 h1 (ix3 0 0 0) = xs0 (ix3 0 0 0) + (inputsOf m c).tilePartial t.val :=
  (congrFun (sE (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) hc0 hc2 (iblk m hO c 0 t) (iblk m hO c 1 t) (iblk m hO c 2 t) (iblk m hO c 3 t) (iblk m hO c 4 t) (iblk m hO c 5 t) (tbl m 0) xs0 h1) (ix3 0 0 0)).trans (upd_apply m hO c t xs0)

/-- `outsAt0` at equal points. -/
theorem outsAt0_congr (hO : Ok m) (c : Dev nD) {n n' : ℕ} (e : n = n') (h : n < (cfgM m hO).N) (h' : n' < (cfgM m hO).N) :
    outsAt0 m hO c n h = outsAt0 m hO c n' h' := by
  subst e; rfl

end Cert.KernelIdeal.Acc

end
-- ==== Proof.KAccInd.lean ====
/-
  The carried accumulator, point by point.

  Element (0, 0, 0) of the accumulator after grid point `n` is the specification's `accAt n`: a core's first point
  (`n` a multiple of 64) starts from the zero block, a point whose tile is live adds the tile's partial sum, a point
  whose tile is dead leaves the accumulator as the point before left it — by induction on the point.  At a core's last
  point the output block is the accumulator.
-/
import proofs.«421442_j77936476553902_3_alg».proof.Proof.KAccum

set_option maxRecDepth 16384

noncomputable section

namespace Cert.KernelIdeal.Acc

open Cert.KernelIdeal Cert.KernelIdeal.Gen Idealize.ShloMosaic Idealize.ShloMosaic.TcCoe Idealize.SL.Sem
open Idealize.ShloMosaic.ValueIdx Cert.Spec Cert.KernelIdeal.Inp Cert.KernelIdeal.Pieces Cert.KernelIdeal.Pay

variable (m : (ℓ : Loc nD τ sig) → Buf (Elt Ideal) ℓ)

/-- A core's first point: zero, plus the tile's partial sum if the tile is live. -/
theorem acc_first (hO : Ok m) (c : Dev nD) (n : ℕ) (hn : n < (cfgM m hO).N) (h0 : n % 64 = 0) :
    (outsAt0 m hO c n hn).2 (ix3 0 0 0)
      = (open Classical in if (inputsOf m c).tileLive n then 0 + (inputsOf m c).tilePartial n else 0) := by
  have h2 : ¬n % 64 = 63 := by omega
  by_cases h1 : cond0_1 (grid0.coords ⟨n, hn⟩) (tbM0_0.view.readAt (Elt Ideal) (Rect.unit (s := S128) (k0_off1 (grid0.coords ⟨n, hn⟩)) S1.size (k0_off1_inb (grid0.coords ⟨n, hn⟩))).toLoadRect (tbl m 0) (Shape.Idx.first (numel1_S1.symm ▸ Nat.one_pos)))
  · have hl : (inputsOf m c).tileLive n := (live_iff m hO c ⟨n, hn⟩).mp h1
    rw [outsAt0_A m hO c ⟨n, hn⟩ h0 h1 h2, if_pos hl]
    dsimp only
    exact sA_at m hO c ⟨n, hn⟩ _ _ h1
  · have hl : ¬(inputsOf m c).tileLive n := fun h => h1 ((live_iff m hO c ⟨n, hn⟩).mpr h)
    rw [outsAt0_B m hO c ⟨n, hn⟩ h0 h1 h2, if_neg hl]
    dsimp only
    exact sB_at m hO c ⟨n, hn⟩ _ _ h1

/-- A later point of a core: what the point before left, plus the tile's partial sum if the tile is live. -/
theorem acc_next (hO : Ok m) (c : Dev nD) (n : ℕ) (hn : n + 1 < (cfgM m hO).N) (h0 : ¬(n + 1) % 64 = 0) :
    (outsAt0 m hO c (n + 1) hn).2 (ix3 0 0 0)
      = (open Classical in if (inputsOf m c).tileLive (n + 1)
          then (outsAt0 m hO c n (Nat.lt_of_succ_lt hn)).2 (ix3 0 0 0) + (inputsOf m c).tilePartial (n + 1)
          else (outsAt0 m hO c n (Nat.lt_of_succ_lt hn)).2 (ix3 0 0 0)) := by
  by_cases h1 : cond0_1 (grid0.coords ⟨n + 1, hn⟩) (tbM0_0.view.readAt (Elt Ideal) (Rect.unit (s := S128) (k0_off1 (grid0.coords ⟨n + 1, hn⟩)) S1.size (k0_off1_inb (grid0.coords ⟨n + 1, hn⟩))).toLoadRect (tbl m 0) (Shape.Idx.first (numel1_S1.symm ▸ Nat.one_pos)))
  · have hl : (inputsOf m c).tileLive (n + 1) := (live_iff m hO c ⟨n + 1, hn⟩).mp h1
    rw [if_pos hl]
    by_cases h2 : (n + 1) % 64 = 63
    · rw [outsAt0_E m hO c ⟨n + 1, hn⟩ h0 h1 h2]
      dsimp only
      exact sE_at m hO c ⟨n + 1, hn⟩ _ _ _ h1
    · rw [outsAt0_C m hO c ⟨n + 1, hn⟩ h0 h1 h2]
      dsimp only
      exact sC_at m hO c ⟨n + 1, hn⟩ _ _ _ h1
  · have hl : ¬(inputsOf m c).tileLive (n + 1) := fun h => h1 ((live_iff m hO c ⟨n + 1, hn⟩).mpr h)
    rw [if_neg hl]
    by_cases h2 : (n + 1) % 64 = 63
    · rw [outsAt0_F m hO c ⟨n + 1, hn⟩ h0 h1 h2]
      dsimp only
      rfl
    · rw [outsAt0_D m hO c ⟨n + 1, hn⟩ h0 h1 h2]
      dsimp only
      rfl

/-- THE INVARIANT: the accumulator's element (0, 0, 0) after point `n`. -/
theorem acc_eq (hO : Ok m) (c : Dev nD) : ∀ (n : ℕ) (hn : n < (cfgM m hO).N),
    (outsAt0 m hO c n hn).2 (ix3 0 0 0) = (inputsOf m c).accAt n
  | 0, hn => by
    rw [acc_first m hO c 0 hn (Nat.zero_mod 64)]
    unfold Inputs.accAt
    rfl
  | n + 1, hn => by
    have ih := acc_eq hO c n (Nat.lt_of_succ_lt hn)
    by_cases h0 : (n + 1) % 64 = 0
    · rw [acc_first m hO c (n + 1) hn h0]
      conv_rhs => unfold Inputs.accAt
      simp only [if_pos h0, zero_add]
    · rw [acc_next m hO c n hn h0, ih]
      conv_rhs => unfold Inputs.accAt
      simp only [if_neg h0]

/-- At a core's last point the output block is the accumulator (at every element). -/
theorem out_eq_acc (hO : Ok m) (c : Dev nD) (t : Fin (cfgM m hO).N) (h2 : t.val % 64 = 63) :
    (outsAt0 m hO c t.val t.isLt).1 = (outsAt0 m hO c t.val t.isLt).2 := by
  have h0 : ¬t.val % 64 = 0 := by omega
  by_cases h1 : cond0_1 (grid0.coords t) (tbM0_0.view.readAt (Elt Ideal) (Rect.unit (s := S128) (k0_off1 (grid0.coords t)) S1.size (k0_off1_inb (grid0.coords t))).toLoadRect (tbl m 0) (Shape.Idx.first (numel1_S1.symm ▸ Nat.one_pos)))
  · rw [outsAt0_E m hO c t h0 h1 h2]
    dsimp only
    exact (oE (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) _ _ (iblk m hO c 0 t) (iblk m hO c 1 t) (iblk m hO c 2 t) (iblk m hO c 3 t) (iblk m hO c 4 t) (iblk m hO c 5 t) (tbl m 0) _ h1).trans (sE (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) _ _ (iblk m hO c 0 t) (iblk m hO c 1 t) (iblk m hO c 2 t) (iblk m hO c 3 t) (iblk m hO c 4 t) (iblk m hO c 5 t) (tbl m 0) _ h1).symm
  · rw [outsAt0_F m hO c t h0 h1 h2]
    dsimp only
    exact oF (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) _ _ (iblk m hO c 0 t) (iblk m hO c 1 t) (iblk m hO c 2 t) (iblk m hO c 3 t) (iblk m hO c 4 t) (iblk m hO c 5 t) (tbl m 0) _ h1

end Cert.KernelIdeal.Acc

end
-- ==== Proof.KFinalA.lean ====
/-
  The output array after the run, at the two elements the host reads.

  Output block `k` (one per core) is written back once, after the core's last grid point `64 k + 63`, and holds the
  accumulator there; so element (k, 0, 0) of the output array after the run is the specification's accumulator
  after that point.
-/
import proofs.«421442_j77936476553902_3_alg».proof.Proof.KAccInd
import Idealize.ShloMosaic.Lib.Pipeline.Value

set_option maxRecDepth 16384

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.Spec Cert.KernelIdeal.Inp Cert.KernelIdeal.Acc

variable (m : (ℓ : Loc nD τ sig) → Buf (Elt Ideal) ℓ)

/-- The output window's index map at every point: block `t / 64` on the first axis, block 0 on the other two. -/
theorem idx_facts6 : ∀ t : Fin grid0.N,
    (cc0_transform_6 (grid0.coords t) 0 = t.val / 64) ∧ (cc0_transform_6 (grid0.coords t) 1 = 0)
      ∧ (cc0_transform_6 (grid0.coords t) 2 = 0) := by decide +kernel

/-- What every element written back satisfies: on the line (·, 0, 0) it is the accumulator after the last point of
    the core whose block it lies in. -/
def P6 (c : Dev nD) (i : S2x8x128.Idx) (v : EReal) : Prop :=
  (i 1).val = 0 → (i 2).val = 0 → v = (inputsOf m c).accAt (64 * (i 0).val + 63)

/-- Every write-back writes such elements: it happens at a core's last point `t` (`t mod 64 = 63`), writes the
    accumulator there, and its block is block `t / 64` of the output array. -/
theorem flushed_P6 (hO : Ok m) (c : Dev nD) (t : Fin (cfgM m hO).N) (hf : ((cfgM m hO).win 6).flush t = true)
    (y : S1x8x128.Idx) (i : S2x8x128.Idx) (hi : i = (((cfgM m hO).win 6).blk t).view.emb y) :
    P6 m c i ((dats m hO 0 c).flushed 6 t y) := by
  intro h1 h2
  have h63 : t.val % 64 = 63 := (flush0_6 (adm m hO) t).mp hf
  obtain ⟨f0, f1, f2⟩ := idx_facts6 t
  have e0 : (i 0).val = cc0_transform_6 (grid0.coords t) 0 * 1 + 1 * (y 0).val := by subst hi; rfl
  have e1 : (i 1).val = cc0_transform_6 (grid0.coords t) 1 * 8 + 1 * (y 1).val := by subst hi; rfl
  have e2 : (i 2).val = cc0_transform_6 (grid0.coords t) 2 * 128 + 1 * (y 2).val := by subst hi; rfl
  have hy0 : (y 0).val < 1 := (y 0).isLt
  have hy : y = ix3 0 0 0 := funext fun a => match a with
    | ⟨0, _⟩ => Fin.ext (by show (y 0).val = 0; omega)
    | ⟨1, _⟩ => Fin.ext (by show (y 1).val = 0; omega)
    | ⟨2, _⟩ => Fin.ext (by show (y 2).val = 0; omega)
  have hidx : 64 * (i 0).val + 63 = t.val := by rw [e0, f0]; omega
  have hfl : (dats m hO 0 c).flushed 6 t y = (outsAt0 m hO c t.val t.isLt).1 y := congrFun (after0_6 m hO c t) y
  rw [hidx]
  refine hfl.trans ?_
  rw [out_eq_acc m hO c t h63, hy]
  exact acc_eq m hO c t.val t.isLt

/-- Element (k, 0, 0) of the output array after every write-back. -/
theorem out_elem (hO : Ok m) (c : Dev nD) (k : Fin 2) :
    ((dats m hO 0 c).arrAt 6 (cfgM m hO).N : S2x8x128.Idx → EReal) (ix3 k 0 0) = (inputsOf m c).accAt (64 * k.val + 63) := by
  have hN : (cfgM m hO).N = 128 := N_0
  have hk := k.isLt
  have ht : 64 * k.val + 63 < (cfgM m hO).N := by rw [hN]; omega
  obtain ⟨t, htv⟩ : ∃ t : Fin (cfgM m hO).N, t.val = 64 * k.val + 63 := ⟨⟨_, ht⟩, rfl⟩
  obtain ⟨f0, f1, f2⟩ := idx_facts6 t
  have hfl : ((cfgM m hO).win 6).flush t = true := (flush0_6 (adm m hO) t).mpr (by rw [htv]; omega)
  have hmem : ix3 k 0 0 ∈ (((cfgM m hO).win 6).blk t).view.set := by
    have hs : (((cfgM m hO).win 6).blk t).view.set = (((cfgM m hO).win 6).rect t).set :=
      View.set_slice_whole main_v25 (((cfgM m hO).win 6).rect t)
    rw [hs]
    refine Rect.mem_set_unit.mpr fun a => ?_
    match a with
    | ⟨0, _⟩ =>
      show cc0_transform_6 (grid0.coords t) 0 * 1 ≤ k.val ∧ k.val < cc0_transform_6 (grid0.coords t) 0 * 1 + 1
      rw [f0, htv]; omega
    | ⟨1, _⟩ =>
      show cc0_transform_6 (grid0.coords t) 1 * 8 ≤ 0 ∧ 0 < cc0_transform_6 (grid0.coords t) 1 * 8 + 8
      rw [f1]; omega
    | ⟨2, _⟩ =>
      show cc0_transform_6 (grid0.coords t) 2 * 128 ≤ 0 ∧ 0 < cc0_transform_6 (grid0.coords t) 2 * 128 + 128
      rw [f2]; omega
  exact (dats m hO 0 c).arrAt_forall_of_flushed 6 (P6 m c) (fun t hf y => flushed_P6 m hO c t hf y _ rfl)
    (cfgM m hO).N t (ix3 k 0 0) t.isLt hfl hmem rfl rfl

end Cert.KernelIdeal.Final

end
-- ==== Proof.KFinal.lean ====
/-
  The kernel program's result.

  After the region the host reads elements (0, 0, 0) and (1, 0, 0) of the output array — the two cores' accumulators
  after their last grid points —, adds them and negates: the specification's kernel total.  So every weakly fair
  execution of the idealized kernel program ends with its result buffer at that number and its arguments unchanged.
-/
import proofs.«421442_j77936476553902_3_alg».proof.Proof.KFinalA
import Idealize.ShloMosaic.Lib.StableHlo.Run

set_option maxRecDepth 16384

noncomputable section

namespace Cert.KernelIdeal.Final

open Cert.KernelIdeal Cert.KernelIdeal.Gen Idealize.ShloMosaic Idealize.ShloMosaic.TcCoe Idealize.SL.Sem Idealize.ShloMosaic.StableHlo
open Idealize.ShloMosaic.Pipeline (Dat)
open Idealize.ShloMosaic.ValueIdx Cert.Spec Cert.KernelIdeal.Inp Cert.KernelIdeal.Acc

variable (m : (ℓ : Loc nD τ sig) → Buf (Elt Ideal) ℓ) (ρ : Dev nD → PrngReg)

/-- The host's `x[k:k+1, 0:1, 0:1]` reshaped to a scalar is element (k, 0, 0). -/
theorem pick (X : S2x8x128.Idx → EReal) (k : Fin 2) (off : Fin 3 → Nat) (hoff : off = ![k.val, 0, 0])
    (hs : S2x8x128.Slices off S1x1x1) (j : S_.Idx) :
    shapeCast S_ (extractStridedSlice S1x1x1 off X hs) Facts₀.shapeCasts_S1x1x1_S_ j = X (ix3 k 0 0) := by
  subst hoff
  refine (shapeCast_apply _ _ j (ix3 (0 : Fin 1) (0 : Fin 1) (0 : Fin 1)) ?_).trans
    (extractStridedSlice_apply _ X hs (ix3 (0 : Fin 1) (0 : Fin 1) (0 : Fin 1)) (ix3 k 0 0) ?_)
  · have e1 : ∀ x : Fin S1x1x1.numel, x.val = 0 := fun x => by
      have h : S1x1x1.numel = 1 := by decide
      have := x.isLt
      omega
    have e2 : ∀ x : Fin S_.numel, x.val = 0 := fun x => by
      have h : S_.numel = 1 := by decide
      have := x.isLt
      omega
    exact (e1 _).trans (e2 _).symm
  · intro a
    match a with
    | ⟨0, _⟩ => rfl
    | ⟨1, _⟩ => rfl
    | ⟨2, _⟩ => rfl

/-- What the host operations after the region leave in the result buffer. -/
theorem tail_eq (hO : Ok m) (c : Dev nD) :
    Pipeline.afterTail pcfgs (fun _ => adm m hO) (dats m hO) 0 (V0 m) [hostOps1] c main_v31 = fun _ => (inputsOf m c).kerTotal := by
  unfold Pipeline.afterTail
  simp only [List.flatten_cons, List.flatten_nil, List.append_nil]
  after_results
  have hw : Pipeline.withArrays (Pipeline.pin pcfgs (fun _ => adm m hO) 0).spec c (V0 m c)
      (fun w => (dats m hO 0 c).arrAt w (Pipeline.pin pcfgs (fun _ => adm m hO) 0).N) (Proc.tc.devRef main_v25)
      = (dats m hO 0 c).arrAt 6 (cfgM m hO).N :=
    Pipeline.withArrays_arr _ (launch0 (F := Ideal)).win.arr_inj c _ _ 6
  rw [hw]
  obtain ⟨X, hX⟩ : ∃ X : S2x8x128.Idx → EReal, (dats m hO 0 c).arrAt 6 (cfgM m hO).N = X := ⟨_, rfl⟩
  have o0 : X (ix3 0 0 0) = (inputsOf m c).accAt 63 := (congrFun hX (ix3 0 0 0)).symm.trans (out_elem m hO c 0)
  have o1 : X (ix3 1 0 0) = (inputsOf m c).accAt 127 := (congrFun hX (ix3 1 0 0)).symm.trans (out_elem m hO c 1)
  rw [hX]
  funext i
  show -(shapeCast S_ (extractStridedSlice S1x1x1 ![0, 0, 0] X Facts₀.slices_S2x8x128_S1x1x1_0_0_0) Facts₀.shapeCasts_S1x1x1_S_ i
      + shapeCast S_ (extractStridedSlice S1x1x1 ![1, 0, 0] X Facts₀.slices_S2x8x128_S1x1x1_1_0_0) Facts₀.shapeCasts_S1x1x1_S_ i) = _
  rw [pick X 0 ![0, 0, 0] rfl, pick X 1 ![1, 0, 0] rfl, o0, o1]
  rfl

/-- THE RUN: every weakly fair execution of the idealized kernel program terminates with its result at the
    specification's kernel total of the argument arrays, which end unchanged. -/
theorem run (hO : Ok m) : θ_run defs (onTc (τ := τ) (main (F := Ideal))) ⟨m, fun _ => 0, ρ⟩ fun r => ∀ c : Dev nD,
      r.2.mem ((c.tc : Thread nD τ).loc main_v31) = (fun _ => (inputsOf m c).kerTotal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v31 (by decide : main_v31 ∈ Pipeline.restRefs sig spec0)).trans (tail_eq m hO c),
      (((h c).2 main_arg0 (by decide : main_arg0 ∈ Pipeline.restRefs sig spec0)).trans (W_main_arg0 m hO (dats m hO) c)),
      (((h c).2 main_arg1 (by decide : main_arg1 ∈ Pipeline.restRefs sig spec0)).trans (W_main_arg1 m hO (dats m hO) c)),
      (((h c).2 main_arg2 (by decide : main_arg2 ∈ Pipeline.restRefs sig spec0)).trans (W_main_arg2 m hO (dats m hO) c)),
      (((h c).2 main_arg3 (by decide : main_arg3 ∈ Pipeline.restRefs sig spec0)).trans (W_main_arg3 m hO (dats m hO) c)),
      ((h c).1 2).trans (((dats m hO 0 c).arrAt_in 2 rfl _).trans ((A_eq m hO c 2).trans (V_main_arg4 m c))),
      (((h c).2 main_arg5 (by decide : main_arg5 ∈ Pipeline.restRefs sig spec0)).trans (W_main_arg5 m hO (dats m hO) c)),
      (((h c).2 main_arg6 (by decide : main_arg6 ∈ Pipeline.restRefs sig spec0)).trans (W_main_arg6 m hO (dats m hO) c))⟩)
    (run_main m ρ hO)

end Cert.KernelIdeal.Final

end
-- ==== Proof.RefStages.lean ====
/-
  The reference's run, read back stage by stage.

  After the host program's 64 operations the result buffer holds the last stage's value — the composition of the
  operations' pure terms of the seven argument arrays, which the run leaves unchanged.

  The operation list is cut into thirteen stretches. Each stretch is read over an arbitrary valuation: what it
  writes at the buffer later stretches read, from the stages at the buffers it reads; and a buffer it does not
  write keeps its contents. The stretches in a row give the last stage at the result buffer.
-/
import proofs.«421442_j77936476553902_3_alg».proof.Proof.RefRun
import proofs.«421442_j77936476553902_3_alg».proof.Proof.RefRead
import Idealize.ShloMosaic.Lib.StableHlo.Run
import Idealize.ShloMosaic.Lib.Pipeline.Frame

noncomputable section

namespace Cert.ReferenceIdeal.Stages

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Two stretches of operations run in a row. -/
theorem after_app (l₁ l₂ : List (HloOp τ sig (Elt F))) (V : Valuation τ sig (Elt F)) :
    after (l₁ ++ l₂) V = after l₂ (after l₁ V) := StableHlo.after_append l₁ l₂ V

/-! ## The operation list in thirteen stretches

The inlined callees' operations are written over the buffers themselves (their typed references are literal, so the
two spellings are one operation by unfolding), but for the two reductions with a folded body, which keep their typed
spelling. The cuts leave each of those two, and the gather, in a stretch of their own. -/

/-- The first stretch: operations 1 to 7. -/
def ops1 : List (HloOp τ sig (Elt F)) :=
  [ binary main_arg0 main_arg3 main_v0 ((fun l r => Host.dotGeneral dot_S64x512x1024_S1024x4096_S64x512x4096_2_0_01_1_n_n none l r) : (⟨S64x512x1024, .f32⟩ : BufTy).Contents (Elt F) → (⟨S1024x4096, .f32⟩ : BufTy).Contents (Elt F) → (⟨S64x512x4096, .f32⟩ : BufTy).Contents (Elt F)),
    unary main_arg4 main_v1 (broadcastInDim S1x1x4096 ![2] bcast_S4096_S1x1x4096_2 : (⟨S4096, .f32⟩ : BufTy).Contents (Elt F) → (⟨S1x1x4096, .f32⟩ : BufTy).Contents (Elt F)),
    unary main_v1 main_v2 (broadcastInDim S64x512x4096 ![0, 1, 2] bcast_S1x1x4096_S64x512x4096_0_1_2 : (⟨S1x1x4096, .f32⟩ : BufTy).Contents (Elt F) → (⟨S64x512x4096, .f32⟩ : BufTy).Contents (Elt F)),
    binary main_v0 main_v2 main_v3 (addf : (⟨S64x512x4096, .f32⟩ : BufTy).Contents (Elt F) → (⟨S64x512x4096, .f32⟩ : BufTy).Contents (Elt F) → (⟨S64x512x4096, .f32⟩ : BufTy).Contents (Elt F)),
    nullary main_call0_cst ((constant S_ .f32 0x00000000#32) : (⟨S_, .f32⟩ : BufTy).Contents (Elt F)),
    unary main_call0_cst main_call0_v0 ((broadcastInDim S64x512x4096 ![] bcast_S_S64x512x4096) : (⟨S_, .f32⟩ : BufTy).Contents (Elt F) → (⟨S64x512x4096, .f32⟩ : BufTy).Contents (Elt F)),
    binary main_v3 main_call0_v0 main_v4 (maximumf : (⟨S64x512x4096, .f32⟩ : BufTy).Contents (Elt F) → (⟨S64x512x4096, .f32⟩ : BufTy).Contents (Elt F) → (⟨S64x512x4096, .f32⟩ : BufTy).Contents (Elt F)) ]
/-- The buffers the first stretch writes. -/
abbrev wl1 : List (Ref sig .tc) := [main_v0, main_v1, main_v2, main_v3, main_call0_cst, main_call0_v0, main_v4]
theorem writes1 : (ops1 (F := F)).Forall fun op => op.writes ⊆ (wl1.map (Proc.devRef (τ := τ) .tc)).toFinset := by
  unfold ops1
  simp only [List.Forall]
  repeat' apply And.intro
  all_goals (simp only [nullary_writes, unary_writes, binary_writes, ternary_writes, reshape_writes, Finset.singleton_subset_iff, List.mem_toFinset]; exact List.mem_map_of_mem (by decide))
/-- A buffer the first stretch does not write keeps its contents. -/
theorem keep1 (W : Valuation τ sig (Elt F)) (r : Ref sig .tc) (h : r ∉ wl1) :
    after (ops1 (F := F)) W (Proc.devRef .tc r) = W (Proc.devRef .tc r) :=
  after_of_writes_sub ops1 W writes1 h

/-- The second stretch: operations 8 to 12. -/
def ops2 : List (HloOp τ sig (Elt F)) :=
  [ binary main_v4 main_arg5 main_v5 ((fun l r => Host.dotGeneral dot_S64x512x4096_S4096x32_S64x512x32_2_0_01_1_n_n none l r) : (⟨S64x512x4096, .f32⟩ : BufTy).Contents (Elt F) → (⟨S4096x32, .f32⟩ : BufTy).Contents (Elt F) → (⟨S64x512x32, .f32⟩ : BufTy).Contents (Elt F)),
    unary main_arg6 main_v6 (broadcastInDim S1x1x32 ![2] bcast_S32_S1x1x32_2 : (⟨S32, .f32⟩ : BufTy).Contents (Elt F) → (⟨S1x1x32, .f32⟩ : BufTy).Contents (Elt F)),
    unary main_v6 main_v7 (broadcastInDim S64x512x32 ![0, 1, 2] bcast_S1x1x32_S64x512x32_0_1_2 : (⟨S1x1x32, .f32⟩ : BufTy).Contents (Elt F) → (⟨S64x512x32, .f32⟩ : BufTy).Contents (Elt F)),
    binary main_v5 main_v7 main_v8 (addf : (⟨S64x512x32, .f32⟩ : BufTy).Contents (Elt F) → (⟨S64x512x32, .f32⟩ : BufTy).Contents (Elt F) → (⟨S64x512x32, .f32⟩ : BufTy).Contents (Elt F)),
    reshape main_v8 main_v9 rfl shapeCasts_S64x512x32_S64x512x8x4 ]
/-- The buffers the second stretch writes. -/
abbrev wl2 : List (Ref sig .tc) := [main_v5, main_v6, main_v7, main_v8, main_v9]
theorem writes2 : (ops2 (F := F)).Forall fun op => op.writes ⊆ (wl2.map (Proc.devRef (τ := τ) .tc)).toFinset := by
  unfold ops2
  simp only [List.Forall]
  repeat' apply And.intro
  all_goals (simp only [nullary_writes, unary_writes, binary_writes, ternary_writes, reshape_writes, Finset.singleton_subset_iff, List.mem_toFinset]; exact List.mem_map_of_mem (by decide))
/-- A buffer the second stretch does not write keeps its contents. -/
theorem keep2 (W : Valuation τ sig (Elt F)) (r : Ref sig .tc) (h : r ∉ wl2) :
    after (ops2 (F := F)) W (Proc.devRef .tc r) = W (Proc.devRef .tc r) :=
  after_of_writes_sub ops2 W writes2 h

/-- The third stretch: operations 13 to 14. -/
def ops3 : List (HloOp τ sig (Elt F)) :=
  [ nullary main_call1_cst ((constant S_ .f32 0xFF800000#32) : (⟨S_, .f32⟩ : BufTy).Contents (Elt F)),
    TRef.binary (TRef.of (T := ⟨S64x512x8x4, .f32⟩) main_v9) (TRef.of (T := ⟨S_, .f32⟩) main_call1_cst) (TRef.of (T := ⟨S64x512x8, .f32⟩) main_call1_v0) (fun x v => Host.reduce FloatOps.maximumf x v reducesTo_S64x512x8x4_S64x512x8_d3 h_S_) ]
/-- The buffers the third stretch writes. -/
abbrev wl3 : List (Ref sig .tc) := [main_call1_cst, main_call1_v0]
theorem writes3 : (ops3 (F := F)).Forall fun op => op.writes ⊆ (wl3.map (Proc.devRef (τ := τ) .tc)).toFinset := by
  unfold ops3
  simp only [List.Forall]
  repeat' apply And.intro
  all_goals (simp only [nullary_writes, unary_writes, binary_writes, ternary_writes, reshape_writes, Finset.singleton_subset_iff, List.mem_toFinset]; exact List.mem_map_of_mem (by decide))
/-- A buffer the third stretch does not write keeps its contents. -/
theorem keep3 (W : Valuation τ sig (Elt F)) (r : Ref sig .tc) (h : r ∉ wl3) :
    after (ops3 (F := F)) W (Proc.devRef .tc r) = W (Proc.devRef .tc r) :=
  after_of_writes_sub ops3 W writes3 h

/-- The fourth stretch: operations 15 to 20. -/
def ops4 : List (HloOp τ sig (Elt F)) :=
  [ nullary main_call1_cst_0 ((constant S_ .f32 0xFF800000#32) : (⟨S_, .f32⟩ : BufTy).Contents (Elt F)),
    unary main_call1_cst_0 main_call1_v1 ((broadcastInDim S64x512x8 ![] bcast_S_S64x512x8) : (⟨S_, .f32⟩ : BufTy).Contents (Elt F) → (⟨S64x512x8, .f32⟩ : BufTy).Contents (Elt F)),
    binary main_call1_v1 main_call1_v0 main_call1_v2 (maximumf : (⟨S64x512x8, .f32⟩ : BufTy).Contents (Elt F) → (⟨S64x512x8, .f32⟩ : BufTy).Contents (Elt F) → (⟨S64x512x8, .f32⟩ : BufTy).Contents (Elt F)),
    unary main_call1_v2 main_call1_v3 ((broadcastInDim S64x512x8x1 ![0, 1, 2] bcast_S64x512x8_S64x512x8x1_0_1_2) : (⟨S64x512x8, .f32⟩ : BufTy).Contents (Elt F) → (⟨S64x512x8x1, .f32⟩ : BufTy).Contents (Elt F)),
    unary main_call1_v3 main_call1_v4 ((broadcastInDim S64x512x8x4 ![0, 1, 2, 3] bcast_S64x512x8x1_S64x512x8x4_0_1_2_3) : (⟨S64x512x8x1, .f32⟩ : BufTy).Contents (Elt F) → (⟨S64x512x8x4, .f32⟩ : BufTy).Contents (Elt F)),
    binary main_v9 main_call1_v4 main_call1_v5 (subf : (⟨S64x512x8x4, .f32⟩ : BufTy).Contents (Elt F) → (⟨S64x512x8x4, .f32⟩ : BufTy).Contents (Elt F) → (⟨S64x512x8x4, .f32⟩ : BufTy).Contents (Elt F)) ]
/-- The buffers the fourth stretch writes. -/
abbrev wl4 : List (Ref sig .tc) := [main_call1_cst_0, main_call1_v1, main_call1_v2, main_call1_v3, main_call1_v4, main_call1_v5]
theorem writes4 : (ops4 (F := F)).Forall fun op => op.writes ⊆ (wl4.map (Proc.devRef (τ := τ) .tc)).toFinset := by
  unfold ops4
  simp only [List.Forall]
  repeat' apply And.intro
  all_goals (simp only [nullary_writes, unary_writes, binary_writes, ternary_writes, reshape_writes, Finset.singleton_subset_iff, List.mem_toFinset]; exact List.mem_map_of_mem (by decide))
/-- A buffer the fourth stretch does not write keeps its contents. -/
theorem keep4 (W : Valuation τ sig (Elt F)) (r : Ref sig .tc) (h : r ∉ wl4) :
    after (ops4 (F := F)) W (Proc.devRef .tc r) = W (Proc.devRef .tc r) :=
  after_of_writes_sub ops4 W writes4 h

/-- The fifth stretch: operations 21 to 27. -/
def ops5 : List (HloOp τ sig (Elt F)) :=
  [ unary main_call1_v5 main_call1_v6 (Host.exp : (⟨S64x512x8x4, .f32⟩ : BufTy).Contents (Elt F) → (⟨S64x512x8x4, .f32⟩ : BufTy).Contents (Elt F)),
    nullary main_call1_cst_1 ((constant S_ .f32 0x00000000#32) : (⟨S_, .f32⟩ : BufTy).Contents (Elt F)),
    binary main_call1_v6 main_call1_cst_1 main_call1_v7 ((fun x v => Host.reduceAdd x v reducesTo_S64x512x8x4_S64x512x8_d3 h_S_) : (⟨S64x512x8x4, .f32⟩ : BufTy).Contents (Elt F) → (⟨S_, .f32⟩ : BufTy).Contents (Elt F) → (⟨S64x512x8, .f32⟩ : BufTy).Contents (Elt F)),
    unary main_call1_v7 main_call1_v8 ((broadcastInDim S64x512x8x1 ![0, 1, 2] bcast_S64x512x8_S64x512x8x1_0_1_2) : (⟨S64x512x8, .f32⟩ : BufTy).Contents (Elt F) → (⟨S64x512x8x1, .f32⟩ : BufTy).Contents (Elt F)),
    unary main_call1_v8 main_call1_v9 (Host.log : (⟨S64x512x8x1, .f32⟩ : BufTy).Contents (Elt F) → (⟨S64x512x8x1, .f32⟩ : BufTy).Contents (Elt F)),
    unary main_call1_v9 main_call1_v10 ((broadcastInDim S64x512x8x4 ![0, 1, 2, 3] bcast_S64x512x8x1_S64x512x8x4_0_1_2_3) : (⟨S64x512x8x1, .f32⟩ : BufTy).Contents (Elt F) → (⟨S64x512x8x4, .f32⟩ : BufTy).Contents (Elt F)),
    binary main_call1_v5 main_call1_v10 main_v10 (subf : (⟨S64x512x8x4, .f32⟩ : BufTy).Contents (Elt F) → (⟨S64x512x8x4, .f32⟩ : BufTy).Contents (Elt F) → (⟨S64x512x8x4, .f32⟩ : BufTy).Contents (Elt F)) ]
/-- The buffers the fifth stretch writes. -/
abbrev wl5 : List (Ref sig .tc) := [main_call1_v6, main_call1_cst_1, main_call1_v7, main_call1_v8, main_call1_v9, main_call1_v10, main_v10]
theorem writes5 : (ops5 (F := F)).Forall fun op => op.writes ⊆ (wl5.map (Proc.devRef (τ := τ) .tc)).toFinset := by
  unfold ops5
  simp only [List.Forall]
  repeat' apply And.intro
  all_goals (simp only [nullary_writes, unary_writes, binary_writes, ternary_writes, reshape_writes, Finset.singleton_subset_iff, List.mem_toFinset]; exact List.mem_map_of_mem (by decide))
/-- A buffer the fifth stretch does not write keeps its contents. -/
theorem keep5 (W : Valuation τ sig (Elt F)) (r : Ref sig .tc) (h : r ∉ wl5) :
    after (ops5 (F := F)) W (Proc.devRef .tc r) = W (Proc.devRef .tc r) :=
  after_of_writes_sub ops5 W writes5 h

/-- The sixth stretch: operations 28 to 30. -/
def ops6 : List (HloOp τ sig (Elt F)) :=
  [ unary main_v10 main_v11 ((extractStridedSlice S64x511x1x4 ![0, 0, 0, 0] · slices_S64x512x8x4_S64x511x1x4_0_0_0_0) : (⟨S64x512x8x4, .f32⟩ : BufTy).Contents (Elt F) → (⟨S64x511x1x4, .f32⟩ : BufTy).Contents (Elt F)),
    reshape main_v11 main_v12 rfl shapeCasts_S64x511x1x4_S64x511x4,
    unary main_arg1 main_v13 (broadcastInDim S64x511x1 ![0, 1] bcast_S64x511_S64x511x1_0_1 : (⟨S64x511, .i32⟩ : BufTy).Contents (Elt F) → (⟨S64x511x1, .i32⟩ : BufTy).Contents (Elt F)) ]
/-- The buffers the sixth stretch writes. -/
abbrev wl6 : List (Ref sig .tc) := [main_v11, main_v12, main_v13]
theorem writes6 : (ops6 (F := F)).Forall fun op => op.writes ⊆ (wl6.map (Proc.devRef (τ := τ) .tc)).toFinset := by
  unfold ops6
  simp only [List.Forall]
  repeat' apply And.intro
  all_goals (simp only [nullary_writes, unary_writes, binary_writes, ternary_writes, reshape_writes, Finset.singleton_subset_iff, List.mem_toFinset]; exact List.mem_map_of_mem (by decide))
/-- A buffer the sixth stretch does not write keeps its contents. -/
theorem keep6 (W : Valuation τ sig (Elt F)) (r : Ref sig .tc) (h : r ∉ wl6) :
    after (ops6 (F := F)) W (Proc.devRef .tc r) = W (Proc.devRef .tc r) :=
  after_of_writes_sub ops6 W writes6 h

/-- The seventh stretch: operations 31 to 38. -/
def ops7 : List (HloOp τ sig (Elt F)) :=
  [ nullary main_call2_c ((constantI S_ 32 0#32) : (⟨S_, .i32⟩ : BufTy).Contents (Elt F)),
    unary main_call2_c main_call2_v0 ((broadcastInDim S64x511x1 ![] bcast_S_S64x511x1) : (⟨S_, .i32⟩ : BufTy).Contents (Elt F) → (⟨S64x511x1, .i32⟩ : BufTy).Contents (Elt F)),
    binary main_v13 main_call2_v0 main_call2_v1 ((cmpi .slt) : (⟨S64x511x1, .i32⟩ : BufTy).Contents (Elt F) → (⟨S64x511x1, .i32⟩ : BufTy).Contents (Elt F) → (⟨S64x511x1, .i1⟩ : BufTy).Contents (Elt F)),
    nullary main_call2_c_0 ((constantI S_ 32 4#32) : (⟨S_, .i32⟩ : BufTy).Contents (Elt F)),
    unary main_call2_c_0 main_call2_v2 ((broadcastInDim S64x511x1 ![] bcast_S_S64x511x1) : (⟨S_, .i32⟩ : BufTy).Contents (Elt F) → (⟨S64x511x1, .i32⟩ : BufTy).Contents (Elt F)),
    binary main_v13 main_call2_v2 main_call2_v3 (addi : (⟨S64x511x1, .i32⟩ : BufTy).Contents (Elt F) → (⟨S64x511x1, .i32⟩ : BufTy).Contents (Elt F) → (⟨S64x511x1, .i32⟩ : BufTy).Contents (Elt F)),
    ternary main_call2_v1 main_call2_v3 main_v13 main_call2_v4 (select : (⟨S64x511x1, .i1⟩ : BufTy).Contents (Elt F) → (⟨S64x511x1, .i32⟩ : BufTy).Contents (Elt F) → (⟨S64x511x1, .i32⟩ : BufTy).Contents (Elt F) → (⟨S64x511x1, .i32⟩ : BufTy).Contents (Elt F)),
    reshape main_call2_v4 main_call2_v5 rfl shapeCasts_S64x511x1_S64x511x1x1 ]
/-- The buffers the seventh stretch writes. -/
abbrev wl7 : List (Ref sig .tc) := [main_call2_c, main_call2_v0, main_call2_v1, main_call2_c_0, main_call2_v2, main_call2_v3, main_call2_v4, main_call2_v5]
theorem writes7 : (ops7 (F := F)).Forall fun op => op.writes ⊆ (wl7.map (Proc.devRef (τ := τ) .tc)).toFinset := by
  unfold ops7
  simp only [List.Forall]
  repeat' apply And.intro
  all_goals (simp only [nullary_writes, unary_writes, binary_writes, ternary_writes, reshape_writes, Finset.singleton_subset_iff, List.mem_toFinset]; exact List.mem_map_of_mem (by decide))
/-- A buffer the seventh stretch does not write keeps its contents. -/
theorem keep7 (W : Valuation τ sig (Elt F)) (r : Ref sig .tc) (h : r ∉ wl7) :
    after (ops7 (F := F)) W (Proc.devRef .tc r) = W (Proc.devRef .tc r) :=
  after_of_writes_sub ops7 W writes7 h

/-- The eighth stretch: operations 39 to 46. -/
def ops8 : List (HloOp τ sig (Elt F)) :=
  [ nullary main_call2_c_1 ((constantI S1 32 3#32) : (⟨S1, .i32⟩ : BufTy).Contents (Elt F)),
    nullary main_call2_c_2 ((constantI S_ 32 0#32) : (⟨S_, .i32⟩ : BufTy).Contents (Elt F)),
    unary main_call2_c_2 main_call2_v6 ((broadcastInDim S64x511x1x1 ![] bcast_S_S64x511x1x1) : (⟨S_, .i32⟩ : BufTy).Contents (Elt F) → (⟨S64x511x1x1, .i32⟩ : BufTy).Contents (Elt F)),
    binary main_call2_v5 main_call2_v6 main_call2_v7 ((cmpi .sge) : (⟨S64x511x1x1, .i32⟩ : BufTy).Contents (Elt F) → (⟨S64x511x1x1, .i32⟩ : BufTy).Contents (Elt F) → (⟨S64x511x1x1, .i1⟩ : BufTy).Contents (Elt F)),
    unary main_call2_c_1 main_call2_v8 ((broadcastInDim S1x1x1x1 ![3] bcast_S1_S1x1x1x1_3) : (⟨S1, .i32⟩ : BufTy).Contents (Elt F) → (⟨S1x1x1x1, .i32⟩ : BufTy).Contents (Elt F)),
    unary main_call2_v8 main_call2_v9 ((broadcastInDim S64x511x1x1 ![0, 1, 2, 3] bcast_S1x1x1x1_S64x511x1x1_0_1_2_3) : (⟨S1x1x1x1, .i32⟩ : BufTy).Contents (Elt F) → (⟨S64x511x1x1, .i32⟩ : BufTy).Contents (Elt F)),
    binary main_call2_v5 main_call2_v9 main_call2_v10 ((cmpi .sle) : (⟨S64x511x1x1, .i32⟩ : BufTy).Contents (Elt F) → (⟨S64x511x1x1, .i32⟩ : BufTy).Contents (Elt F) → (⟨S64x511x1x1, .i1⟩ : BufTy).Contents (Elt F)),
    binary main_call2_v7 main_call2_v10 main_call2_v11 (andi : (⟨S64x511x1x1, .i1⟩ : BufTy).Contents (Elt F) → (⟨S64x511x1x1, .i1⟩ : BufTy).Contents (Elt F) → (⟨S64x511x1x1, .i1⟩ : BufTy).Contents (Elt F)) ]
/-- The buffers the eighth stretch writes. -/
abbrev wl8 : List (Ref sig .tc) := [main_call2_c_1, main_call2_c_2, main_call2_v6, main_call2_v7, main_call2_v8, main_call2_v9, main_call2_v10, main_call2_v11]
theorem writes8 : (ops8 (F := F)).Forall fun op => op.writes ⊆ (wl8.map (Proc.devRef (τ := τ) .tc)).toFinset := by
  unfold ops8
  simp only [List.Forall]
  repeat' apply And.intro
  all_goals (simp only [nullary_writes, unary_writes, binary_writes, ternary_writes, reshape_writes, Finset.singleton_subset_iff, List.mem_toFinset]; exact List.mem_map_of_mem (by decide))
/-- A buffer the eighth stretch does not write keeps its contents. -/
theorem keep8 (W : Valuation τ sig (Elt F)) (r : Ref sig .tc) (h : r ∉ wl8) :
    after (ops8 (F := F)) W (Proc.devRef .tc r) = W (Proc.devRef .tc r) :=
  after_of_writes_sub ops8 W writes8 h

/-- The ninth stretch: operations 47 to 48. -/
def ops9 : List (HloOp τ sig (Elt F)) :=
  [ nullary main_call2_c_3 ((constantI S_ 1 1#1) : (⟨S_, .i1⟩ : BufTy).Contents (Elt F)),
    TRef.binary (TRef.of (T := ⟨S64x511x1x1, .i1⟩) main_call2_v11) (TRef.of (T := ⟨S_, .i1⟩) main_call2_c_3) (TRef.of (T := ⟨S64x511x1, .i1⟩) main_call2_v12) (fun x v => Host.reduce IntOp.andi x v reducesTo_S64x511x1x1_S64x511x1_d3 h_S_) ]
/-- The buffers the ninth stretch writes. -/
abbrev wl9 : List (Ref sig .tc) := [main_call2_c_3, main_call2_v12]
theorem writes9 : (ops9 (F := F)).Forall fun op => op.writes ⊆ (wl9.map (Proc.devRef (τ := τ) .tc)).toFinset := by
  unfold ops9
  simp only [List.Forall]
  repeat' apply And.intro
  all_goals (simp only [nullary_writes, unary_writes, binary_writes, ternary_writes, reshape_writes, Finset.singleton_subset_iff, List.mem_toFinset]; exact List.mem_map_of_mem (by decide))
/-- A buffer the ninth stretch does not write keeps its contents. -/
theorem keep9 (W : Valuation τ sig (Elt F)) (r : Ref sig .tc) (h : r ∉ wl9) :
    after (ops9 (F := F)) W (Proc.devRef .tc r) = W (Proc.devRef .tc r) :=
  after_of_writes_sub ops9 W writes9 h

/-- The tenth stretch: operation 49. -/
def ops10 : List (HloOp τ sig (Elt F)) :=
  [ binary main_v12 main_call2_v5 main_call2_v13 ((fun x i => Host.gather gather_S64x511x4_S64x511x1x1_S64x511x1_n_2_01_01_2_3_111 x i) : (⟨S64x511x4, .f32⟩ : BufTy).Contents (Elt F) → (⟨S64x511x1x1, .i32⟩ : BufTy).Contents (Elt F) → (⟨S64x511x1, .f32⟩ : BufTy).Contents (Elt F)) ]
/-- The buffers the tenth stretch writes. -/
abbrev wl10 : List (Ref sig .tc) := [main_call2_v13]
theorem writes10 : (ops10 (F := F)).Forall fun op => op.writes ⊆ (wl10.map (Proc.devRef (τ := τ) .tc)).toFinset := by
  unfold ops10
  simp only [List.Forall]
  repeat' apply And.intro
  all_goals (simp only [nullary_writes, unary_writes, binary_writes, ternary_writes, reshape_writes, Finset.singleton_subset_iff, List.mem_toFinset]; exact List.mem_map_of_mem (by decide))
/-- A buffer the tenth stretch does not write keeps its contents. -/
theorem keep10 (W : Valuation τ sig (Elt F)) (r : Ref sig .tc) (h : r ∉ wl10) :
    after (ops10 (F := F)) W (Proc.devRef .tc r) = W (Proc.devRef .tc r) :=
  after_of_writes_sub ops10 W writes10 h

/-- The eleventh stretch: operations 50 to 53. -/
def ops11 : List (HloOp τ sig (Elt F)) :=
  [ nullary main_call2_cst ((constant S_ .f32 0x7FC00000#32) : (⟨S_, .f32⟩ : BufTy).Contents (Elt F)),
    unary main_call2_cst main_call2_v14 ((broadcastInDim S64x511x1 ![] bcast_S_S64x511x1) : (⟨S_, .f32⟩ : BufTy).Contents (Elt F) → (⟨S64x511x1, .f32⟩ : BufTy).Contents (Elt F)),
    ternary main_call2_v12 main_call2_v13 main_call2_v14 main_v14 (select : (⟨S64x511x1, .i1⟩ : BufTy).Contents (Elt F) → (⟨S64x511x1, .f32⟩ : BufTy).Contents (Elt F) → (⟨S64x511x1, .f32⟩ : BufTy).Contents (Elt F) → (⟨S64x511x1, .f32⟩ : BufTy).Contents (Elt F)),
    reshape main_v14 main_v15 rfl shapeCasts_S64x511x1_S64x511 ]
/-- The buffers the eleventh stretch writes. -/
abbrev wl11 : List (Ref sig .tc) := [main_call2_cst, main_call2_v14, main_v14, main_v15]
theorem writes11 : (ops11 (F := F)).Forall fun op => op.writes ⊆ (wl11.map (Proc.devRef (τ := τ) .tc)).toFinset := by
  unfold ops11
  simp only [List.Forall]
  repeat' apply And.intro
  all_goals (simp only [nullary_writes, unary_writes, binary_writes, ternary_writes, reshape_writes, Finset.singleton_subset_iff, List.mem_toFinset]; exact List.mem_map_of_mem (by decide))
/-- A buffer the eleventh stretch does not write keeps its contents. -/
theorem keep11 (W : Valuation τ sig (Elt F)) (r : Ref sig .tc) (h : r ∉ wl11) :
    after (ops11 (F := F)) W (Proc.devRef .tc r) = W (Proc.devRef .tc r) :=
  after_of_writes_sub ops11 W writes11 h

/-- The twelfth stretch: operations 54 to 60. -/
def ops12 : List (HloOp τ sig (Elt F)) :=
  [ nullary main_v16 (iotaInDim S511 32 0),
    unary main_v16 main_v17 (broadcastInDim S1x511 ![1] bcast_S511_S1x511_1 : (⟨S511, .i32⟩ : BufTy).Contents (Elt F) → (⟨S1x511, .i32⟩ : BufTy).Contents (Elt F)),
    unary main_arg2 main_v18 (broadcastInDim S64x1 ![0] bcast_S64_S64x1_0 : (⟨S64, .i32⟩ : BufTy).Contents (Elt F) → (⟨S64x1, .i32⟩ : BufTy).Contents (Elt F)),
    unary main_v17 main_v19 (broadcastInDim S64x511 ![0, 1] bcast_S1x511_S64x511_0_1 : (⟨S1x511, .i32⟩ : BufTy).Contents (Elt F) → (⟨S64x511, .i32⟩ : BufTy).Contents (Elt F)),
    unary main_v18 main_v20 (broadcastInDim S64x511 ![0, 1] bcast_S64x1_S64x511_0_1 : (⟨S64x1, .i32⟩ : BufTy).Contents (Elt F) → (⟨S64x511, .i32⟩ : BufTy).Contents (Elt F)),
    binary main_v19 main_v20 main_v21 (cmpi .slt : (⟨S64x511, .i32⟩ : BufTy).Contents (Elt F) → (⟨S64x511, .i32⟩ : BufTy).Contents (Elt F) → (⟨S64x511, .i1⟩ : BufTy).Contents (Elt F)),
    unary main_v21 main_v22 (uitofp .f32 : (⟨S64x511, .i1⟩ : BufTy).Contents (Elt F) → (⟨S64x511, .f32⟩ : BufTy).Contents (Elt F)) ]
/-- The buffers the twelfth stretch writes. -/
abbrev wl12 : List (Ref sig .tc) := [main_v16, main_v17, main_v18, main_v19, main_v20, main_v21, main_v22]
theorem writes12 : (ops12 (F := F)).Forall fun op => op.writes ⊆ (wl12.map (Proc.devRef (τ := τ) .tc)).toFinset := by
  unfold ops12
  simp only [List.Forall]
  repeat' apply And.intro
  all_goals (simp only [nullary_writes, unary_writes, binary_writes, ternary_writes, reshape_writes, Finset.singleton_subset_iff, List.mem_toFinset]; exact List.mem_map_of_mem (by decide))
/-- A buffer the twelfth stretch does not write keeps its contents. -/
theorem keep12 (W : Valuation τ sig (Elt F)) (r : Ref sig .tc) (h : r ∉ wl12) :
    after (ops12 (F := F)) W (Proc.devRef .tc r) = W (Proc.devRef .tc r) :=
  after_of_writes_sub ops12 W writes12 h

/-- The thirteenth stretch: operations 61 to 64. -/
def ops13 : List (HloOp τ sig (Elt F)) :=
  [ binary main_v15 main_v22 main_v23 (mulf : (⟨S64x511, .f32⟩ : BufTy).Contents (Elt F) → (⟨S64x511, .f32⟩ : BufTy).Contents (Elt F) → (⟨S64x511, .f32⟩ : BufTy).Contents (Elt F)),
    nullary main_cst (constant S_ .f32 0x00000000#32),
    binary main_v23 main_cst main_v24 ((fun x v => Host.reduceAdd x v reducesTo_S64x511_S_d0_1 h_S_) : (⟨S64x511, .f32⟩ : BufTy).Contents (Elt F) → (⟨S_, .f32⟩ : BufTy).Contents (Elt F) → (⟨S_, .f32⟩ : BufTy).Contents (Elt F)),
    unary main_v24 main_v25 (Host.negf : (⟨S_, .f32⟩ : BufTy).Contents (Elt F) → (⟨S_, .f32⟩ : BufTy).Contents (Elt F)) ]
/-- The buffers the thirteenth stretch writes. -/
abbrev wl13 : List (Ref sig .tc) := [main_v23, main_cst, main_v24, main_v25]
theorem writes13 : (ops13 (F := F)).Forall fun op => op.writes ⊆ (wl13.map (Proc.devRef (τ := τ) .tc)).toFinset := by
  unfold ops13
  simp only [List.Forall]
  repeat' apply And.intro
  all_goals (simp only [nullary_writes, unary_writes, binary_writes, ternary_writes, reshape_writes, Finset.singleton_subset_iff, List.mem_toFinset]; exact List.mem_map_of_mem (by decide))
/-- A buffer the thirteenth stretch does not write keeps its contents. -/
theorem keep13 (W : Valuation τ sig (Elt F)) (r : Ref sig .tc) (h : r ∉ wl13) :
    after (ops13 (F := F)) W (Proc.devRef .tc r) = W (Proc.devRef .tc r) :=
  after_of_writes_sub ops13 W writes13 h

/-! ## Each stretch's result from what it reads

Each lemma is over an arbitrary valuation that holds, at the buffers the stretch reads, the stages named in the
hypotheses; it gives the stage at the buffer later stretches read. -/

/-- The hidden layer after the first stretch. -/
theorem stage_v4 (W : Valuation τ sig (Elt F)) (x0 : (⟨S64x512x1024, .f32⟩ : BufTy).Contents (Elt F)) (x3 : (⟨S1024x4096, .f32⟩ : BufTy).Contents (Elt F)) (x4 : (⟨S4096, .f32⟩ : BufTy).Contents (Elt F))
    (h0 : W (Proc.devRef .tc main_arg0) = x0)
    (h3 : W (Proc.devRef .tc main_arg3) = x3)
    (h4 : W (Proc.devRef .tc main_arg4) = x4) :
    after (ops1 (F := F)) W (Proc.devRef .tc main_v4) = val_main_v4 (F := F) x0 x3 x4 := by
  unfold ops1
  after_results_simp
  rw [h0, h3, h4]
  rfl

/-- The logits, grouped by option, after the second stretch. -/
theorem stage_v9 (W : Valuation τ sig (Elt F)) (x0 : (⟨S64x512x1024, .f32⟩ : BufTy).Contents (Elt F)) (x3 : (⟨S1024x4096, .f32⟩ : BufTy).Contents (Elt F)) (x4 : (⟨S4096, .f32⟩ : BufTy).Contents (Elt F)) (x5 : (⟨S4096x32, .f32⟩ : BufTy).Contents (Elt F)) (x6 : (⟨S32, .f32⟩ : BufTy).Contents (Elt F))
    (hv4 : W (Proc.devRef .tc main_v4) = val_main_v4 (F := F) x0 x3 x4)
    (h5 : W (Proc.devRef .tc main_arg5) = x5)
    (h6 : W (Proc.devRef .tc main_arg6) = x6) :
    after (ops2 (F := F)) W (Proc.devRef .tc main_v9) = val_main_v9 (F := F) x0 x3 x4 x5 x6 := by
  unfold ops2
  after_results_simp
  rw [hv4, h5, h6]
  rfl

/-- Each group's maximum after the third stretch. -/
theorem stage_call1_v0 (W : Valuation τ sig (Elt F)) (x0 : (⟨S64x512x1024, .f32⟩ : BufTy).Contents (Elt F)) (x3 : (⟨S1024x4096, .f32⟩ : BufTy).Contents (Elt F)) (x4 : (⟨S4096, .f32⟩ : BufTy).Contents (Elt F)) (x5 : (⟨S4096x32, .f32⟩ : BufTy).Contents (Elt F)) (x6 : (⟨S32, .f32⟩ : BufTy).Contents (Elt F))
    (hv9 : W (Proc.devRef .tc main_v9) = val_main_v9 (F := F) x0 x3 x4 x5 x6) :
    after (ops3 (F := F)) W (Proc.devRef .tc main_call1_v0) = val_main_call1_v0 (F := F) x0 x3 x4 x5 x6 := by
  unfold ops3
  after_results_simp
  rw [hv9]
  unfold val_main_call1_v0 val_main_call1_cst
  simp only [TRef.ofBuf, TRef.toBuf, cast_eq]

/-- The logits minus their group maximum after the fourth stretch. -/
theorem stage_call1_v5 (W : Valuation τ sig (Elt F)) (x0 : (⟨S64x512x1024, .f32⟩ : BufTy).Contents (Elt F)) (x3 : (⟨S1024x4096, .f32⟩ : BufTy).Contents (Elt F)) (x4 : (⟨S4096, .f32⟩ : BufTy).Contents (Elt F)) (x5 : (⟨S4096x32, .f32⟩ : BufTy).Contents (Elt F)) (x6 : (⟨S32, .f32⟩ : BufTy).Contents (Elt F))
    (hv9 : W (Proc.devRef .tc main_v9) = val_main_v9 (F := F) x0 x3 x4 x5 x6)
    (hm : W (Proc.devRef .tc main_call1_v0) = val_main_call1_v0 (F := F) x0 x3 x4 x5 x6) :
    after (ops4 (F := F)) W (Proc.devRef .tc main_call1_v5) = val_main_call1_v5 (F := F) x0 x3 x4 x5 x6 := by
  unfold ops4
  after_results_simp
  rw [hv9, hm]
  rfl

/-- The log-probabilities after the fifth stretch. -/
theorem stage_v10 (W : Valuation τ sig (Elt F)) (x0 : (⟨S64x512x1024, .f32⟩ : BufTy).Contents (Elt F)) (x3 : (⟨S1024x4096, .f32⟩ : BufTy).Contents (Elt F)) (x4 : (⟨S4096, .f32⟩ : BufTy).Contents (Elt F)) (x5 : (⟨S4096x32, .f32⟩ : BufTy).Contents (Elt F)) (x6 : (⟨S32, .f32⟩ : BufTy).Contents (Elt F))
    (hc5 : W (Proc.devRef .tc main_call1_v5) = val_main_call1_v5 (F := F) x0 x3 x4 x5 x6) :
    after (ops5 (F := F)) W (Proc.devRef .tc main_v10) = val_main_v10 (F := F) x0 x3 x4 x5 x6 := by
  unfold ops5
  after_results_simp
  rw [hc5]
  rfl

/-- The first option's log-probabilities on the first 511 timesteps after the sixth stretch. -/
theorem stage_v12 (W : Valuation τ sig (Elt F)) (x0 : (⟨S64x512x1024, .f32⟩ : BufTy).Contents (Elt F)) (x3 : (⟨S1024x4096, .f32⟩ : BufTy).Contents (Elt F)) (x4 : (⟨S4096, .f32⟩ : BufTy).Contents (Elt F)) (x5 : (⟨S4096x32, .f32⟩ : BufTy).Contents (Elt F)) (x6 : (⟨S32, .f32⟩ : BufTy).Contents (Elt F))
    (hv10 : W (Proc.devRef .tc main_v10) = val_main_v10 (F := F) x0 x3 x4 x5 x6) :
    after (ops6 (F := F)) W (Proc.devRef .tc main_v12) = val_main_v12 (F := F) x0 x3 x4 x5 x6 := by
  unfold ops6
  after_results_simp
  rw [hv10]
  rfl

/-- The actions with a unit axis after the sixth stretch. -/
theorem stage_v13 (W : Valuation τ sig (Elt F)) (x1 : (⟨S64x511, .i32⟩ : BufTy).Contents (Elt F))
    (h1 : W (Proc.devRef .tc main_arg1) = x1) :
    after (ops6 (F := F)) W (Proc.devRef .tc main_v13) = val_main_v13 (F := F) x1 := by
  unfold ops6
  after_results_simp
  rw [h1]
  rfl

/-- The wrapped action indices after the seventh stretch. -/
theorem stage_call2_v5 (W : Valuation τ sig (Elt F)) (x1 : (⟨S64x511, .i32⟩ : BufTy).Contents (Elt F))
    (hv13 : W (Proc.devRef .tc main_v13) = val_main_v13 (F := F) x1) :
    after (ops7 (F := F)) W (Proc.devRef .tc main_call2_v5) = val_main_call2_v5 (F := F) x1 := by
  unfold ops7
  after_results_simp
  rw [hv13]
  rfl

/-- The in-bounds bits after the eighth stretch. -/
theorem stage_call2_v11 (W : Valuation τ sig (Elt F)) (x1 : (⟨S64x511, .i32⟩ : BufTy).Contents (Elt F))
    (hc5 : W (Proc.devRef .tc main_call2_v5) = val_main_call2_v5 (F := F) x1) :
    after (ops8 (F := F)) W (Proc.devRef .tc main_call2_v11) = val_main_call2_v11 (F := F) x1 := by
  unfold ops8
  after_results_simp
  rw [hc5]
  rfl

/-- The in-bounds mask after the ninth stretch. -/
theorem stage_call2_v12 (W : Valuation τ sig (Elt F)) (x1 : (⟨S64x511, .i32⟩ : BufTy).Contents (Elt F))
    (hb : W (Proc.devRef .tc main_call2_v11) = val_main_call2_v11 (F := F) x1) :
    after (ops9 (F := F)) W (Proc.devRef .tc main_call2_v12) = val_main_call2_v12 (F := F) x1 := by
  unfold ops9
  after_results_simp
  rw [hb]
  unfold val_main_call2_v12 val_main_call2_c_3
  simp only [TRef.ofBuf, TRef.toBuf, cast_eq]

/-- The gathered log-probability after the tenth stretch. -/
theorem stage_call2_v13 (W : Valuation τ sig (Elt F)) (x0 : (⟨S64x512x1024, .f32⟩ : BufTy).Contents (Elt F)) (x1 : (⟨S64x511, .i32⟩ : BufTy).Contents (Elt F)) (x3 : (⟨S1024x4096, .f32⟩ : BufTy).Contents (Elt F)) (x4 : (⟨S4096, .f32⟩ : BufTy).Contents (Elt F)) (x5 : (⟨S4096x32, .f32⟩ : BufTy).Contents (Elt F)) (x6 : (⟨S32, .f32⟩ : BufTy).Contents (Elt F))
    (hv12 : W (Proc.devRef .tc main_v12) = val_main_v12 (F := F) x0 x3 x4 x5 x6)
    (hc5 : W (Proc.devRef .tc main_call2_v5) = val_main_call2_v5 (F := F) x1) :
    after (ops10 (F := F)) W (Proc.devRef .tc main_call2_v13) = val_main_call2_v13 (F := F) x0 x1 x3 x4 x5 x6 := by
  unfold ops10
  after_results_simp
  rw [hv12, hc5]
  rfl

/-- The taken action's log-probability after the eleventh stretch. -/
theorem stage_v15 (W : Valuation τ sig (Elt F)) (x0 : (⟨S64x512x1024, .f32⟩ : BufTy).Contents (Elt F)) (x1 : (⟨S64x511, .i32⟩ : BufTy).Contents (Elt F)) (x3 : (⟨S1024x4096, .f32⟩ : BufTy).Contents (Elt F)) (x4 : (⟨S4096, .f32⟩ : BufTy).Contents (Elt F)) (x5 : (⟨S4096x32, .f32⟩ : BufTy).Contents (Elt F)) (x6 : (⟨S32, .f32⟩ : BufTy).Contents (Elt F))
    (hc12 : W (Proc.devRef .tc main_call2_v12) = val_main_call2_v12 (F := F) x1)
    (hg : W (Proc.devRef .tc main_call2_v13) = val_main_call2_v13 (F := F) x0 x1 x3 x4 x5 x6) :
    after (ops11 (F := F)) W (Proc.devRef .tc main_v15) = val_main_v15 (F := F) x0 x1 x3 x4 x5 x6 := by
  unfold ops11
  after_results_simp
  rw [hc12, hg]
  rfl

/-- The length mask as floats after the twelfth stretch. -/
theorem stage_v22 (W : Valuation τ sig (Elt F)) (x2 : (⟨S64, .i32⟩ : BufTy).Contents (Elt F))
    (h2 : W (Proc.devRef .tc main_arg2) = x2) :
    after (ops12 (F := F)) W (Proc.devRef .tc main_v22) = val_main_v22 (F := F) x2 := by
  unfold ops12
  after_results_simp
  rw [h2]
  rfl

/-- The negated total after the thirteenth stretch. -/
theorem stage_v25 (W : Valuation τ sig (Elt F)) (x0 : (⟨S64x512x1024, .f32⟩ : BufTy).Contents (Elt F)) (x1 : (⟨S64x511, .i32⟩ : BufTy).Contents (Elt F)) (x2 : (⟨S64, .i32⟩ : BufTy).Contents (Elt F)) (x3 : (⟨S1024x4096, .f32⟩ : BufTy).Contents (Elt F)) (x4 : (⟨S4096, .f32⟩ : BufTy).Contents (Elt F)) (x5 : (⟨S4096x32, .f32⟩ : BufTy).Contents (Elt F)) (x6 : (⟨S32, .f32⟩ : BufTy).Contents (Elt F))
    (hv15 : W (Proc.devRef .tc main_v15) = val_main_v15 (F := F) x0 x1 x3 x4 x5 x6)
    (hv22 : W (Proc.devRef .tc main_v22) = val_main_v22 (F := F) x2) :
    after (ops13 (F := F)) W (Proc.devRef .tc main_v25) = val_main_v25 (F := F) x0 x1 x2 x3 x4 x5 x6 := by
  unfold ops13
  after_results_simp
  rw [hv15, hv22]
  rfl

/-! ## The stretches in a row -/

set_option maxRecDepth 8192 in
/-- The whole operation list is the thirteen stretches in a row. -/
theorem ops_eq : (Cert.ReferenceIdeal.Value.ops (F := F)) = ops1 ++ (ops2 ++ (ops3 ++ (ops4 ++ (ops5 ++ (ops6 ++ (ops7 ++ (ops8 ++ (ops9 ++ (ops10 ++ (ops11 ++ (ops12 ++ (ops13)))))))))))) := rfl

/-- A buffer no stretch writes ends as launched. -/
theorem after_kept (m : (ℓ : Loc nD τ sig) → Buf (Elt F) ℓ) (c : Dev nD) (r : Ref sig .tc)
    (h : ∀ l ∈ [wl1, wl2, wl3, wl4, wl5, wl6, wl7, wl8, wl9, wl10, wl11, wl12, wl13], r ∉ l) :
    after (Cert.ReferenceIdeal.Value.ops (F := F)) (launchContents m c) (Proc.devRef .tc r) = m ((c.tc : Thread nD τ).loc r) := by
  rw [ops_eq]
  simp only [after_app]
  rw [keep13 _ r (h wl13 (by decide)),
    keep12 _ r (h wl12 (by decide)),
    keep11 _ r (h wl11 (by decide)),
    keep10 _ r (h wl10 (by decide)),
    keep9 _ r (h wl9 (by decide)),
    keep8 _ r (h wl8 (by decide)),
    keep7 _ r (h wl7 (by decide)),
    keep6 _ r (h wl6 (by decide)),
    keep5 _ r (h wl5 (by decide)),
    keep4 _ r (h wl4 (by decide)),
    keep3 _ r (h wl3 (by decide)),
    keep2 _ r (h wl2 (by decide)),
    keep1 _ r (h wl1 (by decide))]

/-- The result buffer after the 64 operations is the last stage of the arguments' launch contents. -/
theorem after_v25 (m : (ℓ : Loc nD τ sig) → Buf (Elt F) ℓ) (c : Dev nD) :
    after (Cert.ReferenceIdeal.Value.ops (F := F)) (launchContents m c) (Proc.devRef .tc main_v25)
      = val_main_v25 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [ops_eq]
  simp only [after_app]
  generalize hV : launchContents m c = V0
  have a0 : V0 (Proc.devRef .tc main_arg0) = m ((c.tc : Thread nD τ).loc main_arg0) := by subst hV; rfl
  have a1 : V0 (Proc.devRef .tc main_arg1) = m ((c.tc : Thread nD τ).loc main_arg1) := by subst hV; rfl
  have a2 : V0 (Proc.devRef .tc main_arg2) = m ((c.tc : Thread nD τ).loc main_arg2) := by subst hV; rfl
  have a3 : V0 (Proc.devRef .tc main_arg3) = m ((c.tc : Thread nD τ).loc main_arg3) := by subst hV; rfl
  have a4 : V0 (Proc.devRef .tc main_arg4) = m ((c.tc : Thread nD τ).loc main_arg4) := by subst hV; rfl
  have a5 : V0 (Proc.devRef .tc main_arg5) = m ((c.tc : Thread nD τ).loc main_arg5) := by subst hV; rfl
  have a6 : V0 (Proc.devRef .tc main_arg6) = m ((c.tc : Thread nD τ).loc main_arg6) := by subst hV; rfl
  -- first stretch: the hidden layer; the arguments read later are kept
  have s4 := stage_v4 V0 _ _ _ a0 a3 a4
  have b1 := (keep1 V0 main_arg1 (by decide)).trans a1
  have b2 := (keep1 V0 main_arg2 (by decide)).trans a2
  have b5 := (keep1 V0 main_arg5 (by decide)).trans a5
  have b6 := (keep1 V0 main_arg6 (by decide)).trans a6
  generalize after (ops1 (F := F)) V0 = V1 at s4 b1 b2 b5 b6 ⊢
  -- second stretch: the grouped logits
  have s9 := stage_v9 V1 _ _ _ _ _ s4 b5 b6
  have c1 := (keep2 V1 main_arg1 (by decide)).trans b1
  have c2 := (keep2 V1 main_arg2 (by decide)).trans b2
  generalize after (ops2 (F := F)) V1 = V2 at s9 c1 c2 ⊢
  -- third stretch: the group maxima
  have m0 := stage_call1_v0 V2 _ _ _ _ _ s9
  have s9' := (keep3 V2 main_v9 (by decide)).trans s9
  have d1 := (keep3 V2 main_arg1 (by decide)).trans c1
  have d2 := (keep3 V2 main_arg2 (by decide)).trans c2
  generalize after (ops3 (F := F)) V2 = V3 at m0 s9' d1 d2 ⊢
  -- fourth stretch: the shifted logits
  have s5 := stage_call1_v5 V3 _ _ _ _ _ s9' m0
  have e1 := (keep4 V3 main_arg1 (by decide)).trans d1
  have e2 := (keep4 V3 main_arg2 (by decide)).trans d2
  generalize after (ops4 (F := F)) V3 = V4 at s5 e1 e2 ⊢
  -- fifth stretch: the log-probabilities
  have s10 := stage_v10 V4 _ _ _ _ _ s5
  have f1 := (keep5 V4 main_arg1 (by decide)).trans e1
  have f2 := (keep5 V4 main_arg2 (by decide)).trans e2
  generalize after (ops5 (F := F)) V4 = V5 at s10 f1 f2 ⊢
  -- sixth stretch: the first option's slice, and the actions
  have s12 := stage_v12 V5 _ _ _ _ _ s10
  have s13 := stage_v13 V5 _ f1
  have g2 := (keep6 V5 main_arg2 (by decide)).trans f2
  generalize after (ops6 (F := F)) V5 = V6 at s12 s13 g2 ⊢
  -- seventh stretch: the wrapped indices
  have t5 := stage_call2_v5 V6 _ s13
  have s12a := (keep7 V6 main_v12 (by decide)).trans s12
  have h2 := (keep7 V6 main_arg2 (by decide)).trans g2
  generalize after (ops7 (F := F)) V6 = V7 at t5 s12a h2 ⊢
  -- eighth stretch: the in-bounds bits
  have t11 := stage_call2_v11 V7 _ t5
  have t5a := (keep8 V7 main_call2_v5 (by decide)).trans t5
  have s12b := (keep8 V7 main_v12 (by decide)).trans s12a
  have i2 := (keep8 V7 main_arg2 (by decide)).trans h2
  generalize after (ops8 (F := F)) V7 = V8 at t11 t5a s12b i2 ⊢
  -- ninth stretch: the in-bounds mask
  have t12 := stage_call2_v12 V8 _ t11
  have t5b := (keep9 V8 main_call2_v5 (by decide)).trans t5a
  have s12c := (keep9 V8 main_v12 (by decide)).trans s12b
  have j2 := (keep9 V8 main_arg2 (by decide)).trans i2
  generalize after (ops9 (F := F)) V8 = V9 at t12 t5b s12c j2 ⊢
  -- tenth stretch: the gather
  have t13 := stage_call2_v13 V9 _ _ _ _ _ _ s12c t5b
  have t12a := (keep10 V9 main_call2_v12 (by decide)).trans t12
  have k2 := (keep10 V9 main_arg2 (by decide)).trans j2
  generalize after (ops10 (F := F)) V9 = V10 at t13 t12a k2 ⊢
  -- eleventh stretch: the taken action's log-probability
  have s15 := stage_v15 V10 _ _ _ _ _ _ t12a t13
  have l2 := (keep11 V10 main_arg2 (by decide)).trans k2
  generalize after (ops11 (F := F)) V10 = V11 at s15 l2 ⊢
  -- twelfth stretch: the length mask
  have s22 := stage_v22 V11 _ l2
  have s15a := (keep12 V11 main_v15 (by decide)).trans s15
  generalize after (ops12 (F := F)) V11 = V12 at s22 s15a ⊢
  -- thirteenth stretch: the product, the total, its negation
  exact stage_v25 V12 _ _ _ _ _ _ _ s15a s22

/-- Every weakly fair execution of the reference terminates with the result at the last stage and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25) = val_main_v25 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v25).trans (after_v25 m c),
      (h c main_arg0).trans (after_kept m c main_arg0 (by decide)),
      (h c main_arg1).trans (after_kept m c main_arg1 (by decide)),
      (h c main_arg2).trans (after_kept m c main_arg2 (by decide)),
      (h c main_arg3).trans (after_kept m c main_arg3 (by decide)),
      (h c main_arg4).trans (after_kept m c main_arg4 (by decide)),
      (h c main_arg5).trans (after_kept m c main_arg5 (by decide)),
      (h c main_arg6).trans (after_kept m c main_arg6 (by decide))⟩)
    (Cert.ReferenceIdeal.Value.run_raw m ρ)

end Cert.ReferenceIdeal.Stages

end
-- ==== Proof.RefRow.lean ====
/-
  The reference's log-probabilities of the first option, read at an index.

  The host program multiplies the states by the first layer, adds the bias, takes the positive part, multiplies by
  the second layer, adds its bias, regroups the 32 logits as 8 options of 4 actions, takes the log-softmax over the
  actions, and keeps option 0 and the first 511 timesteps: entry (b, t, a) is the specification's row function of
  sample `b`'s states at timestep `t`.
-/
import proofs.«421442_j77936476553902_3_alg».proof.Proof.RefRead
import proofs.«421442_j77936476553902_3_alg».proof.Proof.Spec
import Idealize.ShloMosaic.PureOps.Reduce

set_option maxRecDepth 16384

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.Spec

/-- The argument arrays as plain functions. -/
def inputsOf (x0 : (⟨S64x512x1024, .f32⟩ : BufTy).Contents (Elt Ideal)) (x1 : (⟨S64x511, .i32⟩ : BufTy).Contents (Elt Ideal)) (x2 : (⟨S64, .i32⟩ : BufTy).Contents (Elt Ideal)) (x3 : (⟨S1024x4096, .f32⟩ : BufTy).Contents (Elt Ideal)) (x4 : (⟨S4096, .f32⟩ : BufTy).Contents (Elt Ideal)) (x5 : (⟨S4096x32, .f32⟩ : BufTy).Contents (Elt Ideal)) (x6 : (⟨S32, .f32⟩ : BufTy).Contents (Elt Ideal)) : Cert.Spec.Inputs where
  s := fun b t k => x0 (ix3 b t k)
  act := fun b t => x1 (ix2 b t)
  len := fun b => x2 (ix1 b)
  W1 := fun k j => x3 (ix2 k j)
  b1 := fun j => x4 (ix1 j)
  W2 := fun j q => x5 (ix2 j q)
  b2 := fun q => x6 (ix1 q)

/-- The hidden layer at sample `b`, timestep `t`, unit `j`. -/
theorem hidden_apply (x0 : (⟨S64x512x1024, .f32⟩ : BufTy).Contents (Elt Ideal)) (x3 : (⟨S1024x4096, .f32⟩ : BufTy).Contents (Elt Ideal)) (x4 : (⟨S4096, .f32⟩ : BufTy).Contents (Elt Ideal)) (b : Fin 64) (t : Fin 512) (j : Fin 4096) :
    val_main_v4 (F := Ideal) x0 x3 x4 (ix3 b t j)
      = hidden (fun k => x0 (ix3 b t k)) (fun k j => x3 (ix2 k j)) (fun j => x4 (ix1 j)) j := by
  have e0 : ∀ k : Fin 1024, lidx_main_v0 (ix3 b t j) k = ix3 b t k := fun k =>
    funext fun a => by match a with | ⟨0, _⟩ => rfl | ⟨1, _⟩ => rfl | ⟨2, _⟩ => rfl
  have e1 : ∀ k : Fin 1024, ridx_main_v0 (ix3 b t j) k = ix2 k j := fun k =>
    funext fun a => by match a with | ⟨0, _⟩ => rfl | ⟨1, _⟩ => rfl
  have e2 : idx_main_v1 (idx_main_v2 (ix3 b t j)) = ix1 j :=
    funext fun a => by match a with | ⟨0, _⟩ => rfl
  rw [val_main_v4_apply, val_main_v3_apply, val_main_v0_apply, val_main_v2_apply, val_main_v1_apply,
    val_main_call0_v0_apply, val_main_call0_cst_apply]
  simp only [e0, e1, e2, Ideal.maximumf_def, Ideal.addf_def, Ideal.ofBits_def]
  rfl

/-- The logits of option 0 at sample `b`, timestep `t`, action `a`: column `a` of the 32. -/
theorem logit_apply (x0 : (⟨S64x512x1024, .f32⟩ : BufTy).Contents (Elt Ideal)) (x3 : (⟨S1024x4096, .f32⟩ : BufTy).Contents (Elt Ideal)) (x4 : (⟨S4096, .f32⟩ : BufTy).Contents (Elt Ideal)) (x5 : (⟨S4096x32, .f32⟩ : BufTy).Contents (Elt Ideal)) (x6 : (⟨S32, .f32⟩ : BufTy).Contents (Elt Ideal)) (b : Fin 64) (t : Fin 512) (a : Fin 4) :
    val_main_v9 (F := Ideal) x0 x3 x4 x5 x6 (ix4 b t (0 : Fin 8) a)
      = logit (hidden (fun k => x0 (ix3 b t k)) (fun k j => x3 (ix2 k j)) (fun j => x4 (ix1 j)))
          (fun j a => x5 (ix2 j ⟨a.val, by omega⟩)) (fun a => x6 (ix1 ⟨a.val, by omega⟩)) a := by
  have e9 : idx_main_v9 (ix4 b t (0 : Fin 8) a) = ix3 b t (⟨a.val, by omega⟩ : Fin 32) :=
    funext fun c => Fin.ext (by
      have hb := b.isLt; have ht := t.isLt; have ha := a.isLt
      match c with
      | ⟨0, _⟩ => show (((b.val * 512 + t.val) * 8 + 0) * 4 + a.val) / 16384 = b.val; omega
      | ⟨1, _⟩ => show (((b.val * 512 + t.val) * 8 + 0) * 4 + a.val) / 32 % 512 = t.val; omega
      | ⟨2, _⟩ => show (((b.val * 512 + t.val) * 8 + 0) * 4 + a.val) % 32 = a.val; omega)
  have el : ∀ k : Fin 4096, lidx_main_v5 (ix3 b t (⟨a.val, by omega⟩ : Fin 32)) k = ix3 b t k := fun k =>
    funext fun c => by match c with | ⟨0, _⟩ => rfl | ⟨1, _⟩ => rfl | ⟨2, _⟩ => rfl
  have er : ∀ k : Fin 4096, ridx_main_v5 (ix3 b t (⟨a.val, by omega⟩ : Fin 32)) k = ix2 k (⟨a.val, by omega⟩ : Fin 32) := fun k =>
    funext fun c => by match c with | ⟨0, _⟩ => rfl | ⟨1, _⟩ => rfl
  have e6 : idx_main_v6 (idx_main_v7 (ix3 b t (⟨a.val, by omega⟩ : Fin 32))) = ix1 (⟨a.val, by omega⟩ : Fin 32) :=
    funext fun c => by match c with | ⟨0, _⟩ => rfl
  rw [val_main_v9_apply, e9, val_main_v8_apply, val_main_v5_apply, val_main_v7_apply, val_main_v6_apply]
  simp only [el, er, e6, hidden_apply, Ideal.addf_def]
  rfl

/-- The fold of the ideal maximum is the fold of `max`. -/
theorem fold_maximumf_eq (init : EReal) (g : Fin 4 → EReal) :
    (Finset.univ : Finset (Fin 4)).fold (FloatOps.maximumf (F := Ideal) (φ := .f32)) init g
      = (Finset.univ : Finset (Fin 4)).fold max init g := rfl

/-- The shift of option 0's row of logits: their maximum from `-∞`, compared with `-∞` once more. -/
theorem rowmax_apply (x0 : (⟨S64x512x1024, .f32⟩ : BufTy).Contents (Elt Ideal)) (x3 : (⟨S1024x4096, .f32⟩ : BufTy).Contents (Elt Ideal)) (x4 : (⟨S4096, .f32⟩ : BufTy).Contents (Elt Ideal)) (x5 : (⟨S4096x32, .f32⟩ : BufTy).Contents (Elt Ideal)) (x6 : (⟨S32, .f32⟩ : BufTy).Contents (Elt Ideal)) (b : Fin 64) (t : Fin 512) :
    val_main_call1_v2 (F := Ideal) x0 x3 x4 x5 x6 (ix3 b t (0 : Fin 8))
      = rowMax (fun a : Fin 4 => val_main_v9 (F := Ideal) x0 x3 x4 x5 x6 (ix4 b t (0 : Fin 8) a)) := by
  have hR : S64x512x8x4.Reduces [3] S64x512x8 := by decide
  rw [val_main_call1_v2_apply, val_main_call1_v1_apply, val_main_call1_cst_0_apply]
  unfold val_main_call1_v0
  generalize val_main_v9 (F := Ideal) x0 x3 x4 x5 x6 = y
  rw [Host.reduce_eq_fold_single (FloatOps.maximumf (F := Ideal) (φ := .f32)) y _ reducesTo_S64x512x8x4_S64x512x8_d3 hR h_S_]
  have el : (y ∘ hR.lift (ix3 b t (0 : Fin 8))) = fun a : Fin 4 => y (ix4 b t (0 : Fin 8) a) :=
    funext fun k => congrArg y (funext fun c => Fin.ext (by
      match c with | ⟨0, _⟩ => rfl | ⟨1, _⟩ => rfl | ⟨2, _⟩ => rfl | ⟨3, _⟩ => rfl))
  rw [el, val_main_call1_cst_apply]
  exact congrArg (max _) (fold_maximumf_eq _ _)

/-- The log-softmax over option 0's four actions at sample `b`, timestep `t`. -/
theorem logsoftmax_apply (x0 : (⟨S64x512x1024, .f32⟩ : BufTy).Contents (Elt Ideal)) (x3 : (⟨S1024x4096, .f32⟩ : BufTy).Contents (Elt Ideal)) (x4 : (⟨S4096, .f32⟩ : BufTy).Contents (Elt Ideal)) (x5 : (⟨S4096x32, .f32⟩ : BufTy).Contents (Elt Ideal)) (x6 : (⟨S32, .f32⟩ : BufTy).Contents (Elt Ideal)) (b : Fin 64) (t : Fin 512) (a : Fin 4) :
    val_main_v10 (F := Ideal) x0 x3 x4 x5 x6 (ix4 b t (0 : Fin 8) a)
      = logSoftmax (fun a' : Fin 4 => val_main_v9 (F := Ideal) x0 x3 x4 x5 x6 (ix4 b t (0 : Fin 8) a')) a := by
  have e4 : ∀ a' : Fin 4, idx_main_call1_v3 (idx_main_call1_v4 (ix4 b t (0 : Fin 8) a')) = ix3 b t (0 : Fin 8) := fun a' =>
    funext fun c => by match c with | ⟨0, _⟩ => rfl | ⟨1, _⟩ => rfl | ⟨2, _⟩ => rfl
  have e5 : ∀ a' : Fin 4, val_main_call1_v5 (F := Ideal) x0 x3 x4 x5 x6 (ix4 b t (0 : Fin 8) a')
      = val_main_v9 (F := Ideal) x0 x3 x4 x5 x6 (ix4 b t (0 : Fin 8) a')
        - rowMax (fun a'' : Fin 4 => val_main_v9 (F := Ideal) x0 x3 x4 x5 x6 (ix4 b t (0 : Fin 8) a'')) := fun a' => by
    rw [val_main_call1_v5_apply, val_main_call1_v4_apply, val_main_call1_v3_apply, e4, rowmax_apply]
    rfl
  have e8 : idx_main_call1_v8 (idx_main_call1_v10 (ix4 b t (0 : Fin 8) a)) = ix3 b t (0 : Fin 8) :=
    funext fun c => by match c with | ⟨0, _⟩ => rfl | ⟨1, _⟩ => rfl | ⟨2, _⟩ => rfl
  have e7 : ∀ k : Fin 4, idx_main_call1_v7 (ix3 b t (0 : Fin 8)) k = ix4 b t (0 : Fin 8) k := fun k =>
    funext fun c => by match c with | ⟨0, _⟩ => rfl | ⟨1, _⟩ => rfl | ⟨2, _⟩ => rfl | ⟨3, _⟩ => rfl
  rw [val_main_v10_apply, e5, val_main_call1_v10_apply, val_main_call1_v9_apply, val_main_call1_v8_apply, e8,
    val_main_call1_v7_apply, val_main_call1_cst_1_apply]
  simp only [e7, val_main_call1_v6_apply, e5, Ideal.hostUnary_exp_def, Ideal.hostUnary_log_def, Ideal.subf_def,
    Ideal.ofBits_def, Ideal.ofBits_zero_f32, zero_add]
  rfl

/-- Option 0's log-probabilities at sample `b`, timestep `t` (one of the first 511), action `a`. -/
theorem lp0_apply (x0 : (⟨S64x512x1024, .f32⟩ : BufTy).Contents (Elt Ideal)) (x1 : (⟨S64x511, .i32⟩ : BufTy).Contents (Elt Ideal)) (x2 : (⟨S64, .i32⟩ : BufTy).Contents (Elt Ideal)) (x3 : (⟨S1024x4096, .f32⟩ : BufTy).Contents (Elt Ideal)) (x4 : (⟨S4096, .f32⟩ : BufTy).Contents (Elt Ideal)) (x5 : (⟨S4096x32, .f32⟩ : BufTy).Contents (Elt Ideal)) (x6 : (⟨S32, .f32⟩ : BufTy).Contents (Elt Ideal)) (b : Fin 64) (t : Fin 511) (a : Fin 4) :
    val_main_v12 (F := Ideal) x0 x3 x4 x5 x6 (ix3 b t a) = (inputsOf x0 x1 x2 x3 x4 x5 x6).lp b ⟨t.val, by omega⟩ a := by
  have e12 : idx_main_v11 (idx_main_v12 (ix3 b t a)) = ix4 b (⟨t.val, by omega⟩ : Fin 512) (0 : Fin 8) a :=
    funext fun c => Fin.ext (by
      have hb := b.isLt; have ht := t.isLt; have ha := a.isLt
      match c with
      | ⟨0, _⟩ => show ((b.val * 511 + t.val) * 4 + a.val) / 2044 = b.val; omega
      | ⟨1, _⟩ => show ((b.val * 511 + t.val) * 4 + a.val) / 4 % 511 = t.val; omega
      | ⟨2, _⟩ => rfl
      | ⟨3, _⟩ => show ((b.val * 511 + t.val) * 4 + a.val) % 4 = a.val; omega)
  rw [val_main_v12_apply, val_main_v11_apply, e12, logsoftmax_apply]
  simp only [logit_apply]
  rfl

end Cert.ReferenceIdeal.RefValue

end
-- ==== Proof.RefValue.lean ====
/-
  The reference's result is the specification's reference total.

  With every action word below four, picking along the action axis by the action word (negative words wrapped,
  out-of-range ones filled) reads the log-probability of that action; its product with the length bit is summed
  over samples and timesteps from zero, and negated.
-/
import proofs.«421442_j77936476553902_3_alg».proof.Proof.RefRow
import Idealize.ShloMosaic.Lib.StableHlo.Predicate
import Idealize.ShloMosaic.Lib.ReduceAll

set_option maxRecDepth 16384

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.Spec

/-! ## Action words below four -/

/-- A word below four is not negative as a signed number. -/
theorem slt_zero_of_lt {w : BitVec 32} (hw : w.toNat < 4) : IntOp.cmpi .slt w 0#32 = 0#1 :=
  eq_zero_of_ne_one fun h => by
    have := (StableHlo.Predicate.slt_iff_toNat (a := w) (b := 0#32) (by omega) (by decide)).mp h
    simp at this

/-- … it is at least zero … -/
theorem sge_zero_of_lt {w : BitVec 32} (hw : w.toNat < 4) : IntOp.cmpi .sge w 0#32 = 1#1 :=
  (StableHlo.Predicate.sge_iff_toNat (a := w) (b := 0#32) (by omega) (by decide)).mpr (by simp)

/-- … and at most three. -/
theorem sle_three_of_lt {w : BitVec 32} (hw : w.toNat < 4) : IntOp.cmpi .sle w 3#32 = 1#1 :=
  (StableHlo.Predicate.sle_iff_toNat (a := w) (b := 3#32) (by omega) (by decide)).mpr (by
    show w.toNat ≤ 3; omega)

/-- Read signed, it is its own value. -/
theorem toInt_toNat_of_lt {w : BitVec 32} (hw : w.toNat < 4) : w.toInt.toNat = w.toNat := by
  rw [StableHlo.Predicate.toInt_eq_toNat_of_lt (a := w) (by omega)]; rfl

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- The wrapped action word is the word itself. -/
theorem wrap_apply (x1 : (⟨S64x511, .i32⟩ : BufTy).Contents (Elt Ideal)) (hact : ∀ i : S64x511.Idx, (x1 i).toNat < 4) (k : S64x511x1.Idx) :
    val_main_call2_v4 (F := Ideal) x1 k = x1 (idx_main_v13 k) := by
  rw [val_main_call2_v4_apply, val_main_call2_v1_apply, val_main_v13_apply, val_main_call2_v0_apply, val_main_call2_c_apply,
    slt_zero_of_lt (hact _), select_zero]

/-- Every wrapped word is in bounds. -/
theorem inb_apply (x1 : (⟨S64x511, .i32⟩ : BufTy).Contents (Elt Ideal)) (hact : ∀ i : S64x511.Idx, (x1 i).toNat < 4) (i : S64x511x1x1.Idx) :
    val_main_call2_v11 (F := Ideal) x1 i = 1#1 := by
  rw [val_main_call2_v11_apply, val_main_call2_v7_apply, val_main_call2_v10_apply, val_main_call2_v5_apply, wrap_apply x1 hact,
    val_main_call2_v6_apply, val_main_call2_c_2_apply, val_main_call2_v9_apply, val_main_call2_v8_apply, val_main_call2_c_1_apply,
    sge_zero_of_lt (hact _), sle_three_of_lt (hact _)]
  rfl

/-- So the `and` over the unit axis of the in-bounds bits is 1 everywhere: the pick is never filled. -/
theorem all_inb (x1 : (⟨S64x511, .i32⟩ : BufTy).Contents (Elt Ideal)) (hact : ∀ i : S64x511.Idx, (x1 i).toNat < 4) (j : S64x511x1.Idx) :
    val_main_call2_v12 (F := Ideal) x1 j = 1#1 := by
  unfold val_main_call2_v12
  rw [Host.reduce_eq_foldl]
  exact foldl_andi_one _ (inb_apply x1 hact) _

/-- The gather along the action axis read at `(b, t, 0)`: the operand at `(b, t, ·)` at the start index there, read
    signed and clamped into `[0, 3]`. -/
theorem gather_apply {α : Type} (v : S64x511x4.Idx → α) (idx : IVec S64x511x1x1 32) (b : Fin 64) (t : Fin 511) :
    Host.gather gather_S64x511x4_S64x511x1x1_S64x511x1_n_2_01_01_2_3_111 v idx (ix3 b t (0 : Fin 1))
      = v (ix3 b t ⟨min (idx (ix4 b t (0 : Fin 1) (0 : Fin 1))).toInt.toNat 3, by omega⟩) := by
  have hsi : ∀ c, gather_S64x511x4_S64x511x1x1_S64x511x1_n_2_01_01_2_3_111.siIdx (ix3 b t (0 : Fin 1)) c = ix4 b t (0 : Fin 1) (0 : Fin 1) := fun c => by
    funext b'
    refine Fin.ext ?_
    match b' with
    | ⟨0, _⟩ => rfl
    | ⟨1, _⟩ => rfl
    | ⟨2, _⟩ => rfl
    | ⟨3, _⟩ =>
      have hc : c.val < 1 := c.isLt
      show c.val = 0
      omega
  unfold Host.gather
  congr 1
  funext a
  refine Fin.ext ?_
  match a with
  | ⟨0, _⟩ =>
    show gather_S64x511x4_S64x511x1x1_S64x511x1_n_2_01_01_2_3_111.start (ix3 b t (0 : Fin 1)) idx 0 + gather_S64x511x4_S64x511x1x1_S64x511x1_n_2_01_01_2_3_111.batchCoord (ix3 b t (0 : Fin 1)) 0 + gather_S64x511x4_S64x511x1x1_S64x511x1_n_2_01_01_2_3_111.offCoord (ix3 b t (0 : Fin 1)) 0 = b.val
    rw [GatherDims.start_batching _ _ _ _ (by decide), GatherDims.offCoord_eq_zero _ _ _ (by decide), Nat.zero_add, Nat.add_zero]
    rfl
  | ⟨1, _⟩ =>
    show gather_S64x511x4_S64x511x1x1_S64x511x1_n_2_01_01_2_3_111.start (ix3 b t (0 : Fin 1)) idx 1 + gather_S64x511x4_S64x511x1x1_S64x511x1_n_2_01_01_2_3_111.batchCoord (ix3 b t (0 : Fin 1)) 1 + gather_S64x511x4_S64x511x1x1_S64x511x1_n_2_01_01_2_3_111.offCoord (ix3 b t (0 : Fin 1)) 1 = t.val
    rw [GatherDims.start_batching _ _ _ _ (by decide), GatherDims.offCoord_eq_zero _ _ _ (by decide), Nat.zero_add, Nat.add_zero]
    rfl
  | ⟨2, _⟩ =>
    show gather_S64x511x4_S64x511x1x1_S64x511x1_n_2_01_01_2_3_111.start (ix3 b t (0 : Fin 1)) idx 2 + gather_S64x511x4_S64x511x1x1_S64x511x1_n_2_01_01_2_3_111.batchCoord (ix3 b t (0 : Fin 1)) 2 + gather_S64x511x4_S64x511x1x1_S64x511x1_n_2_01_01_2_3_111.offCoord (ix3 b t (0 : Fin 1)) 2 = min (idx (ix4 b t (0 : Fin 1) (0 : Fin 1))).toInt.toNat 3
    rw [GatherDims.batchCoord_eq_zero _ _ _ (by decide), GatherDims.offCoord_eq_zero _ _ _ (by decide), Nat.add_zero]
    unfold GatherDims.start
    rw [dif_pos (by decide), hsi]
    rfl

/-- The start index the gather reads at `(b, t)` is the action word there. -/
theorem v5_at (x1 : (⟨S64x511, .i32⟩ : BufTy).Contents (Elt Ideal)) (hact : ∀ i : S64x511.Idx, (x1 i).toNat < 4) (b : Fin 64) (t : Fin 511) :
    val_main_call2_v5 (F := Ideal) x1 (ix4 b t (0 : Fin 1) (0 : Fin 1)) = x1 (ix2 b t) := by
  rw [val_main_call2_v5_apply, wrap_apply x1 hact]
  congr 1
  funext a
  refine Fin.ext ?_
  have := b.isLt
  have := t.isLt
  match a with
  | ⟨0, _⟩ => show (((b.val * 511 + t.val) * 1 + 0) * 1 + 0) / 511 = b.val; omega
  | ⟨1, _⟩ => show (((b.val * 511 + t.val) * 1 + 0) * 1 + 0) / 1 % 511 = t.val; omega

/-- The gathered entry at `(b, t)` is the log-probability row's entry at the action taken there. -/
theorem pick_apply (x0 : (⟨S64x512x1024, .f32⟩ : BufTy).Contents (Elt Ideal)) (x1 : (⟨S64x511, .i32⟩ : BufTy).Contents (Elt Ideal)) (x3 : (⟨S1024x4096, .f32⟩ : BufTy).Contents (Elt Ideal)) (x4 : (⟨S4096, .f32⟩ : BufTy).Contents (Elt Ideal)) (x5 : (⟨S4096x32, .f32⟩ : BufTy).Contents (Elt Ideal)) (x6 : (⟨S32, .f32⟩ : BufTy).Contents (Elt Ideal)) (hact : ∀ i : S64x511.Idx, (x1 i).toNat < 4) (b : Fin 64) (t : Fin 511) :
    val_main_call2_v13 (F := Ideal) x0 x1 x3 x4 x5 x6 (ix3 b t (0 : Fin 1))
      = val_main_v12 (F := Ideal) x0 x3 x4 x5 x6 (ix3 b t (actFin (x1 (ix2 b t)))) := by
  have hw := hact (ix2 b t)
  unfold val_main_call2_v13
  rw [gather_apply]
  congr 1
  funext a
  refine Fin.ext ?_
  match a with
  | ⟨0, _⟩ => rfl
  | ⟨1, _⟩ => rfl
  | ⟨2, _⟩ =>
    show min (val_main_call2_v5 (F := Ideal) x1 (ix4 b t (0 : Fin 1) (0 : Fin 1))).toInt.toNat 3 = (x1 (ix2 b t)).toNat % 4
    rw [v5_at x1 hact b t, toInt_toNat_of_lt hw]
    omega

/-- The masked, gathered log-probability at sample `b`, timestep `t`. -/
theorem term_apply (x0 : (⟨S64x512x1024, .f32⟩ : BufTy).Contents (Elt Ideal)) (x1 : (⟨S64x511, .i32⟩ : BufTy).Contents (Elt Ideal)) (x2 : (⟨S64, .i32⟩ : BufTy).Contents (Elt Ideal)) (x3 : (⟨S1024x4096, .f32⟩ : BufTy).Contents (Elt Ideal)) (x4 : (⟨S4096, .f32⟩ : BufTy).Contents (Elt Ideal)) (x5 : (⟨S4096x32, .f32⟩ : BufTy).Contents (Elt Ideal)) (x6 : (⟨S32, .f32⟩ : BufTy).Contents (Elt Ideal)) (hact : ∀ i : S64x511.Idx, (x1 i).toNat < 4) (b : Fin 64) (t : Fin 511) :
    val_main_v23 (F := Ideal) x0 x1 x2 x3 x4 x5 x6 (ix2 b t)
      = (inputsOf x0 x1 x2 x3 x4 x5 x6).lp b ⟨t.val, by omega⟩ (actFin (x1 (ix2 b t))) * bitVal (refBit t.val (x2 (ix1 b))) := by
  have hb := b.isLt
  have ht := t.isLt
  have e15 : idx_main_v15 (ix2 b t) = ix3 b t (0 : Fin 1) := by
    funext a
    refine Fin.ext ?_
    match a with
    | ⟨0, _⟩ => show (b.val * 511 + t.val) / 511 = b.val; omega
    | ⟨1, _⟩ => show (b.val * 511 + t.val) / 1 % 511 = t.val; omega
    | ⟨2, _⟩ => rfl
  have e18 : idx_main_v18 (idx_main_v20 (ix2 b t)) = ix1 b := by
    funext a
    match a with
    | ⟨0, _⟩ => rfl
  rw [val_main_v23_apply, val_main_v15_apply, val_main_v14_apply, all_inb x1 hact, select_one,
    val_main_v22_apply, val_main_v21_apply, val_main_v19_apply, val_main_v17_apply, val_main_v16_apply,
    val_main_v20_apply, val_main_v18_apply, e15, e18, pick_apply x0 x1 x3 x4 x5 x6 hact b t,
    lp0_apply x0 x1 x2 x3 x4 x5 x6 b t]
  rfl

/-- The reference's result. -/
theorem ref_value (x0 : (⟨S64x512x1024, .f32⟩ : BufTy).Contents (Elt Ideal)) (x1 : (⟨S64x511, .i32⟩ : BufTy).Contents (Elt Ideal)) (x2 : (⟨S64, .i32⟩ : BufTy).Contents (Elt Ideal)) (x3 : (⟨S1024x4096, .f32⟩ : BufTy).Contents (Elt Ideal)) (x4 : (⟨S4096, .f32⟩ : BufTy).Contents (Elt Ideal)) (x5 : (⟨S4096x32, .f32⟩ : BufTy).Contents (Elt Ideal)) (x6 : (⟨S32, .f32⟩ : BufTy).Contents (Elt Ideal)) (hact : ∀ i : S64x511.Idx, (x1 i).toNat < 4) :
    val_main_v25 (F := Ideal) x0 x1 x2 x3 x4 x5 x6 = fun _ => (inputsOf x0 x1 x2 x3 x4 x5 x6).refTotal := by
  funext i
  rw [val_main_v25_apply, val_main_v24_apply, val_main_cst_apply, sum_idx2]
  simp only [term_apply x0 x1 x2 x3 x4 x5 x6 hact]
  rw [show FloatOps.ofBits (F := Ideal) .f32 0x00000000#32 = (0 : EReal) from Ideal.ofBits_zero_f32, zero_add]
  rfl

end Cert.ReferenceIdeal.RefValue

end
-- ==== Proof.lean ====
/-
  The certificate: the fused policy-network kernel against its jnp reference, over the extended reals.

  Both programs compute  − ∑_{b, t} logp(b, t)[action(b, t)] · [t < length(b)],  where logp(b, t) is the log-softmax,
  over the first option's four actions, of a two-layer network applied to the states of sample b at timestep t.  The
  kernel walks the 32768 flattened (sample, timestep) rows in 128 tiles of 256 rows on two cores, one accumulator per
  core: per tile it forms the four log-probabilities of each row, weights them by a table that is the one-hot of the
  action times the length bit (the last timestep of every sample padded with weight zero), sums over the tile, and
  adds the sum into its core's accumulator, skipping a tile none of whose rows is below its sample's length; the host
  adds the two accumulators and negates.  The reference picks the taken action's log-probability by index.

  The two agree whenever every action word is one of 0, 1, 2, 3 — the precondition's added conjunct: outside that
  range the reference's index wraps or is filled while a one-hot is all zeros.  Nothing else is used of the
  precondition: on the extended reals addition is a commutative monoid and x · 0 = 0 for every x, so the skipped
  tiles, the padded timestep and the re-grouping of the sum need no finiteness.

  The modules: Spec (both totals as functions of the seven arguments), Bridge (the two totals are equal), KPayload
  (the body's stored values at an index), KPieces and KAccum (the six control cases and the accumulator point by
  point), KInputs and KOhm (the input blocks and the two host-computed tables at an index), KFinalA and KFinal (the
  output array, the host tail, the kernel's run), RefRow and RefValue (the reference's stages at an index), RefStages
  (the reference's run read back stage by stage), PreDecode (the action range out of the printed precondition).
-/
import proofs.«421442_j77936476553902_3_alg».proof.Defs
import proofs.«421442_j77936476553902_3_alg».proof.Proof.Gen.Kernel
import proofs.«421442_j77936476553902_3_alg».proof.Proof.Gen.Kernel.Skeleton
import proofs.«421442_j77936476553902_3_alg».proof.Proof.Gen.Kernel.Launch
import proofs.«421442_j77936476553902_3_alg».proof.Proof.Gen.Kernel.Points
import proofs.«421442_j77936476553902_3_alg».proof.Proof.Gen.Kernel.Frame
import proofs.«421442_j77936476553902_3_alg».proof.Proof.Gen.KernelIdeal
import proofs.«421442_j77936476553902_3_alg».proof.Proof.Gen.KernelIdeal.Skeleton
import proofs.«421442_j77936476553902_3_alg».proof.Proof.Gen.KernelIdeal.Launch
import proofs.«421442_j77936476553902_3_alg».proof.Proof.Gen.KernelIdeal.Points
import proofs.«421442_j77936476553902_3_alg».proof.Proof.Gen.KernelIdeal.Frame
import proofs.«421442_j77936476553902_3_alg».proof.Proof.Gen.ReferenceIdeal
import proofs.«421442_j77936476553902_3_alg».proof.Proof.Gen.Pre_finite_inputs
import proofs.«421442_j77936476553902_3_alg».proof.Proof.Spec
import proofs.«421442_j77936476553902_3_alg».proof.Proof.Bridge
import proofs.«421442_j77936476553902_3_alg».proof.Proof.PreDecode
import proofs.«421442_j77936476553902_3_alg».proof.Proof.KFinal
import proofs.«421442_j77936476553902_3_alg».proof.Proof.RefRun
import proofs.«421442_j77936476553902_3_alg».proof.Proof.RefRead
import proofs.«421442_j77936476553902_3_alg».proof.Proof.RefStages
import proofs.«421442_j77936476553902_3_alg».proof.Proof.RefValue
import Idealize.ShloMosaic.Adequacy
import Idealize.ShloMosaic.Init

noncomputable section

namespace Cert.Proof

open Idealize.ShloMosaic Idealize.SL.Sem Idealize.ShloMosaic.ValueIdx

/-- The word-level kernel runs and keeps its arguments: the generated frame (its side condition on the prefetched
    table is empty: no index map reads the table). -/
theorem frame_k : Cert.frame_Kernel := fun m ρ _ =>
  Cert.Kernel.Gen.frame m ρ (show Cert.Kernel.Gen.Ok m from trivial)

/-- The same for the idealized kernel. -/
theorem frame_ki : Cert.frame_KernelIdeal := fun m ρ _ =>
  Cert.KernelIdeal.Gen.frame m ρ (show Cert.KernelIdeal.Gen.Ok m from trivial)

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Stages.run (F := Ideal) m ρ)

/-- The ideal pass rewrote nothing. -/
theorem preserves : Cert.preserves_Kernel_KernelIdeal := trivial

/-- From memories agreeing on the arguments, with every action word in range, both programs end at the same number. -/
theorem algebraic : Cert.algebraic_KernelIdeal_ReferenceIdeal := by
  intro m ρ m' ρ' hpre hagree
  refine ⟨fun c => fun _ => (Cert.KernelIdeal.Inp.inputsOf m c).kerTotal,
    Cert.KernelIdeal.Final.run m ρ (show Cert.KernelIdeal.Gen.Ok m from trivial), ?_⟩
  refine (θ_run Cert.ReferenceIdeal.defs _ _).mono (fun _ h c => ⟨(h c).1.trans ?_, (h c).2⟩)
    (Cert.ReferenceIdeal.Stages.run (F := Ideal) m' ρ')
  obtain ⟨h0, h1, h2, h3, h4, h5, h6⟩ := hagree c
  rw [h0, h1, h2, h3, h4, h5, h6]
  have hact := Cert.Pre_finite_inputs.Decode.act_lt_four (F := Ideal) _ _ _ _ _ _ _ (hpre c)
  rw [Cert.ReferenceIdeal.RefValue.ref_value _ _ _ _ _ _ _ hact]
  funext _
  exact (Cert.Spec.Inputs.kerTotal_eq_refTotal (Cert.KernelIdeal.Inp.inputsOf m c) fun b t => hact (ix2 b t)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
